-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x16 : Shape := ⟨2, ![60000, 16]⟩
abbrev S2x960000 : Shape := ⟨2, ![2, 960000]⟩
abbrev S2000 : Shape := ⟨1, ![2000]⟩
abbrev S16x64 : Shape := ⟨2, ![16, 64]⟩
abbrev S64 : Shape := ⟨1, ![64]⟩
abbrev S128x64 : Shape := ⟨2, ![128, 64]⟩
abbrev S64x64 : Shape := ⟨2, ![64, 64]⟩
abbrev S64x6 : Shape := ⟨2, ![64, 6]⟩
abbrev S6 : Shape := ⟨1, ![6]⟩
abbrev S_ : Shape := ⟨0, ![]⟩

class Facts : Prop where
  bcast_S_S60000x16 : S_.BroadcastsInDim S60000x16 (![] : Fin 0 → Fin S60000x16.rank)
  reducesTo_S60000x16_S_d0_1 : S60000x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_
  bcast_S_S2x960000 : S_.BroadcastsInDim S2x960000 (![] : Fin 0 → Fin S2x960000.rank)
  reducesTo_S2x960000_S_d0_1 : S2x960000.ReducesTo [0, 1] S_

variable [Facts]

def fn_part4 {F : FTy → Type} [FloatOps F] (main_arg1 : IVec S2x960000 32) (main_arg16 : FVec F S6 .f32) (main_v63 : IVec S_ 1) (main_v67 : IVec S_ 1) : IVec S_ 1 :=
  let main_v68 : IVec S_ 1 := andi main_v63 main_v67
  let main_v69 : FVec F S6 .f32 := Host.absf main_arg16
  let main_cst_26 : FVec F S_ .f32 := constant S_ .f32 0x7F800000#32
  let main_v70 : FVec F S6 .f32 := broadcastInDim S6 ![] bcast_S_S6 main_cst_26
  let main_v71 : IVec S6 1 := cmpf .olt main_v69 main_v70
  let main_c_27 : IVec S_ 1 := constantI S_ 1 1#1
  let main_v72 : IVec S_ 1 := (fun x v => Host.reduce IntOp.andi x v reducesTo_S6_S_d0 h_S_) main_v71 main_c_27
  let main_v73 : IVec S_ 1 := andi main_v68 main_v72
  let main_c_28 : IVec S_ 32 := constantI S_ 32 0#32
  let main_v74 : IVec S2x960000 32 := broadcastInDim S2x960000 ![] bcast_S_S2x960000 main_c_28
  let main_v75 : IVec S2x960000 1 := cmpi .sge main_arg1 main_v74
  let main_c_29 : IVec S_ 1 := constantI S_ 1 1#1
  let main_v76 : IVec S_ 1 := (fun x v => Host.reduce IntOp.andi x v reducesTo_S2x960000_S_d0_1 h_S_) main_v75 main_c_29
  let main_v77 : IVec S_ 1 := andi main_v73 main_v76
  let main_c_30 : IVec S_ 32 := constantI S_ 32 60000#32
  let main_v78 : IVec S2x960000 32 := broadcastInDim S2x960000 ![] bcast_S_S2x960000 main_c_30
  let main_v79 : IVec S2x960000 1 := cmpi .slt main_arg1 main_v78
  let main_c_31 : IVec S_ 1 := constantI S_ 1 1#1
  let main_v80 : IVec S_ 1 := (fun x v => Host.reduce IntOp.andi x v reducesTo_S2x960000_S_d0_1 h_S_) main_v79 main_c_31
  let main_v81 : IVec S_ 1 := andi main_v77 main_v80
  main_v81

def fn_part3 {F : FTy → Type} [FloatOps F] (main_arg1 : IVec S2x960000 32) (main_arg13 : FVec F S64x64 .f32) (main_arg14 : FVec F S64 .f32) (main_arg15 : FVec F S64x6 .f32) (main_arg16 : FVec F S6 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x6 .f32 := Host.absf main_arg15
  let main_cst_24 : FVec F S_ .f32 := constant S_ .f32 0x7F800000#32
  let main_v65 : FVec F S64x6 .f32 := broadcastInDim S64x6 ![] bcast_S_S64x6 main_cst_24
  let main_v66 : IVec S64x6 1 := cmpf .olt main_v64 main_v65
  let main_c_25 : IVec S_ 1 := constantI S_ 1 1#1
  let main_v67 : IVec S_ 1 := (fun x v => Host.reduce IntOp.andi x v reducesTo_S64x6_S_d0_1 h_S_) main_v66 main_c_25
  fn_part4 (F := F) main_arg1 main_arg16 main_v63 main_v67

def fn_part2 {F : FTy → Type} [FloatOps F] (main_arg1 : IVec S2x960000 32) (main_arg9 : FVec F S128x64 .f32) (main_arg10 : FVec F S64 .f32) (main_arg11 : FVec F S64x64 .f32) (main_arg12 : FVec F S64 .f32) (main_arg13 : FVec F S64x64 .f32) (main_arg14 : FVec F S64 .f32) (main_arg15 : FVec F S64x6 .f32) (main_arg16 : FVec F S6 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_arg15 main_arg16 main_v48 main_v49 main_v50

def fn_part1 {F : FTy → Type} [FloatOps F] (main_arg1 : IVec S2x960000 32) (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) (main_arg13 : FVec F S64x64 .f32) (main_arg14 : FVec F S64 .f32) (main_arg15 : FVec F S64x6 .f32) (main_arg16 : FVec F S6 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_arg13 main_arg14 main_arg15 main_arg16 main_v33

def fn {F : FTy → Type} [FloatOps F] (main_arg0 : FVec F S60000x16 .f32) (main_arg1 : IVec S2x960000 32) (main_arg2 : IVec S2000 32) (main_arg3 : FVec F S16x64 .f32) (main_arg4 : FVec F S64 .f32) (main_arg5 : FVec F S128x64 .f32) (main_arg6 : FVec F S64 .f32) (main_arg7 : FVec F S64x64 .f32) (main_arg8 : FVec F S64 .f32) (main_arg9 : FVec F S128x64 .f32) (main_arg10 : FVec F S64 .f32) (main_arg11 : FVec F S64x64 .f32) (main_arg12 : FVec F S64 .f32) (main_arg13 : FVec F S64x64 .f32) (main_arg14 : FVec F S64 .f32) (main_arg15 : FVec F S64x6 .f32) (main_arg16 : FVec F S6 .f32) : IVec S_ 1 :=
  let main_v0 : FVec F S60000x16 .f32 := Host.absf main_arg0
  let main_cst : FVec F S_ .f32 := constant S_ .f32 0x7F800000#32
  let main_v1 : FVec F S60000x16 .f32 := broadcastInDim S60000x16 ![] bcast_S_S60000x16 main_cst
  let main_v2 : IVec S60000x16 1 := cmpf .olt main_v0 main_v1
  let main_c : IVec S_ 1 := constantI S_ 1 1#1
  let main_v3 : IVec S_ 1 := (fun x v => Host.reduce IntOp.andi x v reducesTo_S60000x16_S_d0_1 h_S_) main_v2 main_c
  let main_v4 : FVec F S16x64 .f32 := Host.absf main_arg3
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg6 main_arg7 main_arg8 main_arg9 main_arg10 main_arg11 main_arg12 main_arg13 main_arg14 main_arg15 main_arg16 main_v13 main_v16
-- ==== Kernel.lean ====
abbrev S60000x16 : Shape := ⟨2, ![60000, 16]⟩
abbrev S2x960000 : Shape := ⟨2, ![2, 960000]⟩
abbrev S2000 : Shape := ⟨1, ![2000]⟩
abbrev S16x64 : Shape := ⟨2, ![16, 64]⟩
abbrev S64 : Shape := ⟨1, ![64]⟩
abbrev S128x64 : Shape := ⟨2, ![128, 64]⟩
abbrev S64x64 : Shape := ⟨2, ![64, 64]⟩
abbrev S64x6 : Shape := ⟨2, ![64, 6]⟩
abbrev S6 : Shape := ⟨1, ![6]⟩
abbrev S1x960000 : Shape := ⟨2, ![1, 960000]⟩
abbrev S960000 : Shape := ⟨1, ![960000]⟩
abbrev S1x64 : Shape := ⟨2, ![1, 64]⟩
abbrev S60000x64 : Shape := ⟨2, ![60000, 64]⟩
abbrev S2000x16 : Shape := ⟨2, ![2000, 16]⟩
abbrev S2000x64 : Shape := ⟨2, ![2000, 64]⟩
abbrev S_ : Shape := ⟨0, ![]⟩
abbrev S60000 : Shape := ⟨1, ![60000]⟩
abbrev S960000x1 : Shape := ⟨2, ![960000, 1]⟩
abbrev S1 : Shape := ⟨1, ![1]⟩
abbrev S1x1 : Shape := ⟨2, ![1, 1]⟩
abbrev S960000x64 : Shape := ⟨2, ![960000, 64]⟩
abbrev S3840x64 : Shape := ⟨2, ![3840, 64]⟩
abbrev S3840x128 : Shape := ⟨2, ![3840, 128]⟩
abbrev S60000x1 : Shape := ⟨2, ![60000, 1]⟩
abbrev S1x6 : Shape := ⟨2, ![1, 6]⟩
abbrev S60000x6 : Shape := ⟨2, ![60000, 6]⟩
abbrev S2000x6 : Shape := ⟨2, ![2000, 6]⟩

abbrev nBuf : Space → Nat
  | .hbm => 148
  | .vmem => 34
  | .smem => 0
  | _ => 0

abbrev hbmTy0_0 (i : Nat) : BufTy := match i % 128 with
  | 0 => ⟨S60000x16, .f32⟩
  | 1 => ⟨S2x960000, .i32⟩
  | 2 => ⟨S2000, .i32⟩
  | 3 => ⟨S16x64, .f32⟩
  | 4 => ⟨S64, .f32⟩
  | 5 => ⟨S128x64, .f32⟩
  | 6 => ⟨S64, .f32⟩
  | 7 => ⟨S64x64, .f32⟩
  | 8 => ⟨S64, .f32⟩
  | 9 => ⟨S128x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x6, .f32⟩
  | 16 => ⟨S6, .f32⟩
  | 17 => ⟨S1x960000, .i32⟩
  | 18 => ⟨S960000, .i32⟩
  | 19 => ⟨S1x960000, .i32⟩
  | 20 => ⟨S960000, .i32⟩
  | 21 => ⟨S1x64, .f32⟩
  | 22 => ⟨S60000x64, .f32⟩
  | 23 => ⟨S_, .f32⟩
  | 24 => ⟨S960000, .f32⟩
  | 25 => ⟨S_, .f32⟩
  | 26 => ⟨S60000, .f32⟩
  | 27 => ⟨S960000x1, .i32⟩
  | 28 => ⟨S60000, .f32⟩
  | 29 => ⟨S_, .f32⟩
  | 30 => ⟨S_, .f32⟩
  | 31 => ⟨S60000, .f32⟩
  | 32 => ⟨S60000, .f32⟩
  | 33 => ⟨S_, .i32⟩
  | 34 => ⟨S960000, .i32⟩
  | 35 => ⟨S960000, .i1⟩
  | 36 => ⟨S_, .i32⟩
  | 37 => ⟨S960000, .i32⟩
  | 38 => ⟨S960000, .i32⟩
  | 39 => ⟨S960000, .i32⟩
  | 40 => ⟨S960000x1, .i32⟩
  | 41 => ⟨S1, .i32⟩
  | 42 => ⟨S_, .i32⟩
  | 43 => ⟨S960000x1, .i32⟩
  | 44 => ⟨S960000x1, .i1⟩
  | 45 => ⟨S1x1, .i32⟩
  | 46 => ⟨S960000x1, .i32⟩
  | 47 => ⟨S960000x1, .i1⟩
  | 48 => ⟨S960000x1, .i1⟩
  | 49 => ⟨S_, .i1⟩
  | 50 => ⟨S960000, .i1⟩
  | 51 => ⟨S960000x64, .f32⟩
  | 52 => ⟨S960000x64, .i1⟩
  | 53 => ⟨S_, .f32⟩
  | 54 => ⟨S960000x64, .f32⟩
  | 55 => ⟨S960000x64, .f32⟩
  | 56 => ⟨S_, .i32⟩
  | 57 => ⟨S960000, .i32⟩
  | 58 => ⟨S960000, .i1⟩
  | 59 => ⟨S_, .i32⟩
  | 60 => ⟨S960000, .i32⟩
  | 61 => ⟨S960000, .i32⟩
  | 62 => ⟨S960000, .i32⟩
  | 63 => ⟨S960000x1, .i32⟩
  | 64 => ⟨S1, .i32⟩
  | 65 => ⟨S_, .i32⟩
  | 66 => ⟨S960000x1, .i32⟩
  | 67 => ⟨S960000x1, .i1⟩
  | 68 => ⟨S1x1, .i32⟩
  | 69 => ⟨S960000x1, .i32⟩
  | 70 => ⟨S960000x1, .i1⟩
  | 71 => ⟨S960000x1, .i1⟩
  | 72 => ⟨S_, .i1⟩
  | 73 => ⟨S960000, .i1⟩
  | 74 => ⟨S960000x64, .f32⟩
  | 75 => ⟨S960000x64, .i1⟩
  | 76 => ⟨S_, .f32⟩
  | 77 => ⟨S960000x64, .f32⟩
  | 78 => ⟨S960000x64, .f32⟩
  | 79 => ⟨S1x64, .f32⟩
  | 80 => ⟨S1x64, .f32⟩
  | 81 => ⟨S960000x64, .f32⟩
  | 82 => ⟨S_, .f32⟩
  | 83 => ⟨S60000x64, .f32⟩
  | 84 => ⟨S960000x1, .i32⟩
  | 85 => ⟨S60000x64, .f32⟩
  | 86 => ⟨S60000x1, .f32⟩
  | 87 => ⟨S60000x64, .f32⟩
  | 88 => ⟨S60000x64, .f32⟩
  | 89 => ⟨S_, .i32⟩
  | 90 => ⟨S960000, .i32⟩
  | 91 => ⟨S960000, .i1⟩
  | 92 => ⟨S_, .i32⟩
  | 93 => ⟨S960000, .i32⟩
  | 94 => ⟨S960000, .i32⟩
  | 95 => ⟨S960000, .i32⟩
  | 96 => ⟨S960000x1, .i32⟩
  | 97 => ⟨S1, .i32⟩
  | 98 => ⟨S_, .i32⟩
  | 99 => ⟨S960000x1, .i32⟩
  | 100 => ⟨S960000x1, .i1⟩
  | 101 => ⟨S1x1, .i32⟩
  | 102 => ⟨S960000x1, .i32⟩
  | 103 => ⟨S960000x1, .i1⟩
  | 104 => ⟨S960000x1, .i1⟩
  | 105 => ⟨S_, .i1⟩
  | 106 => ⟨S960000, .i1⟩
  | 107 => ⟨S960000x64, .f32⟩
  | 108 => ⟨S960000x64, .i1⟩
  | 109 => ⟨S_, .f32⟩
  | 110 => ⟨S960000x64, .f32⟩
  | 111 => ⟨S960000x64, .f32⟩
  | 112 => ⟨S_, .i32⟩
  | 113 => ⟨S960000, .i32⟩
  | 114 => ⟨S960000, .i1⟩
  | 115 => ⟨S_, .i32⟩
  | 116 => ⟨S960000, .i32⟩
  | 117 => ⟨S960000, .i32⟩
  | 118 => ⟨S960000, .i32⟩
  | 119 => ⟨S960000x1, .i32⟩
  | 120 => ⟨S1, .i32⟩
  | 121 => ⟨S_, .i32⟩
  | 122 => ⟨S960000x1, .i32⟩
  | 123 => ⟨S960000x1, .i1⟩
  | 124 => ⟨S1x1, .i32⟩
  | 125 => ⟨S960000x1, .i32⟩
  | 126 => ⟨S960000x1, .i1⟩
  | 127 => ⟨S960000x1, .i1⟩
  | _ => ⟨S60000x16, .f32⟩

abbrev hbmTy0_1 (i : Nat) : BufTy := match i % 128 with
  | 0 => ⟨S_, .i1⟩
  | 1 => ⟨S960000, .i1⟩
  | 2 => ⟨S960000x64, .f32⟩
  | 3 => ⟨S960000x64, .i1⟩
  | 4 => ⟨S_, .f32⟩
  | 5 => ⟨S960000x64, .f32⟩
  | 6 => ⟨S960000x64, .f32⟩
  | 7 => ⟨S1x64, .f32⟩
  | 8 => ⟨S1x64, .f32⟩
  | 9 => ⟨S960000x64, .f32⟩
  | 10 => ⟨S_, .f32⟩
  | 11 => ⟨S60000x64, .f32⟩
  | 12 => ⟨S960000x1, .i32⟩
  | 13 => ⟨S60000x64, .f32⟩
  | 14 => ⟨S60000x1, .f32⟩
  | 15 => ⟨S60000x64, .f32⟩
  | 16 => ⟨S60000x64, .f32⟩
  | 17 => ⟨S1x64, .f32⟩
  | 18 => ⟨S1x6, .f32⟩
  | 19 => ⟨S60000x6, .f32⟩
  | _ => ⟨S60000x16, .f32⟩

abbrev hbmTy (i : Nat) : BufTy := match i / 128 with
  | 0 => hbmTy0_0 i
  | 1 => hbmTy0_1 i
  | _ => ⟨S60000x16, .f32⟩

abbrev bufTy : (tb : Table) → Fin (tcTables nBuf tb) → BufTy
  | .hbm, ⟨i, _⟩ => hbmTy i
  | .local _ .vmem, ⟨0, _⟩ => ⟨S2000x16, .f32⟩
  | .local _ .vmem, ⟨1, _⟩ => ⟨S2000x16, .f32⟩
  | .local _ .vmem, ⟨2, _⟩ => ⟨S16x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S3840x64, .f32⟩
  | .local _ .vmem, ⟨7, _⟩ => ⟨S3840x64, .f32⟩
  | .local _ .vmem, ⟨8, _⟩ => ⟨S3840x64, .f32⟩
  | .local _ .vmem, ⟨9, _⟩ => ⟨S3840x64, .f32⟩
  | .local _ .vmem, ⟨10, _⟩ => ⟨S128x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S3840x64, .f32⟩
  | .local _ .vmem, ⟨15, _⟩ => ⟨S3840x64, .f32⟩
  | .local _ .vmem, ⟨16, _⟩ => ⟨S3840x64, .f32⟩
  | .local _ .vmem, ⟨17, _⟩ => ⟨S3840x64, .f32⟩
  | .local _ .vmem, ⟨18, _⟩ => ⟨S3840x64, .f32⟩
  | .local _ .vmem, ⟨19, _⟩ => ⟨S3840x64, .f32⟩
  | .local _ .vmem, ⟨20, _⟩ => ⟨S128x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S3840x64, .f32⟩
  | .local _ .vmem, ⟨25, _⟩ => ⟨S3840x64, .f32⟩
  | .local _ .vmem, ⟨26, _⟩ => ⟨S2000x64, .f32⟩
  | .local _ .vmem, ⟨27, _⟩ => ⟨S2000x64, .f32⟩
  | .local _ .vmem, ⟨28, _⟩ => ⟨S64x64, .f32⟩
  | .local _ .vmem, ⟨29, _⟩ => ⟨S1x64, .f32⟩
  | .local _ .vmem, ⟨30, _⟩ => ⟨S64x6, .f32⟩
  | .local _ .vmem, ⟨31, _⟩ => ⟨S1x6, .f32⟩
  | .local _ .vmem, ⟨32, _⟩ => ⟨S2000x6, .f32⟩
  | .local _ .vmem, ⟨33, _⟩ => ⟨S2000x6, .f32⟩
  | _, _ => ⟨S60000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v10 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v11 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v12 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_cst_2 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v22 : Ref sig .tc := ⟨.hbm, 111, rfl⟩
abbrev main_call4_c : Ref sig .tc := ⟨.hbm, 112, rfl⟩
abbrev main_call4_v0 : Ref sig .tc := ⟨.hbm, 113, rfl⟩
abbrev main_call4_v1 : Ref sig .tc := ⟨.hbm, 114, rfl⟩
abbrev main_call4_c_0 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_call4_v5 : Ref sig .tc := ⟨.hbm, 119, rfl⟩
abbrev main_call4_c_1 : Ref sig .tc := ⟨.hbm, 120, rfl⟩
abbrev main_call4_c_2 : Ref sig .tc := ⟨.hbm, 121, rfl⟩
abbrev main_call4_v6 : Ref sig .tc := ⟨.hbm, 122, rfl⟩
abbrev main_call4_v7 : Ref sig .tc := ⟨.hbm, 123, rfl⟩
abbrev main_call4_v8 : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_3 : Ref sig .tc := ⟨.hbm, 128, rfl⟩
abbrev main_call4_v12 : Ref sig .tc := ⟨.hbm, 129, rfl⟩
abbrev main_call4_v13 : Ref sig .tc := ⟨.hbm, 130, rfl⟩
abbrev main_call4_v14 : Ref sig .tc := ⟨.hbm, 131, rfl⟩
abbrev main_call4_cst : Ref sig .tc := ⟨.hbm, 132, rfl⟩
abbrev main_call4_v15 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_cst_3 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3840x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3840x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S3840x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3840x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3840x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3840x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x6 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x6 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x6 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x960000_S1x960000_0_0 : S2x960000.Slices ![0, 0] S1x960000
  shapeCasts_S1x960000_S960000 : S1x960000.ShapeCasts S960000
  slices_S2x960000_S1x960000_1_0 : S2x960000.Slices ![1, 0] S1x960000
  shapeCasts_S64_S1x64 : S64.ShapeCasts S1x64
  inb_S2000x16_S2000x16_0_0 : ∀ a, (![0, 0] : Fin 2 → Nat) a + S2000x16.size a ≤ S2000x16.size a
  h_S2000x16 : 0 < S2000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S960000 : S_.BroadcastsInDim S960000 (![] : Fin 0 → Fin S960000.rank)
  bcast_S_S60000 : S_.BroadcastsInDim S60000 (![] : Fin 0 → Fin S60000.rank)
  bcast_S960000_S960000x1_0 : S960000.BroadcastsInDim S960000x1 (![0] : Fin 1 → Fin S960000x1.rank)
  bcast_S_S960000x1 : S_.BroadcastsInDim S960000x1 (![] : Fin 0 → Fin S960000x1.rank)
  bcast_S1_S1x1_1 : S1.BroadcastsInDim S1x1 (![1] : Fin 1 → Fin S1x1.rank)
  bcast_S1x1_S960000x1_0_1 : S1x1.BroadcastsInDim S960000x1 (![0, 1] : Fin 2 → Fin S960000x1.rank)
  reducesTo_S960000x1_S960000_d1 : S960000x1.ReducesTo [1] S960000
  h_S_ : 0 < S_.numel
  bcast_S960000_S960000x64_0 : S960000.BroadcastsInDim S960000x64 (![0] : Fin 1 → Fin S960000x64.rank)
  bcast_S_S960000x64 : S_.BroadcastsInDim S960000x64 (![] : Fin 0 → Fin S960000x64.rank)
  inb_S3840x64_S3840x64_0_0 : ∀ a, (![0, 0] : Fin 2 → Nat) a + S3840x64.size a ≤ S3840x64.size a
  h_S3840x64 : 0 < S3840x64.numel
  shapeCasts_S3840x64_S3840x64 : S3840x64.ShapeCasts S3840x64
  concatenates_S3840x64_S3840x64_S3840x128_d1 : Shape.Concatenates [S3840x64, S3840x64] S3840x128 1
  inb_S128x64_S128x64_0_0 : ∀ a, (![0, 0] : Fin 2 → Nat) a + S128x64.size a ≤ S128x64.size a
  h_S128x64 : 0 < S128x64.numel
  broadcasts_S1x64_S3840x64 : S1x64.Broadcasts S3840x64
  inb_S64x64_S64x64_0_0 : ∀ a, (![0, 0] : Fin 2 → Nat) a + S64x64.size a ≤ S64x64.size a
  h_S64x64 : 0 < S64x64.numel
  bcast_S_S60000x64 : S_.BroadcastsInDim S60000x64 (![] : Fin 0 → Fin S60000x64.rank)
  bcast_S60000_S60000x1_0 : S60000.BroadcastsInDim S60000x1 (![0] : Fin 1 → Fin S60000x1.rank)
  bcast_S60000x1_S60000x64_0_1 : S60000x1.BroadcastsInDim S60000x64 (![0, 1] : Fin 2 → Fin S60000x64.rank)
  shapeCasts_S6_S1x6 : S6.ShapeCasts S1x6
  shapeCasts_S2000x64_S2000x64 : S2000x64.ShapeCasts S2000x64
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S2000x6 : S1x6.Broadcasts S2000x6
  inb_S2000x6_S2000x6_0_0 : ∀ a, (![0, 0] : Fin 2 → Nat) a + S2000x6.size a ≤ S2000x6.size a
  h_S2000x6 : 0 < S2000x6.numel
  dot_S2000x16_S16x64_S2000x64_1_0_0_1_n_n_wf : DotDims.WF S2000x16 S16x64 S2000x64 [1] [0] [0] [1] [] []
  scatter_S60000_S960000x1_S960000_n_0_0_1_wf : ScatterDims.WF S60000 S960000x1 S960000 [] [0] [0] 1
  gather_S60000x64_S960000x1_S960000x64_1_0_n_n_0_1_164_wf : GatherDims.WF S60000x64 S960000x1 S960000x64 [1] [0] [] [0] [] 1 ![1, 64]
  dot_S3840x128_S128x64_S3840x64_1_0_0_1_n_n_wf : DotDims.WF S3840x128 S128x64 S3840x64 [1] [0] [0] [1] [] []
  dot_S3840x64_S64x64_S3840x64_1_0_0_1_n_n_wf : DotDims.WF S3840x64 S64x64 S3840x64 [1] [0] [0] [1] [] []
  scatter_S60000x64_S960000x1_S960000x64_1_0_0_1_wf : ScatterDims.WF S60000x64 S960000x1 S960000x64 [1] [0] [0] 1
  dot_S2000x64_S64x64_S2000x64_1_0_0_1_n_n_wf : DotDims.WF S2000x64 S64x64 S2000x64 [1] [0] [0] [1] [] []
  dot_S2000x64_S64x6_S2000x6_1_0_0_1_n_n_wf : DotDims.WF S2000x64 S64x6 S2000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S60000x16.size a
  hwx0_0 : ∀ i : grid0.Coords, EltTy.bits .f32 = 32 ∨ (Rect.block (s := S60000x16) S2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S60000x64.size a
  hwx0_3 : ∀ i : grid0.Coords, EltTy.bits .f32 = 32 ∨ (Rect.block (s := S60000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3840x64.size a ≤ S960000x64.size a
  hwx1_0 : ∀ i : grid1.Coords, EltTy.bits .f32 = 32 ∨ (Rect.block (s := S960000x64) S3840x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3840x64.size a ≤ S960000x64.size a
  hwx1_1 : ∀ i : grid1.Coords, EltTy.bits .f32 = 32 ∨ (Rect.block (s := S960000x64) S3840x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3840x64.size a ≤ S960000x64.size a
  hwx1_6 : ∀ i : grid1.Coords, EltTy.bits .f32 = 32 ∨ (Rect.block (s := S960000x64) S3840x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3840x64.size a ≤ S960000x64.size a
  hwx2_0 : ∀ i : grid2.Coords, EltTy.bits .f32 = 32 ∨ (Rect.block (s := S960000x64) S3840x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3840x64.size a ≤ S960000x64.size a
  hwx2_1 : ∀ i : grid2.Coords, EltTy.bits .f32 = 32 ∨ (Rect.block (s := S960000x64) S3840x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3840x64.size a ≤ S960000x64.size a
  hwx2_6 : ∀ i : grid2.Coords, EltTy.bits .f32 = 32 ∨ (Rect.block (s := S960000x64) S3840x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S60000x64.size a
  hwx3_0 : ∀ i : grid3.Coords, EltTy.bits .f32 = 32 ∨ (Rect.block (s := S60000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x6.size a ≤ S64x6.size a
  hwx3_3 : ∀ i : grid3.Coords, EltTy.bits .f32 = 32 ∨ (Rect.block (s := S64x6) S64x6.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x6.size a ≤ S1x6.size a
  hwx3_4 : ∀ i : grid3.Coords, EltTy.bits .f32 = 32 ∨ (Rect.block (s := S1x6) S1x6.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x6.size a ≤ S60000x6.size a
  hwx3_5 : ∀ i : grid3.Coords, EltTy.bits .f32 = 32 ∨ (Rect.block (s := S60000x6) S2000x6.size (cc3_transform_5 i) (hinb3_5 i)).WholeWords (EltTy.packing .f32)

variable [Facts₀]

def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def scatter_S60000_S960000x1_S960000_n_0_0_1 : ScatterDims S60000 S960000x1 S960000 where
  updateWindowDims := []
  insertedWindowDims := [0]
  scatterDimsToOperandDims := [0]
  indexVectorDim := 1
  wf := scatter_S60000_S960000x1_S960000_n_0_0_1_wf
def gather_S60000x64_S960000x1_S960000x64_1_0_n_n_0_1_164 : GatherDims S60000x64 S960000x1 S960000x64 where
  offsetDims := [1]
  collapsedSliceDims := [0]
  operandBatchingDims := []
  startIndicesBatchingDims := []
  startIndexMap := [0]
  indexVectorDim := 1
  sliceSizes := ![1, 64]
  wf := gather_S60000x64_S960000x1_S960000x64_1_0_n_n_0_1_164_wf
def dot_S3840x128_S128x64_S3840x64_1_0_0_1_n_n : DotDims S3840x128 S128x64 S3840x64 where
  lhsContracting := [1]
  rhsContracting := [0]
  lhsNonContracting := [0]
  rhsNonContracting := [1]
  lhsBatch := []
  rhsBatch := []
  wf := dot_S3840x128_S128x64_S3840x64_1_0_0_1_n_n_wf
def dot_S3840x64_S64x64_S3840x64_1_0_0_1_n_n : DotDims S3840x64 S64x64 S3840x64 where
  lhsContracting := [1]
  rhsContracting := [0]
  lhsNonContracting := [0]
  rhsNonContracting := [1]
  lhsBatch := []
  rhsBatch := []
  wf := dot_S3840x64_S64x64_S3840x64_1_0_0_1_n_n_wf
def scatter_S60000x64_S960000x1_S960000x64_1_0_0_1 : ScatterDims S60000x64 S960000x1 S960000x64 where
  updateWindowDims := [1]
  insertedWindowDims := [0]
  scatterDimsToOperandDims := [0]
  indexVectorDim := 1
  wf := scatter_S60000x64_S960000x1_S960000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x6_S2000x6_1_0_0_1_n_n : DotDims S2000x64 S64x6 S2000x6 where
  lhsContracting := [1]
  rhsContracting := [0]
  lhsNonContracting := [0]
  rhsNonContracting := [1]
  lhsBatch := []
  rhsBatch := []
  wf := dot_S2000x64_S64x6_S2000x6_1_0_0_1_n_n_wf

abbrev win0_0 : Pipeline.Window sig grid0 :=
  Pipeline.Window.ofSpec (Memref.whole main_arg0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S3840x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S3840x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S3840x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v22) S3840x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S3840x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S3840x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v32) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S64x6.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S1x6.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S2000x6.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S60000x16 : Shape := ⟨2, ![60000, 16]⟩
abbrev S2x960000 : Shape := ⟨2, ![2, 960000]⟩
abbrev S2000 : Shape := ⟨1, ![2000]⟩
abbrev S16x64 : Shape := ⟨2, ![16, 64]⟩
abbrev S64 : Shape := ⟨1, ![64]⟩
abbrev S128x64 : Shape := ⟨2, ![128, 64]⟩
abbrev S64x64 : Shape := ⟨2, ![64, 64]⟩
abbrev S64x6 : Shape := ⟨2, ![64, 6]⟩
abbrev S6 : Shape := ⟨1, ![6]⟩
abbrev S1x960000 : Shape := ⟨2, ![1, 960000]⟩
abbrev S960000 : Shape := ⟨1, ![960000]⟩
abbrev S60000x64 : Shape := ⟨2, ![60000, 64]⟩
abbrev S1x64 : Shape := ⟨2, ![1, 64]⟩
abbrev S_ : Shape := ⟨0, ![]⟩
abbrev S60000 : Shape := ⟨1, ![60000]⟩
abbrev S960000x1 : Shape := ⟨2, ![960000, 1]⟩
abbrev S960000x64 : Shape := ⟨2, ![960000, 64]⟩
abbrev S960000x128 : Shape := ⟨2, ![960000, 128]⟩
abbrev S60000x1 : Shape := ⟨2, ![60000, 1]⟩
abbrev S60000x6 : Shape := ⟨2, ![60000, 6]⟩
abbrev S1x6 : Shape := ⟨2, ![1, 6]⟩

abbrev nBuf : Space → Nat
  | .hbm => 131
  | .vmem => 0
  | .smem => 0
  | _ => 0

abbrev hbmTy0_0 (i : Nat) : BufTy := match i % 128 with
  | 0 => ⟨S60000x16, .f32⟩
  | 1 => ⟨S2x960000, .i32⟩
  | 2 => ⟨S2000, .i32⟩
  | 3 => ⟨S16x64, .f32⟩
  | 4 => ⟨S64, .f32⟩
  | 5 => ⟨S128x64, .f32⟩
  | 6 => ⟨S64, .f32⟩
  | 7 => ⟨S64x64, .f32⟩
  | 8 => ⟨S64, .f32⟩
  | 9 => ⟨S128x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x6, .f32⟩
  | 16 => ⟨S6, .f32⟩
  | 17 => ⟨S1x960000, .i32⟩
  | 18 => ⟨S960000, .i32⟩
  | 19 => ⟨S1x960000, .i32⟩
  | 20 => ⟨S960000, .i32⟩
  | 21 => ⟨S60000x64, .f32⟩
  | 22 => ⟨S1x64, .f32⟩
  | 23 => ⟨S60000x64, .f32⟩
  | 24 => ⟨S60000x64, .f32⟩
  | 25 => ⟨S_, .f32⟩
  | 26 => ⟨S60000x64, .f32⟩
  | 27 => ⟨S60000x64, .f32⟩
  | 28 => ⟨S_, .f32⟩
  | 29 => ⟨S960000, .f32⟩
  | 30 => ⟨S_, .f32⟩
  | 31 => ⟨S60000, .f32⟩
  | 32 => ⟨S960000x1, .i32⟩
  | 33 => ⟨S60000, .f32⟩
  | 34 => ⟨S_, .f32⟩
  | 35 => ⟨S_, .f32⟩
  | 36 => ⟨S60000, .f32⟩
  | 37 => ⟨S60000, .f32⟩
  | 38 => ⟨S_, .i32⟩
  | 39 => ⟨S960000, .i32⟩
  | 40 => ⟨S960000, .i1⟩
  | 41 => ⟨S_, .i32⟩
  | 42 => ⟨S960000, .i32⟩
  | 43 => ⟨S960000, .i32⟩
  | 44 => ⟨S960000, .i32⟩
  | 45 => ⟨S960000x1, .i32⟩
  | 46 => ⟨S960000x64, .f32⟩
  | 47 => ⟨S_, .i32⟩
  | 48 => ⟨S960000, .i32⟩
  | 49 => ⟨S960000, .i1⟩
  | 50 => ⟨S_, .i32⟩
  | 51 => ⟨S960000, .i32⟩
  | 52 => ⟨S960000, .i32⟩
  | 53 => ⟨S960000, .i32⟩
  | 54 => ⟨S960000x1, .i32⟩
  | 55 => ⟨S960000x64, .f32⟩
  | 56 => ⟨S960000x64, .f32⟩
  | 57 => ⟨S960000x128, .f32⟩
  | 58 => ⟨S960000x64, .f32⟩
  | 59 => ⟨S1x64, .f32⟩
  | 60 => ⟨S960000x64, .f32⟩
  | 61 => ⟨S960000x64, .f32⟩
  | 62 => ⟨S_, .f32⟩
  | 63 => ⟨S960000x64, .f32⟩
  | 64 => ⟨S960000x64, .f32⟩
  | 65 => ⟨S960000x64, .f32⟩
  | 66 => ⟨S1x64, .f32⟩
  | 67 => ⟨S960000x64, .f32⟩
  | 68 => ⟨S960000x64, .f32⟩
  | 69 => ⟨S_, .f32⟩
  | 70 => ⟨S960000x64, .f32⟩
  | 71 => ⟨S960000x64, .f32⟩
  | 72 => ⟨S_, .f32⟩
  | 73 => ⟨S60000x64, .f32⟩
  | 74 => ⟨S960000x1, .i32⟩
  | 75 => ⟨S60000x64, .f32⟩
  | 76 => ⟨S60000x1, .f32⟩
  | 77 => ⟨S60000x64, .f32⟩
  | 78 => ⟨S60000x64, .f32⟩
  | 79 => ⟨S_, .i32⟩
  | 80 => ⟨S960000, .i32⟩
  | 81 => ⟨S960000, .i1⟩
  | 82 => ⟨S_, .i32⟩
  | 83 => ⟨S960000, .i32⟩
  | 84 => ⟨S960000, .i32⟩
  | 85 => ⟨S960000, .i32⟩
  | 86 => ⟨S960000x1, .i32⟩
  | 87 => ⟨S960000x64, .f32⟩
  | 88 => ⟨S_, .i32⟩
  | 89 => ⟨S960000, .i32⟩
  | 90 => ⟨S960000, .i1⟩
  | 91 => ⟨S_, .i32⟩
  | 92 => ⟨S960000, .i32⟩
  | 93 => ⟨S960000, .i32⟩
  | 94 => ⟨S960000, .i32⟩
  | 95 => ⟨S960000x1, .i32⟩
  | 96 => ⟨S960000x64, .f32⟩
  | 97 => ⟨S960000x64, .f32⟩
  | 98 => ⟨S960000x128, .f32⟩
  | 99 => ⟨S960000x64, .f32⟩
  | 100 => ⟨S1x64, .f32⟩
  | 101 => ⟨S960000x64, .f32⟩
  | 102 => ⟨S960000x64, .f32⟩
  | 103 => ⟨S_, .f32⟩
  | 104 => ⟨S960000x64, .f32⟩
  | 105 => ⟨S960000x64, .f32⟩
  | 106 => ⟨S960000x64, .f32⟩
  | 107 => ⟨S1x64, .f32⟩
  | 108 => ⟨S960000x64, .f32⟩
  | 109 => ⟨S960000x64, .f32⟩
  | 110 => ⟨S_, .f32⟩
  | 111 => ⟨S960000x64, .f32⟩
  | 112 => ⟨S960000x64, .f32⟩
  | 113 => ⟨S_, .f32⟩
  | 114 => ⟨S60000x64, .f32⟩
  | 115 => ⟨S960000x1, .i32⟩
  | 116 => ⟨S60000x64, .f32⟩
  | 117 => ⟨S60000x1, .f32⟩
  | 118 => ⟨S60000x64, .f32⟩
  | 119 => ⟨S60000x64, .f32⟩
  | 120 => ⟨S60000x64, .f32⟩
  | 121 => ⟨S1x64, .f32⟩
  | 122 => ⟨S60000x64, .f32⟩
  | 123 => ⟨S60000x64, .f32⟩
  | 124 => ⟨S_, .f32⟩
  | 125 => ⟨S60000x64, .f32⟩
  | 126 => ⟨S60000x64, .f32⟩
  | 127 => ⟨S60000x6, .f32⟩
  | _ => ⟨S60000x16, .f32⟩

abbrev hbmTy0_1 (i : Nat) : BufTy := match i % 128 with
  | 0 => ⟨S1x6, .f32⟩
  | 1 => ⟨S60000x6, .f32⟩
  | 2 => ⟨S60000x6, .f32⟩
  | _ => ⟨S60000x16, .f32⟩

abbrev hbmTy (i : Nat) : BufTy := match i / 128 with
  | 0 => hbmTy0_0 i
  | 1 => hbmTy0_1 i
  | _ => ⟨S60000x16, .f32⟩

abbrev bufTy : (tb : Table) → Fin (tcTables nBuf tb) → BufTy
  | .hbm, ⟨i, _⟩ => hbmTy i
  | _, _ => ⟨S60000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_call1_v0 : Ref sig .tc := ⟨.hbm, 35, rfl⟩
abbrev main_call1_v1 : Ref sig .tc := ⟨.hbm, 36, rfl⟩
abbrev main_v13 : Ref sig .tc := ⟨.hbm, 37, rfl⟩
abbrev main_c : Ref sig .tc := ⟨.hbm, 38, rfl⟩
abbrev main_v14 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_3 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_call2_cst : Ref sig .tc := ⟨.hbm, 62, rfl⟩
abbrev main_call2_v0 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_call3_cst : Ref sig .tc := ⟨.hbm, 69, rfl⟩
abbrev main_call3_v0 : Ref sig .tc := ⟨.hbm, 70, rfl⟩
abbrev main_v39 : Ref sig .tc := ⟨.hbm, 71, rfl⟩
abbrev main_cst_5 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_6 : Ref sig .tc := ⟨.hbm, 79, rfl⟩
abbrev main_v46 : Ref sig .tc := ⟨.hbm, 80, rfl⟩
abbrev main_v47 : Ref sig .tc := ⟨.hbm, 81, rfl⟩
abbrev main_c_7 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_8 : Ref sig .tc := ⟨.hbm, 88, rfl⟩
abbrev main_v53 : Ref sig .tc := ⟨.hbm, 89, rfl⟩
abbrev main_v54 : Ref sig .tc := ⟨.hbm, 90, rfl⟩
abbrev main_c_9 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call4_cst : Ref sig .tc := ⟨.hbm, 103, rfl⟩
abbrev main_call4_v0 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_call5_cst : Ref sig .tc := ⟨.hbm, 110, rfl⟩
abbrev main_call5_v0 : Ref sig .tc := ⟨.hbm, 111, rfl⟩
abbrev main_v71 : Ref sig .tc := ⟨.hbm, 112, rfl⟩
abbrev main_cst_10 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_call6_cst : Ref sig .tc := ⟨.hbm, 124, rfl⟩
abbrev main_call6_v0 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩

abbrev nD : Nat := 1
abbrev τ : Topo := Topo.v7x

variable {F : FTy → Type} [FloatOps F]

class Facts₀ : Prop where
  slices_S2x960000_S1x960000_0_0 : S2x960000.Slices ![0, 0] S1x960000
  shapeCasts_S1x960000_S960000 : S1x960000.ShapeCasts S960000
  slices_S2x960000_S1x960000_1_0 : S2x960000.Slices ![1, 0] S1x960000
  bcast_S64_S1x64_1 : S64.BroadcastsInDim S1x64 (![1] : Fin 1 → Fin S1x64.rank)
  bcast_S1x64_S60000x64_0_1 : S1x64.BroadcastsInDim S60000x64 (![0, 1] : Fin 2 → Fin S60000x64.rank)
  bcast_S_S60000x64 : S_.BroadcastsInDim S60000x64 (![] : Fin 0 → Fin S60000x64.rank)
  bcast_S_S960000 : S_.BroadcastsInDim S960000 (![] : Fin 0 → Fin S960000.rank)
  bcast_S_S60000 : S_.BroadcastsInDim S60000 (![] : Fin 0 → Fin S60000.rank)
  bcast_S960000_S960000x1_0 : S960000.BroadcastsInDim S960000x1 (![0] : Fin 1 → Fin S960000x1.rank)
  concatenates_S960000x64_S960000x64_S960000x128_d1 : Shape.Concatenates [S960000x64, S960000x64] S960000x128 1
  bcast_S1x64_S960000x64_0_1 : S1x64.BroadcastsInDim S960000x64 (![0, 1] : Fin 2 → Fin S960000x64.rank)
  bcast_S_S960000x64 : S_.BroadcastsInDim S960000x64 (![] : Fin 0 → Fin S960000x64.rank)
  bcast_S60000_S60000x1_0 : S60000.BroadcastsInDim S60000x1 (![0] : Fin 1 → Fin S60000x1.rank)
  bcast_S60000x1_S60000x64_0_1 : S60000x1.BroadcastsInDim S60000x64 (![0, 1] : Fin 2 → Fin S60000x64.rank)
  bcast_S6_S1x6_1 : S6.BroadcastsInDim S1x6 (![1] : Fin 1 → Fin S1x6.rank)
  bcast_S1x6_S60000x6_0_1 : S1x6.BroadcastsInDim S60000x6 (![0, 1] : Fin 2 → Fin S60000x6.rank)
  dot_S60000x16_S16x64_S60000x64_1_0_0_1_n_n_wf : DotDims.WF S60000x16 S16x64 S60000x64 [1] [0] [0] [1] [] []
  scatter_S60000_S960000x1_S960000_n_0_0_1_wf : ScatterDims.WF S60000 S960000x1 S960000 [] [0] [0] 1
  gather_S60000x64_S960000x1_S960000x64_1_0_n_n_0_1_164_wf : GatherDims.WF S60000x64 S960000x1 S960000x64 [1] [0] [] [0] [] 1 ![1, 64]
  dot_S960000x128_S128x64_S960000x64_1_0_0_1_n_n_wf : DotDims.WF S960000x128 S128x64 S960000x64 [1] [0] [0] [1] [] []
  dot_S960000x64_S64x64_S960000x64_1_0_0_1_n_n_wf : DotDims.WF S960000x64 S64x64 S960000x64 [1] [0] [0] [1] [] []
  scatter_S60000x64_S960000x1_S960000x64_1_0_0_1_wf : ScatterDims.WF S60000x64 S960000x1 S960000x64 [1] [0] [0] 1
  dot_S60000x64_S64x64_S60000x64_1_0_0_1_n_n_wf : DotDims.WF S60000x64 S64x64 S60000x64 [1] [0] [0] [1] [] []
  dot_S60000x64_S64x6_S60000x6_1_0_0_1_n_n_wf : DotDims.WF S60000x64 S64x6 S60000x6 [1] [0] [0] [1] [] []

variable [Facts₀]

def dot_S60000x16_S16x64_S60000x64_1_0_0_1_n_n : DotDims S60000x16 S16x64 S60000x64 where
  lhsContracting := [1]
  rhsContracting := [0]
  lhsNonContracting := [0]
  rhsNonContracting := [1]
  lhsBatch := []
  rhsBatch := []
  wf := dot_S60000x16_S16x64_S60000x64_1_0_0_1_n_n_wf
def scatter_S60000_S960000x1_S960000_n_0_0_1 : ScatterDims S60000 S960000x1 S960000 where
  updateWindowDims := []
  insertedWindowDims := [0]
  scatterDimsToOperandDims := [0]
  indexVectorDim := 1
  wf := scatter_S60000_S960000x1_S960000_n_0_0_1_wf
def gather_S60000x64_S960000x1_S960000x64_1_0_n_n_0_1_164 : GatherDims S60000x64 S960000x1 S960000x64 where
  offsetDims := [1]
  collapsedSliceDims := [0]
  operandBatchingDims := []
  startIndicesBatchingDims := []
  startIndexMap := [0]
  indexVectorDim := 1
  sliceSizes := ![1, 64]
  wf := gather_S60000x64_S960000x1_S960000x64_1_0_n_n_0_1_164_wf
def dot_S960000x128_S128x64_S960000x64_1_0_0_1_n_n : DotDims S960000x128 S128x64 S960000x64 where
  lhsContracting := [1]
  rhsContracting := [0]
  lhsNonContracting := [0]
  rhsNonContracting := [1]
  lhsBatch := []
  rhsBatch := []
  wf := dot_S960000x128_S128x64_S960000x64_1_0_0_1_n_n_wf
def dot_S960000x64_S64x64_S960000x64_1_0_0_1_n_n : DotDims S960000x64 S64x64 S960000x64 where
  lhsContracting := [1]
  rhsContracting := [0]
  lhsNonContracting := [0]
  rhsNonContracting := [1]
  lhsBatch := []
  rhsBatch := []
  wf := dot_S960000x64_S64x64_S960000x64_1_0_0_1_n_n_wf
def scatter_S60000x64_S960000x1_S960000x64_1_0_0_1 : ScatterDims S60000x64 S960000x1 S960000x64 where
  updateWindowDims := [1]
  insertedWindowDims := [0]
  scatterDimsToOperandDims := [0]
  indexVectorDim := 1
  wf := scatter_S60000x64_S960000x1_S960000x64_1_0_0_1_wf
def dot_S60000x64_S64x64_S60000x64_1_0_0_1_n_n : DotDims S60000x64 S64x64 S60000x64 where
  lhsContracting := [1]
  rhsContracting := [0]
  lhsNonContracting := [0]
  rhsNonContracting := [1]
  lhsBatch := []
  rhsBatch := []
  wf := dot_S60000x64_S64x64_S60000x64_1_0_0_1_n_n_wf
def dot_S60000x64_S64x6_S60000x6_1_0_0_1_n_n : DotDims S60000x64 S64x6 S60000x6 where
  lhsContracting := [1]
  rhsContracting := [0]
  lhsNonContracting := [0]
  rhsNonContracting := [1]
  lhsBatch := []
  rhsBatch := []
  wf := dot_S60000x64_S64x6_S60000x6_1_0_0_1_n_n_wf

class Facts : Prop extends Facts₀ where

variable [Facts]
-- ==== Proof.Spec.lean ====
/-
  The network's three row-wise maps, entry by entry over the extended reals. Each acts on every row of its input
  alone, so it is written once for any number of rows: a block of rows of the result is the map of that block of
  rows. An affine map of a row `x` into `P` columns is `∑ k, x k * W k j + b j`; `relu` is `max · 0`.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns. -/
abbrev Mat (a b : ℕ) : Type := (⟨2, ![a, b]⟩ : Shape).Idx → EReal

/-- The row number of a matrix index. -/
def rowIx {a b : ℕ} (i : (⟨2, ![a, b]⟩ : Shape).Idx) : Fin a := ⟨(i 0).val, (i 0).isLt⟩
/-- The column number of a matrix index. -/
def colIx {a b : ℕ} (i : (⟨2, ![a, b]⟩ : Shape).Idx) : Fin b := ⟨(i 1).val, (i 1).isLt⟩

/-- Column `j` of the affine image of a row: `∑ k, x k * W k j + b j` (the bias a one-row matrix). -/
def affineAt {K P : ℕ} (x : Fin K → EReal) (W : Mat K P) (b : Mat 1 P) (j : Fin P) : EReal :=
  (∑ k : Fin K, x k * W (ix2 k j)) + b (ix2 (0 : Fin 1) j)

/-- The same clipped below at zero. -/
def reluAffineAt {K P : ℕ} (x : Fin K → EReal) (W : Mat K P) (b : Mat 1 P) (j : Fin P) : EReal :=
  max (affineAt x W b j) 0

/-- Node encoder: `relu (X W + b)`, row by row. -/
def encG {n : ℕ} (X : Mat n 16) (W : Mat 16 64) (b : Mat 1 64) : Mat n 64 :=
  fun i => reluAffineAt (fun k => X (ix2 (rowIx i) k)) W b (colIx i)

/-- The 128 inputs of an edge's message: the receiver's 64 features, then sender minus receiver. -/
def catRow {n : ℕ} (xd xs : Mat n 64) (e : Fin n) : Fin 128 → EReal :=
  fun k => if h : k.val < 64 then xd (ix2 e ⟨k.val, h⟩)
    else xs (ix2 e ⟨k.val - 64, by have := k.isLt; omega⟩) - xd (ix2 e ⟨k.val - 64, by have := k.isLt; omega⟩)

/-- Edge messages: `relu (relu ([xd, xs - xd] W₁ + b₁) W₂ + b₂)`, edge by edge. -/
def edgeG {n : ℕ} (xd xs : Mat n 64) (W1 : Mat 128 64) (b1 : Mat 1 64) (W2 : Mat 64 64) (b2 : Mat 1 64) : Mat n 64 :=
  fun i => reluAffineAt (fun q : Fin 64 => reluAffineAt (catRow xd xs (rowIx i)) W1 b1 q) W2 b2 (colIx i)

/-- Class scores: `relu (x W₀ + b₀) W_c + b_c`, node by node. -/
def predG {n : ℕ} (x : Mat n 64) (W0 : Mat 64 64) (b0 : Mat 1 64) (Wc : Mat 64 6) (bc : Mat 1 6) : Mat n 6 :=
  fun i => affineAt (fun q : Fin 64 => reluAffineAt (fun k => x (ix2 (rowIx i) k)) W0 b0 q) Wc bc (colIx i)

end Cert.Spec

end
-- ==== Proof.Net.lean ====
/-
  The whole network as one function of its seventeen inputs, over the extended reals: encode the nodes; twice, send a
  message along every edge (`Cert.Spec.edgeG` of the receiver's and the sender's rows) and average the messages each
  node receives (their sum over the node's in-degree, the degree held at one or more); score the classes. The rows
  are taken from the node table by the edge list (a negative number counted from the end), the sums are scatter-adds.
-/
import proofs.«427380_j33938831573442_1_alg».proof.Proof.Gen.KernelIdeal
import proofs.«427380_j33938831573442_1_alg».proof.Proof.Spec

noncomputable section

namespace Cert.KernelIdeal.Net

open Idealize.ShloMosaic Idealize.SL.Sem Cert.KernelIdeal Cert.KernelIdeal.Gen

/-- The senders: row 0 of the edge list. -/
def edgeRow0 (x1 : IVec S2x960000 32) : IVec S960000 32 :=
  shapeCast S960000 (extractStridedSlice S1x960000 ![0, 0] x1 slices_S2x960000_S1x960000_0_0) shapeCasts_S1x960000_S960000

/-- The receivers: row 1 of the edge list. -/
def edgeRow1 (x1 : IVec S2x960000 32) : IVec S960000 32 :=
  shapeCast S960000 (extractStridedSlice S1x960000 ![1, 0] x1 slices_S2x960000_S1x960000_1_0) shapeCasts_S1x960000_S960000

/-- Every entry is a node number: between 0 and 59999, read signed. -/
def InRange (ix : IVec S960000 32) : Prop := ∀ e : S960000.Idx, 0 ≤ (ix e).toInt ∧ (ix e).toInt < 60000

/-- A bias vector as a one-row matrix. -/
def biasRow (b : FVec Ideal S64 .f32) : FVec Ideal S1x64 .f32 := shapeCast S1x64 b shapeCasts_S64_S1x64
/-- The class bias as a one-row matrix. -/
def biasRow6 (b : FVec Ideal S6 .f32) : FVec Ideal S1x6 .f32 := shapeCast S1x6 b shapeCasts_S6_S1x6

/-- In-degree of every node, held at one or more: the ones scattered to the receivers, then `max 1`. -/
def degree (x1 : IVec S2x960000 32) : FVec Ideal S60000 .f32 :=
  maximumf (broadcastInDim S60000 ![] bcast_S_S60000 (id (constant (F := Ideal) S_ .f32 0x3F800000#32)))
    (Host.scatterAdd scatter_S60000_S960000x1_S960000_n_0_0_1
      (broadcastInDim S60000 ![] bcast_S_S60000 (constant (F := Ideal) S_ .f32 0x00000000#32))
      (broadcastInDim S960000x1 ![0] bcast_S960000_S960000x1_0 (edgeRow1 x1))
      (broadcastInDim S960000 ![] bcast_S_S960000 (constant (F := Ideal) S_ .f32 0x3F800000#32)))

/-- The index column a row lookup uses: a negative number has the table's height added. -/
def takeIdx (ix : IVec S960000 32) : IVec S960000x1 32 :=
  broadcastInDim S960000x1 ![0] bcast_S960000_S960000x1_0
    (select (cmpi .slt ix (broadcastInDim S960000 ![] bcast_S_S960000 (constantI S_ 32 0#32)))
      (addi ix (broadcastInDim S960000 ![] bcast_S_S960000 (constantI S_ 32 60000#32))) ix)

/-- The node table's rows at the listed nodes. -/
def rows (X : FVec Ideal S60000x64 .f32) (ix : IVec S960000 32) : FVec Ideal S960000x64 .f32 :=
  Host.gather gather_S60000x64_S960000x1_S960000x64_1_0_n_n_0_1_164 X (takeIdx ix)

/-- The same lookup with a fill value written over every row whose index column lies outside the table. -/
def takeFill (X : FVec Ideal S60000x64 .f32) (ix : IVec S960000 32) : FVec Ideal S960000x64 .f32 :=
  select
    (broadcastInDim S960000x64 ![0] bcast_S960000_S960000x64_0
      (Host.reduce IntOp.andi
        (andi (cmpi .sge (takeIdx ix) (broadcastInDim S960000x1 ![] bcast_S_S960000x1 (constantI S_ 32 0#32)))
          (cmpi .sle (takeIdx ix) (broadcastInDim S960000x1 ![0, 1] bcast_S1x1_S960000x1_0_1
            (broadcastInDim S1x1 ![1] bcast_S1_S1x1_1 (constantI S1 32 59999#32)))))
        (constantI S_ 1 1#1) reducesTo_S960000x1_S960000_d1 h_S_))
    (Host.gather gather_S60000x64_S960000x1_S960000x64_1_0_n_n_0_1_164 X (takeIdx ix))
    (broadcastInDim S960000x64 ![] bcast_S_S960000x64 (constant (F := Ideal) S_ .f32 0x7FC00000#32))

/-- Each node's received messages summed and divided by its degree. -/
def aggregate (M : FVec Ideal S960000x64 .f32) (x1 : IVec S2x960000 32) : FVec Ideal S60000x64 .f32 :=
  Host.divf
    (Host.scatterAdd scatter_S60000x64_S960000x1_S960000x64_1_0_0_1
      (broadcastInDim S60000x64 ![] bcast_S_S60000x64 (constant (F := Ideal) S_ .f32 0x00000000#32))
      (broadcastInDim S960000x1 ![0] bcast_S960000_S960000x1_0 (edgeRow1 x1)) M)
    (broadcastInDim S60000x64 ![0, 1] bcast_S60000x1_S60000x64_0_1
      (broadcastInDim S60000x1 ![0] bcast_S60000_S60000x1_0 (degree x1)))

/-- One round of message passing over node features `X`. -/
def layer (X : FVec Ideal S60000x64 .f32) (x1 : IVec S2x960000 32) (W1 : FVec Ideal S128x64 .f32) (b1 : FVec Ideal S64 .f32)
    (W2 : FVec Ideal S64x64 .f32) (b2 : FVec Ideal S64 .f32) : FVec Ideal S60000x64 .f32 :=
  aggregate (Cert.Spec.edgeG (rows X (edgeRow1 x1)) (rows X (edgeRow0 x1)) W1 (biasRow b1) W2 (biasRow b2)) x1

/-- The network. -/
def net (x0 : FVec Ideal S60000x16 .f32) (x1 : IVec S2x960000 32) (x3 : FVec Ideal S16x64 .f32) (x4 : FVec Ideal S64 .f32)
    (x5 : FVec Ideal S128x64 .f32) (x6 : FVec Ideal S64 .f32) (x7 : FVec Ideal S64x64 .f32) (x8 : FVec Ideal S64 .f32)
    (x9 : FVec Ideal S128x64 .f32) (x10 : FVec Ideal S64 .f32) (x11 : FVec Ideal S64x64 .f32) (x12 : FVec Ideal S64 .f32)
    (x13 : FVec Ideal S64x64 .f32) (x14 : FVec Ideal S64 .f32) (x15 : FVec Ideal S64x6 .f32) (x16 : FVec Ideal S6 .f32) :
    FVec Ideal S60000x6 .f32 :=
  Cert.Spec.predG (layer (layer (Cert.Spec.encG x0 x3 (biasRow x4)) x1 x5 x6 x7 x8) x1 x9 x10 x11 x12)
    x13 (biasRow x14) x15 (biasRow6 x16)

/-! ## The inputs of one core, and the network on them -/

section Inputs
variable (m : (ℓ : Loc nD τ sig) → Buf (Elt Ideal) ℓ)

/-- Input 0 of core `c` as launched. -/
abbrev in0 (c : Dev nD) : FVec Ideal S60000x16 .f32 := m ((c.tc : Thread nD τ).loc main_arg0)
/-- Input 1 of core `c` as launched. -/
abbrev in1 (c : Dev nD) : IVec S2x960000 32 := m ((c.tc : Thread nD τ).loc main_arg1)
/-- Input 3 of core `c` as launched. -/
abbrev in3 (c : Dev nD) : FVec Ideal S16x64 .f32 := m ((c.tc : Thread nD τ).loc main_arg3)
/-- Input 4 of core `c` as launched. -/
abbrev in4 (c : Dev nD) : FVec Ideal S64 .f32 := m ((c.tc : Thread nD τ).loc main_arg4)
/-- Input 5 of core `c` as launched. -/
abbrev in5 (c : Dev nD) : FVec Ideal S128x64 .f32 := m ((c.tc : Thread nD τ).loc main_arg5)
/-- Input 6 of core `c` as launched. -/
abbrev in6 (c : Dev nD) : FVec Ideal S64 .f32 := m ((c.tc : Thread nD τ).loc main_arg6)
/-- Input 7 of core `c` as launched. -/
abbrev in7 (c : Dev nD) : FVec Ideal S64x64 .f32 := m ((c.tc : Thread nD τ).loc main_arg7)
/-- Input 8 of core `c` as launched. -/
abbrev in8 (c : Dev nD) : FVec Ideal S64 .f32 := m ((c.tc : Thread nD τ).loc main_arg8)
/-- Input 9 of core `c` as launched. -/
abbrev in9 (c : Dev nD) : FVec Ideal S128x64 .f32 := m ((c.tc : Thread nD τ).loc main_arg9)
/-- Input 10 of core `c` as launched. -/
abbrev in10 (c : Dev nD) : FVec Ideal S64 .f32 := m ((c.tc : Thread nD τ).loc main_arg10)
/-- Input 11 of core `c` as launched. -/
abbrev in11 (c : Dev nD) : FVec Ideal S64x64 .f32 := m ((c.tc : Thread nD τ).loc main_arg11)
/-- Input 12 of core `c` as launched. -/
abbrev in12 (c : Dev nD) : FVec Ideal S64 .f32 := m ((c.tc : Thread nD τ).loc main_arg12)
/-- Input 13 of core `c` as launched. -/
abbrev in13 (c : Dev nD) : FVec Ideal S64x64 .f32 := m ((c.tc : Thread nD τ).loc main_arg13)
/-- Input 14 of core `c` as launched. -/
abbrev in14 (c : Dev nD) : FVec Ideal S64 .f32 := m ((c.tc : Thread nD τ).loc main_arg14)
/-- Input 15 of core `c` as launched. -/
abbrev in15 (c : Dev nD) : FVec Ideal S64x6 .f32 := m ((c.tc : Thread nD τ).loc main_arg15)
/-- Input 16 of core `c` as launched. -/
abbrev in16 (c : Dev nD) : FVec Ideal S6 .f32 := m ((c.tc : Thread nD τ).loc main_arg16)

/-- The network on core `c`'s inputs. -/
def netOf (c : Dev nD) : FVec Ideal S60000x6 .f32 :=
  net (in0 m c) (in1 m c) (in3 m c) (in4 m c) (in5 m c) (in6 m c) (in7 m c) (in8 m c) (in9 m c) (in10 m c) (in11 m c) (in12 m c) (in13 m c) (in14 m c) (in15 m c) (in16 m c)

end Inputs

end Cert.KernelIdeal.Net

end
-- ==== Proof.KEnc.lean ====
/- The encoder's launch: over any entry contents, the array it leaves is `Cert.Spec.encG` of its three input arrays. -/
import proofs.«427380_j33938831573442_1_alg».proof.Proof.Gen.KernelIdeal.Frame
import proofs.«427380_j33938831573442_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's payload is the encoder on its block of rows -/

/-- At output entry `i` and contraction index `q` the product reads the left operand at `(i 0, q)` and the right
    operand at `(q, i 1)`: the four coordinates, axis by axis. -/
theorem enc_lhs_0 (i : S2000x64.Idx) (q : dot_S2000x16_S16x64_S2000x64_1_0_0_1_n_n.contr.Idx) :
    (dot_S2000x16_S16x64_S2000x64_1_0_0_1_n_n.lhsIdx i q 0).val = (i 0).val := by
  unfold DotDims.lhsIdx
  rw [dif_neg (show ¬(0 : Fin S2000x16.rank) ∈ dot_S2000x16_S16x64_S2000x64_1_0_0_1_n_n.lhsBatch by decide), dif_pos (show (0 : Fin S2000x16.rank) ∈ dot_S2000x16_S16x64_S2000x64_1_0_0_1_n_n.lhsNonContracting by decide)]
  rfl
theorem enc_lhs_1 (i : S2000x64.Idx) (q : dot_S2000x16_S16x64_S2000x64_1_0_0_1_n_n.contr.Idx) :
    (dot_S2000x16_S16x64_S2000x64_1_0_0_1_n_n.lhsIdx i q 1).val = (q ⟨0, by decide⟩).val :=
  dot_S2000x16_S16x64_S2000x64_1_0_0_1_n_n.lhsIdx_val_of_single rfl i q
theorem enc_rhs_0 (i : S2000x64.Idx) (q : dot_S2000x16_S16x64_S2000x64_1_0_0_1_n_n.contr.Idx) :
    (dot_S2000x16_S16x64_S2000x64_1_0_0_1_n_n.rhsIdx i q 0).val = (q ⟨0, by decide⟩).val :=
  dot_S2000x16_S16x64_S2000x64_1_0_0_1_n_n.rhsIdx_val_of_single rfl i q
theorem enc_rhs_1 (i : S2000x64.Idx) (q : dot_S2000x16_S16x64_S2000x64_1_0_0_1_n_n.contr.Idx) :
    (dot_S2000x16_S16x64_S2000x64_1_0_0_1_n_n.rhsIdx i q 1).val = (i 1).val := by
  unfold DotDims.rhsIdx
  rw [dif_neg (show ¬(1 : Fin S16x64.rank) ∈ dot_S2000x16_S16x64_S2000x64_1_0_0_1_n_n.rhsBatch by decide), dif_pos (show (1 : Fin S16x64.rank) ∈ dot_S2000x16_S16x64_S2000x64_1_0_0_1_n_n.rhsNonContracting by decide)]
  rfl

/-- The product of a block of 2000 rows with the weights, accumulated from zero: entry `(p, q)` is
    `∑ k, a p k * b k q`. -/
theorem enc_matmul (a : FVec Ideal S2000x16 .bf16) (b : FVec Ideal S16x64 .bf16) (p : Fin 2000) (q : Fin 64) :
    matmul (F := Ideal) dot_S2000x16_S16x64_S2000x64_1_0_0_1_n_n none a b (constant (F := Ideal) S2000x64 .f32 0x00000000#32) (ix2 p q)
      = ∑ k : Fin 16, a (ix2 p k) * b (ix2 k q) := by
  simp only [matmul]
  rw [Ideal.matmul_constant_zero_apply, ← Equiv.sum_comp (contrEquiv1 dot_S2000x16_S16x64_S2000x64_1_0_0_1_n_n 16 rfl rfl).symm]
  refine Finset.sum_congr rfl fun k _ => ?_
  have hk := contrEquiv1_symm_val dot_S2000x16_S16x64_S2000x64_1_0_0_1_n_n 16 rfl rfl k
  have el : dot_S2000x16_S16x64_S2000x64_1_0_0_1_n_n.lhsIdx (ix2 p q) ((contrEquiv1 dot_S2000x16_S16x64_S2000x64_1_0_0_1_n_n 16 rfl rfl).symm k) = ix2 p k := funext fun a => Fin.ext (by
    match a with
    | ⟨0, _⟩ => exact enc_lhs_0 _ _
    | ⟨1, _⟩ => exact (enc_lhs_1 _ _).trans hk)
  have er : dot_S2000x16_S16x64_S2000x64_1_0_0_1_n_n.rhsIdx (ix2 p q) ((contrEquiv1 dot_S2000x16_S16x64_S2000x64_1_0_0_1_n_n 16 rfl rfl).symm k) = ix2 k q := funext fun a => Fin.ext (by
    match a with
    | ⟨0, _⟩ => exact (enc_rhs_0 _ _).trans hk
    | ⟨1, _⟩ => exact enc_rhs_1 _ _)
  rw [el, er]

/-- The payload of a point: the encoder applied to the point's block of 2000 rows. -/
theorem enc_pay (x0 : Vec Ideal S2000x16 .f32) (x1 : Vec Ideal S16x64 .f32) (x2 : Vec Ideal S1x64 .f32) :
    k0_pay1 (F := Ideal) x0 x1 x2 = Cert.Spec.encG x0 x1 x2 := by
  funext j
  obtain ⟨p, q, rfl⟩ : ∃ (p : Fin 2000) (q : Fin 64), j = ix2 p q := ⟨j 0, j 1, eq_ix2 j⟩
  unfold k0_pay1
  rw [maximumf_apply, addf_apply, enc_matmul, shapeCast_self, broadcastTo_1b_ab_apply, broadcast_apply]
  simp only [truncf_apply]
  show max _ (Ideal.ofBits .f32 0x00000000#32) = _
  rw [Ideal.ofBits_zero_f32]
  rfl

/-! ## From the blocks to the array -/

/-- A block of rows of the encoder's result is the encoder of that block of rows: entry `j` of the encoder of `x` is
    entry `i` of the encoder of `X` when the two sit in the same column and row `j` of `x` is row `i` of `X`. -/
theorem encG_rows {n n' : ℕ} (X : Cert.Spec.Mat n 16) (x : Cert.Spec.Mat n' 16) (W : Cert.Spec.Mat 16 64) (b : Cert.Spec.Mat 1 64)
    (i : (⟨2, ![n, 64]⟩ : Shape).Idx) (j : (⟨2, ![n', 64]⟩ : Shape).Idx) (hcol : (j 1).val = (i 1).val)
    (hrow : ∀ k : Fin 16, x (ix2 (Cert.Spec.rowIx j) k) = X (ix2 (Cert.Spec.rowIx i) k)) :
    Cert.Spec.encG x W b j = Cert.Spec.encG X W b i := by
  have hc : Cert.Spec.colIx j = Cert.Spec.colIx i := Fin.ext hcol
  unfold Cert.Spec.encG Cert.Spec.reluAffineAt Cert.Spec.affineAt
  rw [hc]
  simp only [hrow]

/-- The zero offsets of a whole-block access. -/
theorem enc_hz : (![0, 0] : Fin 2 → Nat) = fun _ => 0 := funext fun a => by fin_cases a <;> rfl

/-- The index maps over the grid: point `t` reads block `(t, 0)` of the rows and writes block `(t, 0)` of the
    result; the weights and the bias are read whole. -/
theorem enc_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block of rows point `t` reads is row `2000 t + p` of the array. -/
theorem enc_rows_apply (c : Dev nD) (t : Fin cfg0.N) (y : S2000x16.Idx) (k : S60000x16.Idx)
    (hk0 : (k 0).val = 2000 * t.val + (y 0).val) (hk1 : (k 1).val = (y 1).val) :
    (iblk0 (F := Ideal) V c 0 t : Vec Ideal S2000x16 .f32) y = (V c main_arg0 : S60000x16.Idx → EReal) k := by
  obtain ⟨e0, e1, -⟩ := enc_idx_facts t
  unfold iblk0
  rw [View.read_apply]
  show V c main_arg0 _ = V c main_arg0 _
  congr 1
  funext a
  apply Fin.ext
  match a with
  | ⟨0, _⟩ => show win0_0.index t (0 : Fin 2) * 2000 + 1 * (y 0).val = (k 0).val; rw [e0, hk0]; omega
  | ⟨1, _⟩ => show win0_0.index t (1 : Fin 2) * 16 + 1 * (y 1).val = (k 1).val; rw [e1, hk1]; omega

/-- The weights' block at every point is the whole array. -/
theorem enc_weights (c : Dev nD) (t : Fin cfg0.N) :
    (iblk0 (F := Ideal) V c 1 t : Vec Ideal S16x64 .f32) = V c main_arg3 := by
  obtain ⟨-, -, e2, e3, -⟩ := enc_idx_facts t
  funext y
  unfold iblk0
  rw [View.read_apply]
  show V c main_arg3 _ = V c main_arg3 y
  congr 1
  funext a
  apply Fin.ext
  match a with
  | ⟨0, _⟩ => show win0_1.index t (0 : Fin 2) * 16 + 1 * (y 0).val = (y 0).val; rw [e2]; omega
  | ⟨1, _⟩ => show win0_1.index t (1 : Fin 2) * 64 + 1 * (y 1).val = (y 1).val; rw [e3]; omega

/-- The bias's block at every point is the whole array. -/
theorem enc_bias (c : Dev nD) (t : Fin cfg0.N) :
    (iblk0 (F := Ideal) V c 2 t : Vec Ideal S1x64 .f32) = V c main_v4 := by
  obtain ⟨-, -, -, -, e4, e5, -⟩ := enc_idx_facts t
  funext y
  unfold iblk0
  rw [View.read_apply]
  show V c main_v4 _ = V c main_v4 y
  congr 1
  funext a
  apply Fin.ext
  match a with
  | ⟨0, _⟩ => show win0_2.index t (0 : Fin 2) * 1 + 1 * (y 0).val = (y 0).val; rw [e4]; omega
  | ⟨1, _⟩ => show win0_2.index t (1 : Fin 2) * 64 + 1 * (y 1).val = (y 1).val; rw [e5]; omega

/-- What point `t` writes back is block `t` of the encoder of the three input arrays. -/
theorem enc_flushed (c : Dev nD) (t : Fin cfg0.N) :
    (dat0 (F := Ideal) V c).flushed 3 t
      = ((cfg0.win 3).blk t).view.read (Elt Ideal) (Cert.Spec.encG (V c main_arg0) (V c main_arg3) (V c main_v4)) := by
  show (cfg0.win 3).cut (grid0.coords t) ((dat0 (F := Ideal) V c).after 3 t) = _
  rw [after0_3]
  unfold out0_3
  rw [View.canon_unit_zero enc_hz]
  simp only [View.ld_unit_zero (S := S2000x16) enc_hz, View.ld_unit_zero (S := S16x64) enc_hz, View.ld_unit_zero (S := S1x64) enc_hz]
  obtain ⟨-, -, -, -, -, -, e6, e7⟩ := enc_idx_facts t
  funext j
  rw [View.read_apply]
  show k0_pay1 (F := Ideal) (iblk0 V c 0 t) (iblk0 V c 1 t) (iblk0 V c 2 t) j = _
  rw [enc_pay, enc_weights, enc_bias]
  show Cert.Spec.encG (n := 2000) (iblk0 (F := Ideal) V c 0 t) (V c main_arg3) (V c main_v4) j
    = Cert.Spec.encG (n := 60000) (V c main_arg0) (V c main_arg3) (V c main_v4) (((cfg0.win 3).blk t).view.emb j)
  refine encG_rows (n := 60000) (n' := 2000) _ _ _ _ _ _ ?_ fun k => enc_rows_apply V c t _ _ ?_ rfl
  · show (j 1).val = win0_3.index t (1 : Fin 2) * 64 + 1 * (j 1).val
    rw [e7]; omega
  · show win0_3.index t (0 : Fin 2) * 2000 + 1 * (j 0).val = 2000 * t.val + (j 0).val
    rw [e6]; omega

/-- An index of the result array is in point `t`'s block iff each coordinate is in the block's range on its axis. -/
theorem enc_mem_blk (t : Fin cfg0.N) (i : S60000x64.Idx) :
    i ∈ ((cfg0.win 3).blk t).view.set
      ↔ ∀ a : Fin 2, win0_3.index t a * S2000x64.size a ≤ (i a).val ∧ (i a).val < win0_3.index t a * S2000x64.size a + S2000x64.size a := by
  show i ∈ ((View.whole main_v5).slice (win0_3.rect t)).set ↔ _
  rw [View.set_slice_whole, Rect.mem_set_unit]
  exact Iff.rfl

/-- The 30 blocks of 2000 rows tile the 60000 rows: row `r` lies in the block of point `r / 2000`. -/
theorem enc_cover (i : S60000x64.Idx) :
    ∃ t : Fin cfg0.N, (cfg0.win 3).flush t = true ∧ i ∈ ((cfg0.win 3).blk t).view.set := by
  have hi0 : (i 0).val < 60000 := (i 0).isLt
  have hi1 : (i 1).val < 64 := (i 1).isLt
  have hN : cfg0.N = 30 := N_0
  obtain ⟨t, ht⟩ : ∃ t : Fin cfg0.N, t.val = (i 0).val / 2000 := ⟨⟨(i 0).val / 2000, by rw [hN]; omega⟩, rfl⟩
  obtain ⟨-, -, -, -, -, -, e6, e7⟩ := enc_idx_facts t
  refine ⟨t, flush0_3 t, ?_⟩
  rw [enc_mem_blk]
  intro a
  match a with
  | ⟨0, _⟩ =>
    show win0_3.index t (0 : Fin 2) * 2000 ≤ (i 0).val ∧ (i 0).val < win0_3.index t (0 : Fin 2) * 2000 + 2000
    rw [e6, ht]; omega
  | ⟨1, _⟩ =>
    show win0_3.index t (1 : Fin 2) * 64 ≤ (i 1).val ∧ (i 1).val < win0_3.index t (1 : Fin 2) * 64 + 64
    rw [e7]; omega

/-- Every block of 2000 rows the body writes back is that block of `encG` of the input arrays, and the 30 blocks
    tile the 60000 rows. -/
theorem enc_arr (c : Dev nD) :
    (dat0 (F := Ideal) V c).arrAt 3 cfg0.N = Cert.Spec.encG (V c main_arg0) (V c main_arg3) (V c main_v4) :=
  (dat0 (F := Ideal) V c).arrAt_eq_of_cover 3 _ (fun t _ => enc_flushed V c t) enc_cover

end Cert.KernelIdeal.RegionValue

end
-- ==== Proof.KEdge1.lean ====
/- The first message launch: over any entry contents, the array it leaves is `Cert.Spec.edgeG` of its six input arrays.
   Entry `(e, q)` of the body's block is computed from row `e` of the two feature blocks alone, so the body's block is the
   message map of its blocks of rows; block `t` of the two feature arrays is rows `3840 t … 3840 t + 3839`, the weights'
   blocks are the whole weight arrays, and edge `e` lies in the block of point `e / 3840`. -/
import proofs.«427380_j33938831573442_1_alg».proof.Proof.Gen.KernelIdeal.Frame
import proofs.«427380_j33938831573442_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The two matrix products at an entry -/

/-- The first product contracts the left factor's columns against the right factor's rows: at output entry `i` and
    contraction position `q` the left operand is read at `(i 0, q)` and the right one at `(q, i 1)`, axis by axis. -/
theorem edge1_lhs_cat_0 (i : S3840x64.Idx) (q : dot_S3840x128_S128x64_S3840x64_1_0_0_1_n_n.contr.Idx) :
    (dot_S3840x128_S128x64_S3840x64_1_0_0_1_n_n.lhsIdx i q 0).val = (i 0).val := by
  unfold DotDims.lhsIdx
  rw [dif_neg (show ¬(0 : Fin S3840x128.rank) ∈ dot_S3840x128_S128x64_S3840x64_1_0_0_1_n_n.lhsBatch by decide), dif_pos (show (0 : Fin S3840x128.rank) ∈ dot_S3840x128_S128x64_S3840x64_1_0_0_1_n_n.lhsNonContracting by decide)]
  rfl
theorem edge1_lhs_cat_1 (i : S3840x64.Idx) (q : dot_S3840x128_S128x64_S3840x64_1_0_0_1_n_n.contr.Idx) :
    (dot_S3840x128_S128x64_S3840x64_1_0_0_1_n_n.lhsIdx i q 1).val = (q ⟨0, by decide⟩).val :=
  dot_S3840x128_S128x64_S3840x64_1_0_0_1_n_n.lhsIdx_val_of_single rfl i q
theorem edge1_rhs_cat_0 (i : S3840x64.Idx) (q : dot_S3840x128_S128x64_S3840x64_1_0_0_1_n_n.contr.Idx) :
    (dot_S3840x128_S128x64_S3840x64_1_0_0_1_n_n.rhsIdx i q 0).val = (q ⟨0, by decide⟩).val :=
  dot_S3840x128_S128x64_S3840x64_1_0_0_1_n_n.rhsIdx_val_of_single rfl i q
theorem edge1_rhs_cat_1 (i : S3840x64.Idx) (q : dot_S3840x128_S128x64_S3840x64_1_0_0_1_n_n.contr.Idx) :
    (dot_S3840x128_S128x64_S3840x64_1_0_0_1_n_n.rhsIdx i q 1).val = (i 1).val := by
  unfold DotDims.rhsIdx
  rw [dif_neg (show ¬(1 : Fin S128x64.rank) ∈ dot_S3840x128_S128x64_S3840x64_1_0_0_1_n_n.rhsBatch by decide), dif_pos (show (1 : Fin S128x64.rank) ∈ dot_S3840x128_S128x64_S3840x64_1_0_0_1_n_n.rhsNonContracting by decide)]
  rfl

/-- The first product at entry `(p, q)`: row `p` of the left factor against column `q` of the right one. -/
theorem edge1_mm_cat_apply (a : FVec Ideal S3840x128 .bf16) (b : FVec Ideal S128x64 .bf16) (p : Fin 3840) (q : Fin 64) :
    matmul (F := Ideal) dot_S3840x128_S128x64_S3840x64_1_0_0_1_n_n none a b (constant (F := Ideal) S3840x64 .f32 0x00000000#32) (ix2 p q)
      = ∑ k : Fin 128, a (ix2 p k) * b (ix2 k q) := by
  simp only [matmul]
  rw [Ideal.matmul_constant_zero_apply, ← Equiv.sum_comp (contrEquiv1 dot_S3840x128_S128x64_S3840x64_1_0_0_1_n_n 128 rfl rfl).symm]
  refine Finset.sum_congr rfl fun k _ => ?_
  have hk := contrEquiv1_symm_val dot_S3840x128_S128x64_S3840x64_1_0_0_1_n_n 128 rfl rfl k
  have el : dot_S3840x128_S128x64_S3840x64_1_0_0_1_n_n.lhsIdx (ix2 p q) ((contrEquiv1 dot_S3840x128_S128x64_S3840x64_1_0_0_1_n_n 128 rfl rfl).symm k) = ix2 p k := funext fun a => Fin.ext (by
    match a with
    | ⟨0, _⟩ => exact edge1_lhs_cat_0 _ _
    | ⟨1, _⟩ => exact (edge1_lhs_cat_1 _ _).trans hk)
  have er : dot_S3840x128_S128x64_S3840x64_1_0_0_1_n_n.rhsIdx (ix2 p q) ((contrEquiv1 dot_S3840x128_S128x64_S3840x64_1_0_0_1_n_n 128 rfl rfl).symm k) = ix2 k q := funext fun a => Fin.ext (by
    match a with
    | ⟨0, _⟩ => exact (edge1_rhs_cat_0 _ _).trans hk
    | ⟨1, _⟩ => exact edge1_rhs_cat_1 _ _)
  rw [el, er]

/-- The second product likewise: the left operand at `(i 0, q)`, the right one at `(q, i 1)`. -/
theorem edge1_lhs_hid_0 (i : S3840x64.Idx) (q : dot_S3840x64_S64x64_S3840x64_1_0_0_1_n_n.contr.Idx) :
    (dot_S3840x64_S64x64_S3840x64_1_0_0_1_n_n.lhsIdx i q 0).val = (i 0).val := by
  unfold DotDims.lhsIdx
  rw [dif_neg (show ¬(0 : Fin S3840x64.rank) ∈ dot_S3840x64_S64x64_S3840x64_1_0_0_1_n_n.lhsBatch by decide), dif_pos (show (0 : Fin S3840x64.rank) ∈ dot_S3840x64_S64x64_S3840x64_1_0_0_1_n_n.lhsNonContracting by decide)]
  rfl
theorem edge1_lhs_hid_1 (i : S3840x64.Idx) (q : dot_S3840x64_S64x64_S3840x64_1_0_0_1_n_n.contr.Idx) :
    (dot_S3840x64_S64x64_S3840x64_1_0_0_1_n_n.lhsIdx i q 1).val = (q ⟨0, by decide⟩).val :=
  dot_S3840x64_S64x64_S3840x64_1_0_0_1_n_n.lhsIdx_val_of_single rfl i q
theorem edge1_rhs_hid_0 (i : S3840x64.Idx) (q : dot_S3840x64_S64x64_S3840x64_1_0_0_1_n_n.contr.Idx) :
    (dot_S3840x64_S64x64_S3840x64_1_0_0_1_n_n.rhsIdx i q 0).val = (q ⟨0, by decide⟩).val :=
  dot_S3840x64_S64x64_S3840x64_1_0_0_1_n_n.rhsIdx_val_of_single rfl i q
theorem edge1_rhs_hid_1 (i : S3840x64.Idx) (q : dot_S3840x64_S64x64_S3840x64_1_0_0_1_n_n.contr.Idx) :
    (dot_S3840x64_S64x64_S3840x64_1_0_0_1_n_n.rhsIdx i q 1).val = (i 1).val := by
  unfold DotDims.rhsIdx
  rw [dif_neg (show ¬(1 : Fin S64x64.rank) ∈ dot_S3840x64_S64x64_S3840x64_1_0_0_1_n_n.rhsBatch by decide), dif_pos (show (1 : Fin S64x64.rank) ∈ dot_S3840x64_S64x64_S3840x64_1_0_0_1_n_n.rhsNonContracting by decide)]
  rfl

/-- The second product at entry `(p, q)`. -/
theorem edge1_mm_hid_apply (a : FVec Ideal S3840x64 .bf16) (b : FVec Ideal S64x64 .bf16) (p : Fin 3840) (q : Fin 64) :
    matmul (F := Ideal) dot_S3840x64_S64x64_S3840x64_1_0_0_1_n_n none a b (constant (F := Ideal) S3840x64 .f32 0x00000000#32) (ix2 p q)
      = ∑ k : Fin 64, a (ix2 p k) * b (ix2 k q) := by
  simp only [matmul]
  rw [Ideal.matmul_constant_zero_apply, ← Equiv.sum_comp (contrEquiv1 dot_S3840x64_S64x64_S3840x64_1_0_0_1_n_n 64 rfl rfl).symm]
  refine Finset.sum_congr rfl fun k _ => ?_
  have hk := contrEquiv1_symm_val dot_S3840x64_S64x64_S3840x64_1_0_0_1_n_n 64 rfl rfl k
  have el : dot_S3840x64_S64x64_S3840x64_1_0_0_1_n_n.lhsIdx (ix2 p q) ((contrEquiv1 dot_S3840x64_S64x64_S3840x64_1_0_0_1_n_n 64 rfl rfl).symm k) = ix2 p k := funext fun a => Fin.ext (by
    match a with
    | ⟨0, _⟩ => exact edge1_lhs_hid_0 _ _
    | ⟨1, _⟩ => exact (edge1_lhs_hid_1 _ _).trans hk)
  have er : dot_S3840x64_S64x64_S3840x64_1_0_0_1_n_n.rhsIdx (ix2 p q) ((contrEquiv1 dot_S3840x64_S64x64_S3840x64_1_0_0_1_n_n 64 rfl rfl).symm k) = ix2 k q := funext fun a => Fin.ext (by
    match a with
    | ⟨0, _⟩ => exact (edge1_rhs_hid_0 _ _).trans hk
    | ⟨1, _⟩ => exact edge1_rhs_hid_1 _ _)
  rw [el, er]

/-! ## The concatenation at an entry -/

/-- Row `p` of `[a, b]` joined along the columns is `a`'s row `p` on the first 64 columns and `b`'s on the last 64. -/
theorem edge1_cat_apply (a b : S3840x64.Idx → EReal) (h : Shape.Concatenates [S3840x64, S3840x64] S3840x128 1) (p : Fin 3840) (k : Fin 128) :
    concatenate S3840x128 1 [⟨S3840x64, a⟩, ⟨S3840x64, b⟩] h (ix2 p k)
      = if hk : k.val < 64 then a (ix2 p ⟨k.val, hk⟩) else b (ix2 p ⟨k.val - 64, by have := k.isLt; omega⟩) := by
  split
  · next hk =>
    refine concatenate_pair_apply_left (1 : Fin S3840x128.rank) a b h (ix2 p k) rfl (ix2 p ⟨k.val, hk⟩) fun ax => ?_
    match ax with
    | ⟨0, _⟩ => rfl
    | ⟨1, _⟩ => rfl
  · next hk =>
    refine concatenate_pair_apply_right (1 : Fin S3840x128.rank) a b h (ix2 p k) rfl rfl (ix2 p ⟨k.val - 64, by have := k.isLt; omega⟩) (fun ax hax => ?_) ?_
    · match ax with
      | ⟨0, _⟩ => rfl
      | ⟨1, _⟩ => exact absurd rfl hax
    · show k.val - 64 + 64 = k.val
      omega

/-! ## The body's payload is the message map on its block of rows -/

/-- The zero word is the extended real zero. -/
theorem edge1_zero_word : (FloatOps.ofBits FTy.f32 0x00000000#32 : Ideal .f32) = (0 : EReal) := Ideal.ofBits_zero_f32

/-- The body's value on blocks `x0` (receivers), `x1` (senders) and the four weight blocks: entry `(p, q)` is
    `relu (∑ k, relu (∑ k', [x0, x1 - x0] p k' * x2 k' k + x3 k) * x4 k q + x5 q)`, the message map's entry. -/
theorem edge1_pay_eq (x0 x1 : Vec Ideal S3840x64 .f32) (x2 : Vec Ideal S128x64 .f32) (x3 : Vec Ideal S1x64 .f32)
    (x4 : Vec Ideal S64x64 .f32) (x5 : Vec Ideal S1x64 .f32) :
    k1_pay1 (F := Ideal) x0 x1 x2 x3 x4 x5 = Cert.Spec.edgeG x0 x1 x2 x3 x4 x5 := by
  funext j
  obtain ⟨p, q, rfl⟩ : ∃ (p : Fin 3840) (q : Fin 64), j = ix2 p q := ⟨j 0, j 1, eq_ix2 j⟩
  unfold k1_pay1
  rw [maximumf_apply, addf_apply, broadcast_apply, edge1_mm_hid_apply, broadcastTo_1b_ab_apply]
  simp only [truncf_apply, maximumf_apply, addf_apply, broadcast_apply, edge1_mm_cat_apply, broadcastTo_1b_ab_apply,
    edge1_cat_apply, subf_apply, shapeCast_self, edge1_zero_word]
  rfl

/-! ## From the blocks to the array -/

/-- The zero offsets of a whole-buffer access. -/
theorem edge1_hz : (![0, 0] : Fin 2 → Nat) = fun _ => 0 := funext fun a => by fin_cases a <;> rfl

/-- Entry `(p, q)` of the message map reads only row `p` of the two feature arrays: when row `p` of `yd`, `ys` is
    row `r` of `xd`, `xs`, the entries `(p, q)` and `(r, q)` agree. -/
theorem edge1_edgeG_rows {n N : ℕ} (xd xs : Cert.Spec.Mat N 64) (yd ys : Cert.Spec.Mat n 64) (W1 : Cert.Spec.Mat 128 64)
    (b1 : Cert.Spec.Mat 1 64) (W2 : Cert.Spec.Mat 64 64) (b2 : Cert.Spec.Mat 1 64) (p : Fin n) (r : Fin N) (q : Fin 64)
    (hd : ∀ k : Fin 64, yd (ix2 p k) = xd (ix2 r k)) (hs : ∀ k : Fin 64, ys (ix2 p k) = xs (ix2 r k)) :
    Cert.Spec.edgeG yd ys W1 b1 W2 b2 (ix2 p q) = Cert.Spec.edgeG xd xs W1 b1 W2 b2 (ix2 r q) := by
  have hrow : Cert.Spec.catRow yd ys p = Cert.Spec.catRow xd xs r := funext fun k => by
    unfold Cert.Spec.catRow
    split
    · exact hd _
    · rw [hd, hs]
  show Cert.Spec.reluAffineAt (fun q' : Fin 64 => Cert.Spec.reluAffineAt (Cert.Spec.catRow yd ys p) W1 b1 q') W2 b2 q
    = Cert.Spec.reluAffineAt (fun q' : Fin 64 => Cert.Spec.reluAffineAt (Cert.Spec.catRow xd xs r) W1 b1 q') W2 b2 q
  rw [hrow]

/-- The printed index maps over the grid: point `t` reads block `t` of rows of the two feature arrays, the one block
    of each weight array, and writes block `t` of rows of the result. -/
theorem edge1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What point `t` writes back is block `t` of rows of the message map of the whole input arrays. -/
theorem edge1_flushed_eq (c : Dev nD) (t : Fin cfg1.N) :
    (dat1 (F := Ideal) V c).flushed 6 t
      = ((cfg1.win 6).blk t).view.read (Elt Ideal) (Cert.Spec.edgeG (V c main_v11) (V c main_v12) (V c main_arg5) (V c main_v13) (V c main_arg7) (V c main_v14)) := by
  show (cfg1.win 6).cut (grid1.coords t) ((dat1 V c).after 6 t) = _
  rw [after1_6]
  unfold out1_6
  rw [View.canon_unit_zero edge1_hz]
  simp only [View.ld_unit_zero (S := S3840x64) edge1_hz, View.ld_unit_zero (S := S128x64) edge1_hz, View.ld_unit_zero (S := S1x64) edge1_hz,
    View.ld_unit_zero (S := S64x64) edge1_hz]
  rw [edge1_pay_eq (iblk1 V c 0 t) (iblk1 V c 1 t) (iblk1 V c 2 t) (iblk1 V c 3 t) (iblk1 V c 4 t) (iblk1 V c 5 t)]
  obtain ⟨e00, e01, e10, e11, e20, e21, e30, e31, e40, e41, e50, e51, e60, e61⟩ := edge1_idx_facts t
  have ht : t.val < 250 := lt_of_lt_of_eq t.isLt N_1
  have w2 : (iblk1 V c 2 t : Cert.Spec.Mat 128 64) = V c main_arg5 := funext fun y => by
    show V c main_arg5 (((cfg1.win 2).blk t).view.emb y) = V c main_arg5 y
    refine congrArg _ (funext fun a => Fin.ext ?_)
    match a with
    | ⟨0, _⟩ => show win1_2.index t (0 : Fin 2) * 128 + 1 * (y 0).val = (y 0).val; rw [e20]; omega
    | ⟨1, _⟩ => show win1_2.index t (1 : Fin 2) * 64 + 1 * (y 1).val = (y 1).val; rw [e21]; omega
  have w3 : (iblk1 V c 3 t : Cert.Spec.Mat 1 64) = V c main_v13 := funext fun y => by
    show V c main_v13 (((cfg1.win 3).blk t).view.emb y) = V c main_v13 y
    refine congrArg _ (funext fun a => Fin.ext ?_)
    match a with
    | ⟨0, _⟩ => show win1_3.index t (0 : Fin 2) * 1 + 1 * (y 0).val = (y 0).val; rw [e30]; omega
    | ⟨1, _⟩ => show win1_3.index t (1 : Fin 2) * 64 + 1 * (y 1).val = (y 1).val; rw [e31]; omega
  have w4 : (iblk1 V c 4 t : Cert.Spec.Mat 64 64) = V c main_arg7 := funext fun y => by
    show V c main_arg7 (((cfg1.win 4).blk t).view.emb y) = V c main_arg7 y
    refine congrArg _ (funext fun a => Fin.ext ?_)
    match a with
    | ⟨0, _⟩ => show win1_4.index t (0 : Fin 2) * 64 + 1 * (y 0).val = (y 0).val; rw [e40]; omega
    | ⟨1, _⟩ => show win1_4.index t (1 : Fin 2) * 64 + 1 * (y 1).val = (y 1).val; rw [e41]; omega
  have w5 : (iblk1 V c 5 t : Cert.Spec.Mat 1 64) = V c main_v14 := funext fun y => by
    show V c main_v14 (((cfg1.win 5).blk t).view.emb y) = V c main_v14 y
    refine congrArg _ (funext fun a => Fin.ext ?_)
    match a with
    | ⟨0, _⟩ => show win1_5.index t (0 : Fin 2) * 1 + 1 * (y 0).val = (y 0).val; rw [e50]; omega
    | ⟨1, _⟩ => show win1_5.index t (1 : Fin 2) * 64 + 1 * (y 1).val = (y 1).val; rw [e51]; omega
  rw [w2, w3, w4, w5]
  funext j
  revert j
  show ∀ j : S3840x64.Idx, Cert.Spec.edgeG (iblk1 V c 0 t) (iblk1 V c 1 t) (V c main_arg5) (V c main_v13) (V c main_arg7) (V c main_v14) j
    = Cert.Spec.edgeG (V c main_v11) (V c main_v12) (V c main_arg5) (V c main_v13) (V c main_arg7) (V c main_v14) (((cfg1.win 6).blk t).view.emb j)
  intro j
  obtain ⟨p, q, rfl⟩ : ∃ (p : Fin 3840) (q : Fin 64), j = ix2 p q := ⟨j 0, j 1, eq_ix2 j⟩
  have hr : t.val * 3840 + p.val < 960000 := by have := p.isLt; omega
  have hemb : ((cfg1.win 6).blk t).view.emb (ix2 p q) = ix2 (⟨t.val * 3840 + p.val, hr⟩ : Fin 960000) q := funext fun a => Fin.ext (by
    match a with
    | ⟨0, _⟩ => show win1_6.index t (0 : Fin 2) * 3840 + 1 * p.val = t.val * 3840 + p.val; rw [e60]; omega
    | ⟨1, _⟩ => show win1_6.index t (1 : Fin 2) * 64 + 1 * q.val = q.val; rw [e61]; omega)
  rw [hemb]
  refine edge1_edgeG_rows _ _ _ _ _ _ _ _ p ⟨t.val * 3840 + p.val, hr⟩ q (fun k => ?_) (fun k => ?_)
  · show V c main_v11 (((cfg1.win 0).blk t).view.emb (ix2 p k)) = V c main_v11 (ix2 (⟨t.val * 3840 + p.val, hr⟩ : Fin 960000) k)
    refine congrArg _ (funext fun a => Fin.ext ?_)
    match a with
    | ⟨0, _⟩ => show win1_0.index t (0 : Fin 2) * 3840 + 1 * p.val = t.val * 3840 + p.val; rw [e00]; omega
    | ⟨1, _⟩ => show win1_0.index t (1 : Fin 2) * 64 + 1 * k.val = k.val; rw [e01]; omega
  · show V c main_v12 (((cfg1.win 1).blk t).view.emb (ix2 p k)) = V c main_v12 (ix2 (⟨t.val * 3840 + p.val, hr⟩ : Fin 960000) k)
    refine congrArg _ (funext fun a => Fin.ext ?_)
    match a with
    | ⟨0, _⟩ => show win1_1.index t (0 : Fin 2) * 3840 + 1 * p.val = t.val * 3840 + p.val; rw [e10]; omega
    | ⟨1, _⟩ => show win1_1.index t (1 : Fin 2) * 64 + 1 * k.val = k.val; rw [e11]; omega

/-- An edge entry lies in point `t`'s block iff each coordinate is in the block's range on its axis. -/
theorem edge1_mem_blk (t : Fin cfg1.N) (i : S960000x64.Idx) :
    i ∈ ((cfg1.win 6).blk t).view.set ↔ ∀ a : Fin 2, win1_6.index t a * S3840x64.size a ≤ (i a).val ∧ (i a).val < win1_6.index t a * S3840x64.size a + S3840x64.size a := by
  show i ∈ ((View.whole main_v15).slice (win1_6.rect t)).set ↔ _
  rw [View.set_slice_whole, Rect.mem_set_unit]
  exact Iff.rfl

/-- Every block of 3840 edges the body writes back is that block of `edgeG` of the input arrays, and the 250 blocks
    tile the 960000 edges. -/
theorem edge1_arr (c : Dev nD) :
    (dat1 (F := Ideal) V c).arrAt 6 cfg1.N
      = Cert.Spec.edgeG (V c main_v11) (V c main_v12) (V c main_arg5) (V c main_v13) (V c main_arg7) (V c main_v14) := by
  refine (dat1 (F := Ideal) V c).arrAt_eq_of_cover 6 _ (fun t _ => edge1_flushed_eq V c t) fun i => ?_
  have hi0 : (i 0).val < 960000 := (i 0).isLt
  have hi1 : (i 1).val < 64 := (i 1).isLt
  have hN : cfg1.N = 250 := N_1
  refine ⟨⟨(i 0).val / 3840, by rw [hN]; omega⟩, flush1_6 _, ?_⟩
  obtain ⟨-, -, -, -, -, -, -, -, -, -, -, -, e60, e61⟩ := edge1_idx_facts ⟨(i 0).val / 3840, by rw [hN]; omega⟩
  rw [edge1_mem_blk]
  intro a
  match a with
  | ⟨0, _⟩ =>
    show win1_6.index ⟨(i 0).val / 3840, _⟩ (0 : Fin 2) * 3840 ≤ (i 0).val ∧ (i 0).val < win1_6.index ⟨(i 0).val / 3840, _⟩ (0 : Fin 2) * 3840 + 3840
    rw [e60]
    show (i 0).val / 3840 * 3840 ≤ (i 0).val ∧ (i 0).val < (i 0).val / 3840 * 3840 + 3840
    omega
  | ⟨1, _⟩ =>
    show win1_6.index ⟨(i 0).val / 3840, _⟩ (1 : Fin 2) * 64 ≤ (i 1).val ∧ (i 1).val < win1_6.index ⟨(i 0).val / 3840, _⟩ (1 : Fin 2) * 64 + 64
    rw [e61]
    omega

end Cert.KernelIdeal.RegionValue

end
-- ==== Proof.TakeFill.lean ====
/- A row lookup over node numbers that are all in range writes no fill value: it is the plain lookup. -/
import proofs.«427380_j33938831573442_1_alg».proof.Proof.Net
import Idealize.ShloMosaic.Lib.StableHlo.Predicate
import Idealize.ShloMosaic.Lib.ValueIdx
import Idealize.ShloMosaic.Lib.ValueLayout
import Idealize.ShloMosaic.Lib.Pipeline.Value

noncomputable section

namespace Cert.KernelIdeal.Net

open Idealize.ShloMosaic Idealize.SL.Sem Cert.KernelIdeal Cert.KernelIdeal.Gen

/-- A reduction by `and` of an array of ones, started at one, is one at every result index: the fold meets
    `1 &&& 1` at every step. -/
private theorem reduce_andi_ones {s t u : Shape} {axes : List (Fin s.rank)} (x : s.Idx → BitVec 1) (init : u.Idx → BitVec 1)
    (hr : s.ReducesTo axes t) (hu : 0 < u.numel) (hx : ∀ i, x i = 1#1) (hi : init (Shape.Idx.first hu) = 1#1) (j : t.Idx) :
    Host.reduce IntOp.andi x init hr hu j = 1#1 := by
  unfold Host.reduce
  rw [hi]
  generalize List.filter _ _ = l
  induction l with
  | nil => rfl
  | cons a l ih =>
    rw [List.foldl_cons, hx, show IntOp.andi 1#1 1#1 = 1#1 from by decide]
    exact ih

/-- No node number being negative, the test `ix < 0` fails on every row and none has the table's height added:
    the wrapped list is the list. -/
private theorem wrap_eq (ix : IVec S960000 32) (h : InRange ix) :
    select (cmpi .slt ix (broadcastInDim S960000 ![] bcast_S_S960000 (constantI S_ 32 0#32)))
      (addi ix (broadcastInDim S960000 ![] bcast_S_S960000 (constantI S_ 32 60000#32))) ix = ix := by
  funext e
  rw [ValueIdx.select_apply]
  have hc : cmpi .slt ix (broadcastInDim S960000 ![] bcast_S_S960000 (constantI S_ 32 0#32)) e = 0#1 := by
    apply ValueIdx.eq_zero_of_ne_one
    intro hc
    -- the test being 1 would put the entry, read signed, below the word 0
    have hlt : (ix e).toInt < (0#32 : BitVec 32).toInt := IntOp.cmpi_slt.1 hc
    have h0 : (0#32 : BitVec 32).toInt = 0 := by decide
    have := (h e).1
    omega
  rw [hc, ValueIdx.select_zero]

/-- Every entry of the index column is an entry of the list, so lies in `0 … 59999`. -/
private theorem takeIdx_range (ix : IVec S960000 32) (h : InRange ix) (i : S960000x1.Idx) :
    0 ≤ (takeIdx ix i).toInt ∧ (takeIdx ix i).toInt < 60000 := by
  unfold takeIdx
  rw [wrap_eq ix h]
  -- the column read at `i` is the list read at `i`'s row
  exact h _

/-- When every listed node number lies in `0 … 59999` no number is negative, so the index column is the list itself,
    it passes both bounds tests on every row, and the selection keeps the looked-up row everywhere. -/
theorem takeFill_eq (X : FVec Ideal S60000x64 .f32) (ix : IVec S960000 32) (h : InRange ix) :
    takeFill X ix = rows X ix := by
  -- both bounds tests hold at every entry of the index column: `0 ≤ t` and `t ≤ 59999`, read signed
  have hM : ∀ i : S960000x1.Idx,
      andi (cmpi .sge (takeIdx ix) (broadcastInDim S960000x1 ![] bcast_S_S960000x1 (constantI S_ 32 0#32)))
        (cmpi .sle (takeIdx ix) (broadcastInDim S960000x1 ![0, 1] bcast_S1x1_S960000x1_0_1
          (broadcastInDim S1x1 ![1] bcast_S1_S1x1_1 (constantI S1 32 59999#32)))) i = 1#1 := by
    intro i
    show IntOp.andi (IntOp.cmpi .sge (takeIdx ix i) 0#32) (IntOp.cmpi .sle (takeIdx ix i) 59999#32) = 1#1
    rw [IntOp.andi_eq_one, IntOp.cmpi_sge, IntOp.cmpi_sle, show (0#32 : BitVec 32).toInt = 0 from by decide,
      show (59999#32 : BitVec 32).toInt = 59999 from by decide]
    have := takeIdx_range ix h i
    omega
  funext j
  unfold takeFill rows
  rw [ValueIdx.select_apply]
  -- so the row-wise `and` of the tests is one on every row, and its copy along the 64 columns is one at `j`
  have hmask : broadcastInDim S960000x64 ![0] bcast_S960000_S960000x64_0
      (Host.reduce IntOp.andi
        (andi (cmpi .sge (takeIdx ix) (broadcastInDim S960000x1 ![] bcast_S_S960000x1 (constantI S_ 32 0#32)))
          (cmpi .sle (takeIdx ix) (broadcastInDim S960000x1 ![0, 1] bcast_S1x1_S960000x1_0_1
            (broadcastInDim S1x1 ![1] bcast_S1_S1x1_1 (constantI S1 32 59999#32)))))
        (constantI S_ 1 1#1) reducesTo_S960000x1_S960000_d1 h_S_) j = 1#1 := by
    unfold broadcastInDim
    exact reduce_andi_ones _ _ _ _ hM rfl _
  rw [hmask, ValueIdx.select_one]

end Cert.KernelIdeal.Net

end
-- ==== Proof.KHostA.lean ====
/- The kernel program's buffers when its first message launch has ended (the run's boundary contents `Gen.W8`): the
   messages of round one, and what later stretches still read — the edge list's two rows, the degrees, the later
   weights —, each as a function of the launch contents.

   The boundary contents are a fold through the program: a stretch of host operations rewrites the buffers it writes
   and leaves the rest, a launch rewrites its output array and leaves the rest. So a buffer is read by walking the
   fold back to the stretch or launch that wrote it last (or to the launch memory), and there the operations'
   functions are applied to contents found the same way. -/
import proofs.«427380_j33938831573442_1_alg».proof.Proof.Gen.KernelIdeal.Frame
import proofs.«427380_j33938831573442_1_alg».proof.Proof.Net
import proofs.«427380_j33938831573442_1_alg».proof.Proof.KEnc
import proofs.«427380_j33938831573442_1_alg».proof.Proof.KEdge1
import proofs.«427380_j33938831573442_1_alg».proof.Proof.TakeFill
import Idealize.ShloMosaic.Lib.StableHlo.Run
import Idealize.ShloMosaic.Lib.Pipeline.Value

set_option maxRecDepth 16384

noncomputable section

namespace Cert.KernelIdeal.HostValue

open Idealize.ShloMosaic Idealize.ShloMosaic.TcCoe Idealize.SL.Sem
open Cert.KernelIdeal Cert.KernelIdeal.Gen Cert.KernelIdeal.Net

variable (m : (ℓ : Loc nD τ sig) → Buf (Elt Ideal) ℓ) (ρ : Dev nD → PrngReg)

namespace Head

/-! ## Contents at a buffer's own type

An operation of a called function states its function at the value's type and moves contents to and from the
buffer's own type; at a literal buffer both types are the same and the move is the identity. -/

/-- Contents moved to a buffer's own type and back are the contents. -/
theorem ofBuf_toBuf {T : BufTy} (x : StableHlo.TRef sig T) (v : T.Contents (Elt Ideal)) : x.ofBuf (x.toBuf v) = v := by
  obtain ⟨r, h, h1, h2⟩ := x
  cases h
  rfl

/-! At a literal buffer the move to or from the buffer's own type is the identity. -/
theorem toBuf_v11 (h1 h2 h3) (v : (⟨S960000x64, .f32⟩ : BufTy).Contents (Elt Ideal)) :
    (StableHlo.TRef.of main_v11 h1 h2 h3 : StableHlo.TRef sig ⟨S960000x64, .f32⟩).toBuf v = v := rfl
theorem toBuf_v12 (h1 h2 h3) (v : (⟨S960000x64, .f32⟩ : BufTy).Contents (Elt Ideal)) :
    (StableHlo.TRef.of main_v12 h1 h2 h3 : StableHlo.TRef sig ⟨S960000x64, .f32⟩).toBuf v = v := rfl
theorem ofBuf_v5 (h1 h2 h3) (v : (⟨S60000x64, .f32⟩ : BufTy).Contents (Elt Ideal)) :
    (StableHlo.TRef.of main_v5 h1 h2 h3 : StableHlo.TRef sig ⟨S60000x64, .f32⟩).ofBuf v = v := rfl
theorem ofBuf_v3 (h1 h2 h3) (v : (⟨S960000, .i32⟩ : BufTy).Contents (Elt Ideal)) :
    (StableHlo.TRef.of main_v3 h1 h2 h3 : StableHlo.TRef sig ⟨S960000, .i32⟩).ofBuf v = v := rfl
theorem ofBuf_v1 (h1 h2 h3) (v : (⟨S960000, .i32⟩ : BufTy).Contents (Elt Ideal)) :
    (StableHlo.TRef.of main_v1 h1 h2 h3 : StableHlo.TRef sig ⟨S960000, .i32⟩).ofBuf v = v := rfl

/-! ## What each stretch leaves alone -/

/-- The buffers written by the first stretch (the edge list's two rows, the encoder's bias row). -/
abbrev wr0 : List (Ref sig .tc) :=
  [main_v0, main_v1, main_v2, main_v3, main_v4]

theorem wr0_sub : (hostOps0 (F := Ideal) : List (HloOp τ sig (Elt Ideal))).Forall
    fun op => op.writes ⊆ (wr0.map (Proc.devRef (τ := τ) .tc)).toFinset := by
  simp only [hostOps0, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer that stretch does not write holds after it what it held before. -/
theorem keep0 (c : Dev nD) (b : Ref sig .tc) (hb : b ∉ wr0) :
    W1 m ρ c (Proc.devRef .tc b) = W0 m ρ c (Proc.devRef .tc b) :=
  StableHlo.after_of_writes_sub _ _ wr0_sub hb

/-- The buffers written by the scatter of ones. -/
abbrev wr1 : List (Ref sig .tc) :=
  [main_cst, main_v6, main_cst_0, main_v7, main_v8, main_v9, main_cst_1]

theorem wr1_sub : (hostOps1 (F := Ideal) : List (HloOp τ sig (Elt Ideal))).Forall
    fun op => op.writes ⊆ (wr1.map (Proc.devRef (τ := τ) .tc)).toFinset := by
  simp only [hostOps1, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer that stretch does not write holds after it what it held before. -/
theorem keep1 (c : Dev nD) (b : Ref sig .tc) (hb : b ∉ wr1) :
    W3 m ρ c (Proc.devRef .tc b) = W2 m ρ c (Proc.devRef .tc b) :=
  StableHlo.after_of_writes_sub _ _ wr1_sub hb

/-- The buffers written by the clip of the degrees. -/
abbrev wr1_1 : List (Ref sig .tc) :=
  [main_call0_v0, main_call0_v1, main_v10]

theorem wr1_1_sub : (hostOps1_1 (F := Ideal) : List (HloOp τ sig (Elt Ideal))).Forall
    fun op => op.writes ⊆ (wr1_1.map (Proc.devRef (τ := τ) .tc)).toFinset := by
  simp only [hostOps1_1, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer that stretch does not write holds after it what it held before. -/
theorem keep1_1 (c : Dev nD) (b : Ref sig .tc) (hb : b ∉ wr1_1) :
    W4 m ρ c (Proc.devRef .tc b) = W3 m ρ c (Proc.devRef .tc b) :=
  StableHlo.after_of_writes_sub _ _ wr1_1_sub hb

/-- The buffers written by the lookup at the receivers. -/
abbrev wr1_2 : List (Ref sig .tc) :=
  [main_call1_c, main_call1_v0, main_call1_v1, main_call1_c_0, main_call1_v2, main_call1_v3,
   main_call1_v4, main_call1_v5, main_call1_c_1, main_call1_c_2, main_call1_v6, main_call1_v7,
   main_call1_v8, main_call1_v9, main_call1_v10, main_call1_v11, main_call1_c_3, main_call1_v12,
   main_call1_v13, main_call1_v14, main_call1_cst, main_call1_v15, main_v11]

theorem wr1_2_sub : (hostOps1_2 (F := Ideal) : List (HloOp τ sig (Elt Ideal))).Forall
    fun op => op.writes ⊆ (wr1_2.map (Proc.devRef (τ := τ) .tc)).toFinset := by
  simp only [hostOps1_2, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer that stretch does not write holds after it what it held before. -/
theorem keep1_2 (c : Dev nD) (b : Ref sig .tc) (hb : b ∉ wr1_2) :
    W5 m ρ c (Proc.devRef .tc b) = W4 m ρ c (Proc.devRef .tc b) :=
  StableHlo.after_of_writes_sub _ _ wr1_2_sub hb

/-- The buffers written by the lookup at the senders. -/
abbrev wr1_3 : List (Ref sig .tc) :=
  [main_call2_c, main_call2_v0, main_call2_v1, main_call2_c_0, main_call2_v2, main_call2_v3,
   main_call2_v4, main_call2_v5, main_call2_c_1, main_call2_c_2, main_call2_v6, main_call2_v7,
   main_call2_v8, main_call2_v9, main_call2_v10, main_call2_v11, main_call2_c_3, main_call2_v12,
   main_call2_v13, main_call2_v14, main_call2_cst, main_call2_v15, main_v12]

theorem wr1_3_sub : (hostOps1_3 (F := Ideal) : List (HloOp τ sig (Elt Ideal))).Forall
    fun op => op.writes ⊆ (wr1_3.map (Proc.devRef (τ := τ) .tc)).toFinset := by
  simp only [hostOps1_3, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer that stretch does not write holds after it what it held before. -/
theorem keep1_3 (c : Dev nD) (b : Ref sig .tc) (hb : b ∉ wr1_3) :
    W6 m ρ c (Proc.devRef .tc b) = W5 m ρ c (Proc.devRef .tc b) :=
  StableHlo.after_of_writes_sub _ _ wr1_3_sub hb

/-- The buffers written by the two bias rows of round one. -/
abbrev wr1_4 : List (Ref sig .tc) :=
  [main_v13, main_v14]

theorem wr1_4_sub : (hostOps1_4 (F := Ideal) : List (HloOp τ sig (Elt Ideal))).Forall
    fun op => op.writes ⊆ (wr1_4.map (Proc.devRef (τ := τ) .tc)).toFinset := by
  simp only [hostOps1_4, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- A buffer that stretch does not write holds after it what it held before. -/
theorem keep1_4 (c : Dev nD) (b : Ref sig .tc) (hb : b ∉ wr1_4) :
    W7 m ρ c (Proc.devRef .tc b) = W6 m ρ c (Proc.devRef .tc b) :=
  StableHlo.after_of_writes_sub _ _ wr1_4_sub hb

/-! ## What each stretch writes, over any earlier contents -/

/-- What the first stretch leaves: the receivers. -/
theorem W1_v3 (c : Dev nD) : W1 m ρ c (Proc.devRef .tc main_v3) = edgeRow1 (in1 m c) := by
  show StableHlo.after hostOps0 _ (Proc.devRef .tc main_v3) = _
  after_results
  rfl

/-- What the first stretch leaves: the senders. -/
theorem W1_v1 (c : Dev nD) : W1 m ρ c (Proc.devRef .tc main_v1) = edgeRow0 (in1 m c) := by
  show StableHlo.after hostOps0 _ (Proc.devRef .tc main_v1) = _
  after_results
  rfl

/-- What the first stretch leaves: the encoder's bias as a row. -/
theorem W1_v4 (c : Dev nD) : W1 m ρ c (Proc.devRef .tc main_v4) = biasRow (in4 m c) := by
  show StableHlo.after hostOps0 _ (Proc.devRef .tc main_v4) = _
  after_results
  rfl

/-- The scatter of ones, over any earlier contents: ones added at the receivers into a table of zeros. -/
theorem ones_v9 (V : Valuation τ sig (Elt Ideal)) :
    (StableHlo.after hostOps1 V (Proc.devRef .tc main_v9) : FVec Ideal S60000 .f32)
      = Host.scatterAdd scatter_S60000_S960000x1_S960000_n_0_0_1
          (broadcastInDim S60000 ![] bcast_S_S60000 (constant (F := Ideal) S_ .f32 0x00000000#32))
          (broadcastInDim S960000x1 ![0] bcast_S960000_S960000x1_0 (V (Proc.devRef .tc main_v3) : IVec S960000 32))
          (broadcastInDim S960000 ![] bcast_S_S960000 (constant (F := Ideal) S_ .f32 0x3F800000#32)) := by
  after_results

/-- The same stretch leaves the constant one the clip takes. -/
theorem ones_cst1 (V : Valuation τ sig (Elt Ideal)) :
    (StableHlo.after hostOps1 V (Proc.devRef .tc main_cst_1) : FVec Ideal S_ .f32)
      = constant (F := Ideal) S_ .f32 0x3F800000#32 := by
  after_results

/-- The clip, over any earlier contents: the larger of the constant and the scattered count. -/
theorem clip_v10 (V : Valuation τ sig (Elt Ideal)) :
    (StableHlo.after hostOps1_1 V (Proc.devRef .tc main_v10) : FVec Ideal S60000 .f32)
      = maximumf (F := Ideal) (s := S60000) (φ := .f32)
          (broadcastInDim S60000 ![] bcast_S_S60000 (id (V (Proc.devRef .tc main_cst_1) : FVec Ideal S_ .f32)))
          (V (Proc.devRef .tc main_v9) : FVec Ideal S60000 .f32) := by
  after_results
  rfl

/-- The lookup at the receivers, over any earlier contents. -/
theorem take_v11 (V : Valuation τ sig (Elt Ideal)) :
    (StableHlo.after hostOps1_2 V (Proc.devRef .tc main_v11) : FVec Ideal S960000x64 .f32)
      = takeFill (V (Proc.devRef .tc main_v5)) (V (Proc.devRef .tc main_v3)) := by
  after_results_simp
  simp only [ofBuf_toBuf, toBuf_v11, ofBuf_v5, ofBuf_v3]
  rfl

/-- The lookup at the senders, over any earlier contents. -/
theorem take_v12 (V : Valuation τ sig (Elt Ideal)) :
    (StableHlo.after hostOps1_3 V (Proc.devRef .tc main_v12) : FVec Ideal S960000x64 .f32)
      = takeFill (V (Proc.devRef .tc main_v5)) (V (Proc.devRef .tc main_v1)) := by
  after_results_simp
  simp only [ofBuf_toBuf, toBuf_v12, ofBuf_v5, ofBuf_v1]
  rfl

/-- Round one's first bias as a row, over any earlier contents. -/
theorem bias_v13 (V : Valuation τ sig (Elt Ideal)) :
    (StableHlo.after hostOps1_4 V (Proc.devRef .tc main_v13) : FVec Ideal S1x64 .f32)
      = biasRow (V (Proc.devRef .tc main_arg6)) := by
  after_results
  rfl

/-- Round one's second bias as a row, over any earlier contents. -/
theorem bias_v14 (V : Valuation τ sig (Elt Ideal)) :
    (StableHlo.after hostOps1_4 V (Proc.devRef .tc main_v14) : FVec Ideal S1x64 .f32)
      = biasRow (V (Proc.devRef .tc main_arg8)) := by
  after_results
  rfl

/-! ## Walking the fold back -/
/-- A buffer untouched between the first stretch and the first message launch's end. -/
theorem carried (c : Dev nD) (b : Ref sig .tc) (h8 : ∀ w, Pipeline.arrRef spec1 w ≠ b) (h7 : b ∉ wr1_4) (h6 : b ∉ wr1_3)
    (h5 : b ∉ wr1_2) (h4 : b ∉ wr1_1) (h3 : b ∉ wr1) (h2 : ∀ w, Pipeline.arrRef spec0 w ≠ b) :
    W8 m ρ c (Proc.devRef .tc b) = W1 m ρ c (Proc.devRef .tc b) :=
  calc W8 m ρ c (Proc.devRef .tc b)
    _ = W7 m ρ c (Proc.devRef .tc b) := W8_of_ne m ρ c b h8
    _ = W6 m ρ c (Proc.devRef .tc b) := keep1_4 m ρ c b h7
    _ = W5 m ρ c (Proc.devRef .tc b) := keep1_3 m ρ c b h6
    _ = W4 m ρ c (Proc.devRef .tc b) := keep1_2 m ρ c b h5
    _ = W3 m ρ c (Proc.devRef .tc b) := keep1_1 m ρ c b h4
    _ = W2 m ρ c (Proc.devRef .tc b) := keep1 m ρ c b h3
    _ = W1 m ρ c (Proc.devRef .tc b) := W2_of_ne m ρ c b h2

/-- A buffer that neither launch nor any stretch up to the first message launch's end touches holds what was launched. -/
theorem untouched (c : Dev nD) (b : Ref sig .tc) (h8 : ∀ w, Pipeline.arrRef spec1 w ≠ b) (h7 : b ∉ wr1_4) (h6 : b ∉ wr1_3)
    (h5 : b ∉ wr1_2) (h4 : b ∉ wr1_1) (h3 : b ∉ wr1) (h2 : ∀ w, Pipeline.arrRef spec0 w ≠ b) (h1 : b ∉ wr0) :
    W8 m ρ c (Proc.devRef .tc b) = m ((c : Thread nD τ).loc b) :=
  (carried m ρ c b h8 h7 h6 h5 h4 h3 h2).trans (keep0 m ρ c b h1)

/-- The encoded node table, where the encoder's launch leaves it. -/
theorem W2_v5 (c : Dev nD) :
    W2 m ρ c (Proc.devRef .tc main_v5) = Cert.Spec.encG (in0 m c) (in3 m c) (biasRow (in4 m c)) := by
  have e0 : V1 m ρ c main_arg0 = in0 m c := keep0 m ρ c main_arg0 (by decide)
  have e3 : V1 m ρ c main_arg3 = in3 m c := keep0 m ρ c main_arg3 (by decide)
  have e4 : V1 m ρ c main_v4 = biasRow (in4 m c) := W1_v4 m ρ c
  calc W2 m ρ c (Proc.devRef .tc main_v5)
    _ = (dat0 (V1 m ρ) c).arrAt 3 cfg0.N := W2_arr m ρ c 3
    _ = Cert.Spec.encG (V1 m ρ c main_arg0) (V1 m ρ c main_arg3) (V1 m ρ c main_v4) :=
          Cert.KernelIdeal.RegionValue.enc_arr (V1 m ρ) c
    _ = Cert.Spec.encG (in0 m c) (in3 m c) (biasRow (in4 m c)) := by rw [e0, e3, e4]

/-- The table is still there when the clip has run. -/
theorem W4_v5 (c : Dev nD) :
    W4 m ρ c (Proc.devRef .tc main_v5) = Cert.Spec.encG (in0 m c) (in3 m c) (biasRow (in4 m c)) :=
  (keep1_1 m ρ c main_v5 (by decide)).trans ((keep1 m ρ c main_v5 (by decide)).trans (W2_v5 m ρ c))

/-- So are the receivers. -/
theorem W4_v3 (c : Dev nD) : W4 m ρ c (Proc.devRef .tc main_v3) = edgeRow1 (in1 m c) :=
  (keep1_1 m ρ c main_v3 (by decide)).trans ((keep1 m ρ c main_v3 (by decide)).trans
    ((W2_of_ne m ρ c main_v3 (by decide)).trans (W1_v3 m ρ c)))

/-- And the senders. -/
theorem W4_v1 (c : Dev nD) : W4 m ρ c (Proc.devRef .tc main_v1) = edgeRow0 (in1 m c) :=
  (keep1_1 m ρ c main_v1 (by decide)).trans ((keep1 m ρ c main_v1 (by decide)).trans
    ((W2_of_ne m ρ c main_v1 (by decide)).trans (W1_v1 m ρ c)))

/-- The receivers' rows of the table: with every receiver a node number the lookup writes no fill value. -/
theorem W5_v11 (c : Dev nD) (hd : InRange (edgeRow1 (in1 m c))) :
    W5 m ρ c (Proc.devRef .tc main_v11)
      = rows (Cert.Spec.encG (in0 m c) (in3 m c) (biasRow (in4 m c))) (edgeRow1 (in1 m c)) := by
  show (StableHlo.after hostOps1_2 (W4 m ρ c) (Proc.devRef .tc main_v11) : FVec Ideal S960000x64 .f32) = _
  rw [take_v11, W4_v5, W4_v3, takeFill_eq _ _ hd]

/-- The senders' rows of the table. -/
theorem W6_v12 (c : Dev nD) (hs : InRange (edgeRow0 (in1 m c))) :
    W6 m ρ c (Proc.devRef .tc main_v12)
      = rows (Cert.Spec.encG (in0 m c) (in3 m c) (biasRow (in4 m c))) (edgeRow0 (in1 m c)) := by
  have e5 : W5 m ρ c (Proc.devRef .tc main_v5) = Cert.Spec.encG (in0 m c) (in3 m c) (biasRow (in4 m c)) :=
    (keep1_2 m ρ c main_v5 (by decide)).trans (W4_v5 m ρ c)
  have e1 : W5 m ρ c (Proc.devRef .tc main_v1) = edgeRow0 (in1 m c) :=
    (keep1_2 m ρ c main_v1 (by decide)).trans (W4_v1 m ρ c)
  show (StableHlo.after hostOps1_3 (W5 m ρ c) (Proc.devRef .tc main_v12) : FVec Ideal S960000x64 .f32) = _
  rw [take_v12, e5, e1, takeFill_eq _ _ hs]

/-- A buffer nothing has touched when the lookups are done holds what was launched. -/
theorem launched6 (c : Dev nD) (b : Ref sig .tc) (h6 : b ∉ wr1_3) (h5 : b ∉ wr1_2) (h4 : b ∉ wr1_1) (h3 : b ∉ wr1)
    (h2 : ∀ w, Pipeline.arrRef spec0 w ≠ b) (h1 : b ∉ wr0) :
    W6 m ρ c (Proc.devRef .tc b) = m ((c : Thread nD τ).loc b) :=
  calc W6 m ρ c (Proc.devRef .tc b)
    _ = W5 m ρ c (Proc.devRef .tc b) := keep1_3 m ρ c b h6
    _ = W4 m ρ c (Proc.devRef .tc b) := keep1_2 m ρ c b h5
    _ = W3 m ρ c (Proc.devRef .tc b) := keep1_1 m ρ c b h4
    _ = W2 m ρ c (Proc.devRef .tc b) := keep1 m ρ c b h3
    _ = W1 m ρ c (Proc.devRef .tc b) := W2_of_ne m ρ c b h2
    _ = W0 m ρ c (Proc.devRef .tc b) := keep0 m ρ c b h1
    _ = m ((c : Thread nD τ).loc b) := rfl

/-- The degrees, when the clip has run. -/
theorem W4_v10 (c : Dev nD) : W4 m ρ c (Proc.devRef .tc main_v10) = degree (in1 m c) := by
  have e3 : W2 m ρ c (Proc.devRef .tc main_v3) = edgeRow1 (in1 m c) :=
    (W2_of_ne m ρ c main_v3 (by decide)).trans (W1_v3 m ρ c)
  show StableHlo.after hostOps1_1 (W3 m ρ c) (Proc.devRef .tc main_v10) = _
  rw [clip_v10]
  show maximumf (F := Ideal) (s := S60000) (φ := .f32) (broadcastInDim S60000 ![] bcast_S_S60000 (id (StableHlo.after hostOps1 (W2 m ρ c) (Proc.devRef .tc main_cst_1) : FVec Ideal S_ .f32)))
      (StableHlo.after hostOps1 (W2 m ρ c) (Proc.devRef .tc main_v9) : FVec Ideal S60000 .f32) = _
  rw [ones_cst1, ones_v9, e3]
  rfl

end Head

open Head

/-! ## The boundary contents -/

/-- Round one's messages: `edgeG` of the encoded node table's rows at the receivers and at the senders. -/
theorem head_v15 (c : Dev nD) (hd : InRange (edgeRow1 (in1 m c))) (hs : InRange (edgeRow0 (in1 m c))) :
    W8 m ρ c (Proc.devRef .tc main_v15)
      = Cert.Spec.edgeG (rows (Cert.Spec.encG (in0 m c) (in3 m c) (biasRow (in4 m c))) (edgeRow1 (in1 m c)))
          (rows (Cert.Spec.encG (in0 m c) (in3 m c) (biasRow (in4 m c))) (edgeRow0 (in1 m c)))
          (in5 m c) (biasRow (in6 m c)) (in7 m c) (biasRow (in8 m c)) := by
  have e11 : V7 m ρ c main_v11
      = rows (Cert.Spec.encG (in0 m c) (in3 m c) (biasRow (in4 m c))) (edgeRow1 (in1 m c)) :=
    (keep1_4 m ρ c main_v11 (by decide)).trans ((keep1_3 m ρ c main_v11 (by decide)).trans (W5_v11 m ρ c hd))
  have e12 : V7 m ρ c main_v12
      = rows (Cert.Spec.encG (in0 m c) (in3 m c) (biasRow (in4 m c))) (edgeRow0 (in1 m c)) :=
    (keep1_4 m ρ c main_v12 (by decide)).trans (W6_v12 m ρ c hs)
  have e5 : V7 m ρ c main_arg5 = in5 m c :=
    (keep1_4 m ρ c main_arg5 (by decide)).trans
      (launched6 m ρ c main_arg5 (by decide) (by decide) (by decide) (by decide) (by decide) (by decide))
  have e7 : V7 m ρ c main_arg7 = in7 m c :=
    (keep1_4 m ρ c main_arg7 (by decide)).trans
      (launched6 m ρ c main_arg7 (by decide) (by decide) (by decide) (by decide) (by decide) (by decide))
  have e13 : V7 m ρ c main_v13 = biasRow (in6 m c) := by
    show (StableHlo.after hostOps1_4 (W6 m ρ c) (Proc.devRef .tc main_v13) : FVec Ideal S1x64 .f32) = _
    rw [bias_v13, launched6 m ρ c main_arg6 (by decide) (by decide) (by decide) (by decide) (by decide) (by decide)]
  have e14 : V7 m ρ c main_v14 = biasRow (in8 m c) := by
    show (StableHlo.after hostOps1_4 (W6 m ρ c) (Proc.devRef .tc main_v14) : FVec Ideal S1x64 .f32) = _
    rw [bias_v14, launched6 m ρ c main_arg8 (by decide) (by decide) (by decide) (by decide) (by decide) (by decide)]
  calc W8 m ρ c (Proc.devRef .tc main_v15)
    _ = (dat1 (V7 m ρ) c).arrAt 6 cfg1.N := W8_arr m ρ c 6
    _ = Cert.Spec.edgeG (V7 m ρ c main_v11) (V7 m ρ c main_v12) (V7 m ρ c main_arg5) (V7 m ρ c main_v13)
          (V7 m ρ c main_arg7) (V7 m ρ c main_v14) := Cert.KernelIdeal.RegionValue.edge1_arr (V7 m ρ) c
    _ = _ := by rw [e11, e12, e5, e13, e7, e14]

/-- The receivers, still where the first stretch wrote them. -/
theorem head_v3 (c : Dev nD) : W8 m ρ c (Proc.devRef .tc main_v3) = edgeRow1 (in1 m c) :=
  (carried m ρ c main_v3 (by decide) (by decide) (by decide) (by decide) (by decide) (by decide) (by decide)).trans (W1_v3 m ρ c)

/-- The senders, still where the first stretch wrote them. -/
theorem head_v1 (c : Dev nD) : W8 m ρ c (Proc.devRef .tc main_v1) = edgeRow0 (in1 m c) :=
  (carried m ρ c main_v1 (by decide) (by decide) (by decide) (by decide) (by decide) (by decide) (by decide)).trans (W1_v1 m ρ c)

/-- The degrees. -/
theorem head_v10 (c : Dev nD) : W8 m ρ c (Proc.devRef .tc main_v10) = degree (in1 m c) :=
  calc W8 m ρ c (Proc.devRef .tc main_v10)
    _ = W7 m ρ c (Proc.devRef .tc main_v10) := W8_of_ne m ρ c main_v10 (by decide)
    _ = W6 m ρ c (Proc.devRef .tc main_v10) := keep1_4 m ρ c main_v10 (by decide)
    _ = W5 m ρ c (Proc.devRef .tc main_v10) := keep1_3 m ρ c main_v10 (by decide)
    _ = W4 m ρ c (Proc.devRef .tc main_v10) := keep1_2 m ρ c main_v10 (by decide)
    _ = degree (in1 m c) := W4_v10 m ρ c

/-- Input 9 is untouched so far. -/
theorem head_arg9 (c : Dev nD) : W8 m ρ c (Proc.devRef .tc main_arg9) = in9 m c :=
  untouched m ρ c main_arg9 (by decide) (by decide) (by decide) (by decide) (by decide) (by decide) (by decide) (by decide)

/-- Input 10 is untouched so far. -/
theorem head_arg10 (c : Dev nD) : W8 m ρ c (Proc.devRef .tc main_arg10) = in10 m c :=
  untouched m ρ c main_arg10 (by decide) (by decide) (by decide) (by decide) (by decide) (by decide) (by decide) (by decide)

/-- Input 11 is untouched so far. -/
theorem head_arg11 (c : Dev nD) : W8 m ρ c (Proc.devRef .tc main_arg11) = in11 m c :=
  untouched m ρ c main_arg11 (by decide) (by decide) (by decide) (by decide) (by decide) (by decide) (by decide) (by decide)

/-- Input 12 is untouched so far. -/
theorem head_arg12 (c : Dev nD) : W8 m ρ c (Proc.devRef .tc main_arg12) = in12 m c :=
  untouched m ρ c main_arg12 (by decide) (by decide) (by decide) (by decide) (by decide) (by decide) (by decide) (by decide)

/-- Input 13 is untouched so far. -/
theorem head_arg13 (c : Dev nD) : W8 m ρ c (Proc.devRef .tc main_arg13) = in13 m c :=
  untouched m ρ c main_arg13 (by decide) (by decide) (by decide) (by decide) (by decide) (by decide) (by decide) (by decide)

/-- Input 14 is untouched so far. -/
theorem head_arg14 (c : Dev nD) : W8 m ρ c (Proc.devRef .tc main_arg14) = in14 m c :=
  untouched m ρ c main_arg14 (by decide) (by decide) (by decide) (by decide) (by decide) (by decide) (by decide) (by decide)

/-- Input 15 is untouched so far. -/
theorem head_arg15 (c : Dev nD) : W8 m ρ c (Proc.devRef .tc main_arg15) = in15 m c :=
  untouched m ρ c main_arg15 (by decide) (by decide) (by decide) (by decide) (by decide) (by decide) (by decide) (by decide)

/-- Input 16 is untouched so far. -/
theorem head_arg16 (c : Dev nD) : W8 m ρ c (Proc.devRef .tc main_arg16) = in16 m c :=
  untouched m ρ c main_arg16 (by decide) (by decide) (by decide) (by decide) (by decide) (by decide) (by decide) (by decide)

end Cert.KernelIdeal.HostValue

end
-- ==== Proof.KEdge2.lean ====
/- The second message launch: over any entry contents, the array it leaves is `Cert.Spec.edgeG` of its six input arrays.
   Entry `(e, q)` of the body's block is computed from row `e` of the two feature blocks alone, so the body's block is the
   message map of its blocks of rows; block `t` of the two feature arrays is rows `3840 t … 3840 t + 3839`, the weights'
   blocks are the whole weight arrays, and edge `e` lies in the block of point `e / 3840`. -/
import proofs.«427380_j33938831573442_1_alg».proof.Proof.Gen.KernelIdeal.Frame
import proofs.«427380_j33938831573442_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The two matrix products at an entry -/

/-- The first product contracts the left factor's columns against the right factor's rows: at output entry `i` and
    contraction position `q` the left operand is read at `(i 0, q)` and the right one at `(q, i 1)`, axis by axis. -/
theorem edge2_lhs_cat_0 (i : S3840x64.Idx) (q : dot_S3840x128_S128x64_S3840x64_1_0_0_1_n_n.contr.Idx) :
    (dot_S3840x128_S128x64_S3840x64_1_0_0_1_n_n.lhsIdx i q 0).val = (i 0).val := by
  unfold DotDims.lhsIdx
  rw [dif_neg (show ¬(0 : Fin S3840x128.rank) ∈ dot_S3840x128_S128x64_S3840x64_1_0_0_1_n_n.lhsBatch by decide), dif_pos (show (0 : Fin S3840x128.rank) ∈ dot_S3840x128_S128x64_S3840x64_1_0_0_1_n_n.lhsNonContracting by decide)]
  rfl
theorem edge2_lhs_cat_1 (i : S3840x64.Idx) (q : dot_S3840x128_S128x64_S3840x64_1_0_0_1_n_n.contr.Idx) :
    (dot_S3840x128_S128x64_S3840x64_1_0_0_1_n_n.lhsIdx i q 1).val = (q ⟨0, by decide⟩).val :=
  dot_S3840x128_S128x64_S3840x64_1_0_0_1_n_n.lhsIdx_val_of_single rfl i q
theorem edge2_rhs_cat_0 (i : S3840x64.Idx) (q : dot_S3840x128_S128x64_S3840x64_1_0_0_1_n_n.contr.Idx) :
    (dot_S3840x128_S128x64_S3840x64_1_0_0_1_n_n.rhsIdx i q 0).val = (q ⟨0, by decide⟩).val :=
  dot_S3840x128_S128x64_S3840x64_1_0_0_1_n_n.rhsIdx_val_of_single rfl i q
theorem edge2_rhs_cat_1 (i : S3840x64.Idx) (q : dot_S3840x128_S128x64_S3840x64_1_0_0_1_n_n.contr.Idx) :
    (dot_S3840x128_S128x64_S3840x64_1_0_0_1_n_n.rhsIdx i q 1).val = (i 1).val := by
  unfold DotDims.rhsIdx
  rw [dif_neg (show ¬(1 : Fin S128x64.rank) ∈ dot_S3840x128_S128x64_S3840x64_1_0_0_1_n_n.rhsBatch by decide), dif_pos (show (1 : Fin S128x64.rank) ∈ dot_S3840x128_S128x64_S3840x64_1_0_0_1_n_n.rhsNonContracting by decide)]
  rfl

/-- The first product at entry `(p, q)`: row `p` of the left factor against column `q` of the right one. -/
theorem edge2_mm_cat_apply (a : FVec Ideal S3840x128 .bf16) (b : FVec Ideal S128x64 .bf16) (p : Fin 3840) (q : Fin 64) :
    matmul (F := Ideal) dot_S3840x128_S128x64_S3840x64_1_0_0_1_n_n none a b (constant (F := Ideal) S3840x64 .f32 0x00000000#32) (ix2 p q)
      = ∑ k : Fin 128, a (ix2 p k) * b (ix2 k q) := by
  simp only [matmul]
  rw [Ideal.matmul_constant_zero_apply, ← Equiv.sum_comp (contrEquiv1 dot_S3840x128_S128x64_S3840x64_1_0_0_1_n_n 128 rfl rfl).symm]
  refine Finset.sum_congr rfl fun k _ => ?_
  have hk := contrEquiv1_symm_val dot_S3840x128_S128x64_S3840x64_1_0_0_1_n_n 128 rfl rfl k
  have el : dot_S3840x128_S128x64_S3840x64_1_0_0_1_n_n.lhsIdx (ix2 p q) ((contrEquiv1 dot_S3840x128_S128x64_S3840x64_1_0_0_1_n_n 128 rfl rfl).symm k) = ix2 p k := funext fun a => Fin.ext (by
    match a with
    | ⟨0, _⟩ => exact edge2_lhs_cat_0 _ _
    | ⟨1, _⟩ => exact (edge2_lhs_cat_1 _ _).trans hk)
  have er : dot_S3840x128_S128x64_S3840x64_1_0_0_1_n_n.rhsIdx (ix2 p q) ((contrEquiv1 dot_S3840x128_S128x64_S3840x64_1_0_0_1_n_n 128 rfl rfl).symm k) = ix2 k q := funext fun a => Fin.ext (by
    match a with
    | ⟨0, _⟩ => exact (edge2_rhs_cat_0 _ _).trans hk
    | ⟨1, _⟩ => exact edge2_rhs_cat_1 _ _)
  rw [el, er]

/-- The second product likewise: the left operand at `(i 0, q)`, the right one at `(q, i 1)`. -/
theorem edge2_lhs_hid_0 (i : S3840x64.Idx) (q : dot_S3840x64_S64x64_S3840x64_1_0_0_1_n_n.contr.Idx) :
    (dot_S3840x64_S64x64_S3840x64_1_0_0_1_n_n.lhsIdx i q 0).val = (i 0).val := by
  unfold DotDims.lhsIdx
  rw [dif_neg (show ¬(0 : Fin S3840x64.rank) ∈ dot_S3840x64_S64x64_S3840x64_1_0_0_1_n_n.lhsBatch by decide), dif_pos (show (0 : Fin S3840x64.rank) ∈ dot_S3840x64_S64x64_S3840x64_1_0_0_1_n_n.lhsNonContracting by decide)]
  rfl
theorem edge2_lhs_hid_1 (i : S3840x64.Idx) (q : dot_S3840x64_S64x64_S3840x64_1_0_0_1_n_n.contr.Idx) :
    (dot_S3840x64_S64x64_S3840x64_1_0_0_1_n_n.lhsIdx i q 1).val = (q ⟨0, by decide⟩).val :=
  dot_S3840x64_S64x64_S3840x64_1_0_0_1_n_n.lhsIdx_val_of_single rfl i q
theorem edge2_rhs_hid_0 (i : S3840x64.Idx) (q : dot_S3840x64_S64x64_S3840x64_1_0_0_1_n_n.contr.Idx) :
    (dot_S3840x64_S64x64_S3840x64_1_0_0_1_n_n.rhsIdx i q 0).val = (q ⟨0, by decide⟩).val :=
  dot_S3840x64_S64x64_S3840x64_1_0_0_1_n_n.rhsIdx_val_of_single rfl i q
theorem edge2_rhs_hid_1 (i : S3840x64.Idx) (q : dot_S3840x64_S64x64_S3840x64_1_0_0_1_n_n.contr.Idx) :
    (dot_S3840x64_S64x64_S3840x64_1_0_0_1_n_n.rhsIdx i q 1).val = (i 1).val := by
  unfold DotDims.rhsIdx
  rw [dif_neg (show ¬(1 : Fin S64x64.rank) ∈ dot_S3840x64_S64x64_S3840x64_1_0_0_1_n_n.rhsBatch by decide), dif_pos (show (1 : Fin S64x64.rank) ∈ dot_S3840x64_S64x64_S3840x64_1_0_0_1_n_n.rhsNonContracting by decide)]
  rfl

/-- The second product at entry `(p, q)`. -/
theorem edge2_mm_hid_apply (a : FVec Ideal S3840x64 .bf16) (b : FVec Ideal S64x64 .bf16) (p : Fin 3840) (q : Fin 64) :
    matmul (F := Ideal) dot_S3840x64_S64x64_S3840x64_1_0_0_1_n_n none a b (constant (F := Ideal) S3840x64 .f32 0x00000000#32) (ix2 p q)
      = ∑ k : Fin 64, a (ix2 p k) * b (ix2 k q) := by
  simp only [matmul]
  rw [Ideal.matmul_constant_zero_apply, ← Equiv.sum_comp (contrEquiv1 dot_S3840x64_S64x64_S3840x64_1_0_0_1_n_n 64 rfl rfl).symm]
  refine Finset.sum_congr rfl fun k _ => ?_
  have hk := contrEquiv1_symm_val dot_S3840x64_S64x64_S3840x64_1_0_0_1_n_n 64 rfl rfl k
  have el : dot_S3840x64_S64x64_S3840x64_1_0_0_1_n_n.lhsIdx (ix2 p q) ((contrEquiv1 dot_S3840x64_S64x64_S3840x64_1_0_0_1_n_n 64 rfl rfl).symm k) = ix2 p k := funext fun a => Fin.ext (by
    match a with
    | ⟨0, _⟩ => exact edge2_lhs_hid_0 _ _
    | ⟨1, _⟩ => exact (edge2_lhs_hid_1 _ _).trans hk)
  have er : dot_S3840x64_S64x64_S3840x64_1_0_0_1_n_n.rhsIdx (ix2 p q) ((contrEquiv1 dot_S3840x64_S64x64_S3840x64_1_0_0_1_n_n 64 rfl rfl).symm k) = ix2 k q := funext fun a => Fin.ext (by
    match a with
    | ⟨0, _⟩ => exact (edge2_rhs_hid_0 _ _).trans hk
    | ⟨1, _⟩ => exact edge2_rhs_hid_1 _ _)
  rw [el, er]

/-! ## The concatenation at an entry -/

/-- Row `p` of `[a, b]` joined along the columns is `a`'s row `p` on the first 64 columns and `b`'s on the last 64. -/
theorem edge2_cat_apply (a b : S3840x64.Idx → EReal) (h : Shape.Concatenates [S3840x64, S3840x64] S3840x128 1) (p : Fin 3840) (k : Fin 128) :
    concatenate S3840x128 1 [⟨S3840x64, a⟩, ⟨S3840x64, b⟩] h (ix2 p k)
      = if hk : k.val < 64 then a (ix2 p ⟨k.val, hk⟩) else b (ix2 p ⟨k.val - 64, by have := k.isLt; omega⟩) := by
  split
  · next hk =>
    refine concatenate_pair_apply_left (1 : Fin S3840x128.rank) a b h (ix2 p k) rfl (ix2 p ⟨k.val, hk⟩) fun ax => ?_
    match ax with
    | ⟨0, _⟩ => rfl
    | ⟨1, _⟩ => rfl
  · next hk =>
    refine concatenate_pair_apply_right (1 : Fin S3840x128.rank) a b h (ix2 p k) rfl rfl (ix2 p ⟨k.val - 64, by have := k.isLt; omega⟩) (fun ax hax => ?_) ?_
    · match ax with
      | ⟨0, _⟩ => rfl
      | ⟨1, _⟩ => exact absurd rfl hax
    · show k.val - 64 + 64 = k.val
      omega

/-! ## The body's payload is the message map on its block of rows -/

/-- The zero word is the extended real zero. -/
theorem edge2_zero_word : (FloatOps.ofBits FTy.f32 0x00000000#32 : Ideal .f32) = (0 : EReal) := Ideal.ofBits_zero_f32

/-- The body's value on blocks `x0` (receivers), `x1` (senders) and the four weight blocks: entry `(p, q)` is
    `relu (∑ k, relu (∑ k', [x0, x1 - x0] p k' * x2 k' k + x3 k) * x4 k q + x5 q)`, the message map's entry. -/
theorem edge2_pay_eq (x0 x1 : Vec Ideal S3840x64 .f32) (x2 : Vec Ideal S128x64 .f32) (x3 : Vec Ideal S1x64 .f32)
    (x4 : Vec Ideal S64x64 .f32) (x5 : Vec Ideal S1x64 .f32) :
    k2_pay1 (F := Ideal) x0 x1 x2 x3 x4 x5 = Cert.Spec.edgeG x0 x1 x2 x3 x4 x5 := by
  funext j
  obtain ⟨p, q, rfl⟩ : ∃ (p : Fin 3840) (q : Fin 64), j = ix2 p q := ⟨j 0, j 1, eq_ix2 j⟩
  unfold k2_pay1
  rw [maximumf_apply, addf_apply, broadcast_apply, edge2_mm_hid_apply, broadcastTo_1b_ab_apply]
  simp only [truncf_apply, maximumf_apply, addf_apply, broadcast_apply, edge2_mm_cat_apply, broadcastTo_1b_ab_apply,
    edge2_cat_apply, subf_apply, shapeCast_self, edge2_zero_word]
  rfl

/-! ## From the blocks to the array -/

/-- The zero offsets of a whole-buffer access. -/
theorem edge2_hz : (![0, 0] : Fin 2 → Nat) = fun _ => 0 := funext fun a => by fin_cases a <;> rfl

/-- Entry `(p, q)` of the message map reads only row `p` of the two feature arrays: when row `p` of `yd`, `ys` is
    row `r` of `xd`, `xs`, the entries `(p, q)` and `(r, q)` agree. -/
theorem edge2_edgeG_rows {n N : ℕ} (xd xs : Cert.Spec.Mat N 64) (yd ys : Cert.Spec.Mat n 64) (W1 : Cert.Spec.Mat 128 64)
    (b1 : Cert.Spec.Mat 1 64) (W2 : Cert.Spec.Mat 64 64) (b2 : Cert.Spec.Mat 1 64) (p : Fin n) (r : Fin N) (q : Fin 64)
    (hd : ∀ k : Fin 64, yd (ix2 p k) = xd (ix2 r k)) (hs : ∀ k : Fin 64, ys (ix2 p k) = xs (ix2 r k)) :
    Cert.Spec.edgeG yd ys W1 b1 W2 b2 (ix2 p q) = Cert.Spec.edgeG xd xs W1 b1 W2 b2 (ix2 r q) := by
  have hrow : Cert.Spec.catRow yd ys p = Cert.Spec.catRow xd xs r := funext fun k => by
    unfold Cert.Spec.catRow
    split
    · exact hd _
    · rw [hd, hs]
  show Cert.Spec.reluAffineAt (fun q' : Fin 64 => Cert.Spec.reluAffineAt (Cert.Spec.catRow yd ys p) W1 b1 q') W2 b2 q
    = Cert.Spec.reluAffineAt (fun q' : Fin 64 => Cert.Spec.reluAffineAt (Cert.Spec.catRow xd xs r) W1 b1 q') W2 b2 q
  rw [hrow]

/-- The printed index maps over the grid: point `t` reads block `t` of rows of the two feature arrays, the one block
    of each weight array, and writes block `t` of rows of the result. -/
theorem edge2_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- What point `t` writes back is block `t` of rows of the message map of the whole input arrays. -/
theorem edge2_flushed_eq (c : Dev nD) (t : Fin cfg2.N) :
    (dat2 (F := Ideal) V c).flushed 6 t
      = ((cfg2.win 6).blk t).view.read (Elt Ideal) (Cert.Spec.edgeG (V c main_v22) (V c main_v23) (V c main_arg9) (V c main_v24) (V c main_arg11) (V c main_v25)) := by
  show (cfg2.win 6).cut (grid2.coords t) ((dat2 V c).after 6 t) = _
  rw [after2_6]
  unfold out2_6
  rw [View.canon_unit_zero edge2_hz]
  simp only [View.ld_unit_zero (S := S3840x64) edge2_hz, View.ld_unit_zero (S := S128x64) edge2_hz, View.ld_unit_zero (S := S1x64) edge2_hz,
    View.ld_unit_zero (S := S64x64) edge2_hz]
  rw [edge2_pay_eq (iblk2 V c 0 t) (iblk2 V c 1 t) (iblk2 V c 2 t) (iblk2 V c 3 t) (iblk2 V c 4 t) (iblk2 V c 5 t)]
  obtain ⟨e00, e01, e10, e11, e20, e21, e30, e31, e40, e41, e50, e51, e60, e61⟩ := edge2_idx_facts t
  have ht : t.val < 250 := lt_of_lt_of_eq t.isLt N_2
  have w2 : (iblk2 V c 2 t : Cert.Spec.Mat 128 64) = V c main_arg9 := funext fun y => by
    show V c main_arg9 (((cfg2.win 2).blk t).view.emb y) = V c main_arg9 y
    refine congrArg _ (funext fun a => Fin.ext ?_)
    match a with
    | ⟨0, _⟩ => show win2_2.index t (0 : Fin 2) * 128 + 1 * (y 0).val = (y 0).val; rw [e20]; omega
    | ⟨1, _⟩ => show win2_2.index t (1 : Fin 2) * 64 + 1 * (y 1).val = (y 1).val; rw [e21]; omega
  have w3 : (iblk2 V c 3 t : Cert.Spec.Mat 1 64) = V c main_v24 := funext fun y => by
    show V c main_v24 (((cfg2.win 3).blk t).view.emb y) = V c main_v24 y
    refine congrArg _ (funext fun a => Fin.ext ?_)
    match a with
    | ⟨0, _⟩ => show win2_3.index t (0 : Fin 2) * 1 + 1 * (y 0).val = (y 0).val; rw [e30]; omega
    | ⟨1, _⟩ => show win2_3.index t (1 : Fin 2) * 64 + 1 * (y 1).val = (y 1).val; rw [e31]; omega
  have w4 : (iblk2 V c 4 t : Cert.Spec.Mat 64 64) = V c main_arg11 := funext fun y => by
    show V c main_arg11 (((cfg2.win 4).blk t).view.emb y) = V c main_arg11 y
    refine congrArg _ (funext fun a => Fin.ext ?_)
    match a with
    | ⟨0, _⟩ => show win2_4.index t (0 : Fin 2) * 64 + 1 * (y 0).val = (y 0).val; rw [e40]; omega
    | ⟨1, _⟩ => show win2_4.index t (1 : Fin 2) * 64 + 1 * (y 1).val = (y 1).val; rw [e41]; omega
  have w5 : (iblk2 V c 5 t : Cert.Spec.Mat 1 64) = V c main_v25 := funext fun y => by
    show V c main_v25 (((cfg2.win 5).blk t).view.emb y) = V c main_v25 y
    refine congrArg _ (funext fun a => Fin.ext ?_)
    match a with
    | ⟨0, _⟩ => show win2_5.index t (0 : Fin 2) * 1 + 1 * (y 0).val = (y 0).val; rw [e50]; omega
    | ⟨1, _⟩ => show win2_5.index t (1 : Fin 2) * 64 + 1 * (y 1).val = (y 1).val; rw [e51]; omega
  rw [w2, w3, w4, w5]
  funext j
  revert j
  show ∀ j : S3840x64.Idx, Cert.Spec.edgeG (iblk2 V c 0 t) (iblk2 V c 1 t) (V c main_arg9) (V c main_v24) (V c main_arg11) (V c main_v25) j
    = Cert.Spec.edgeG (V c main_v22) (V c main_v23) (V c main_arg9) (V c main_v24) (V c main_arg11) (V c main_v25) (((cfg2.win 6).blk t).view.emb j)
  intro j
  obtain ⟨p, q, rfl⟩ : ∃ (p : Fin 3840) (q : Fin 64), j = ix2 p q := ⟨j 0, j 1, eq_ix2 j⟩
  have hr : t.val * 3840 + p.val < 960000 := by have := p.isLt; omega
  have hemb : ((cfg2.win 6).blk t).view.emb (ix2 p q) = ix2 (⟨t.val * 3840 + p.val, hr⟩ : Fin 960000) q := funext fun a => Fin.ext (by
    match a with
    | ⟨0, _⟩ => show win2_6.index t (0 : Fin 2) * 3840 + 1 * p.val = t.val * 3840 + p.val; rw [e60]; omega
    | ⟨1, _⟩ => show win2_6.index t (1 : Fin 2) * 64 + 1 * q.val = q.val; rw [e61]; omega)
  rw [hemb]
  refine edge2_edgeG_rows _ _ _ _ _ _ _ _ p ⟨t.val * 3840 + p.val, hr⟩ q (fun k => ?_) (fun k => ?_)
  · show V c main_v22 (((cfg2.win 0).blk t).view.emb (ix2 p k)) = V c main_v22 (ix2 (⟨t.val * 3840 + p.val, hr⟩ : Fin 960000) k)
    refine congrArg _ (funext fun a => Fin.ext ?_)
    match a with
    | ⟨0, _⟩ => show win2_0.index t (0 : Fin 2) * 3840 + 1 * p.val = t.val * 3840 + p.val; rw [e00]; omega
    | ⟨1, _⟩ => show win2_0.index t (1 : Fin 2) * 64 + 1 * k.val = k.val; rw [e01]; omega
  · show V c main_v23 (((cfg2.win 1).blk t).view.emb (ix2 p k)) = V c main_v23 (ix2 (⟨t.val * 3840 + p.val, hr⟩ : Fin 960000) k)
    refine congrArg _ (funext fun a => Fin.ext ?_)
    match a with
    | ⟨0, _⟩ => show win2_1.index t (0 : Fin 2) * 3840 + 1 * p.val = t.val * 3840 + p.val; rw [e10]; omega
    | ⟨1, _⟩ => show win2_1.index t (1 : Fin 2) * 64 + 1 * k.val = k.val; rw [e11]; omega

/-- An edge entry lies in point `t`'s block iff each coordinate is in the block's range on its axis. -/
theorem edge2_mem_blk (t : Fin cfg2.N) (i : S960000x64.Idx) :
    i ∈ ((cfg2.win 6).blk t).view.set ↔ ∀ a : Fin 2, win2_6.index t a * S3840x64.size a ≤ (i a).val ∧ (i a).val < win2_6.index t a * S3840x64.size a + S3840x64.size a := by
  show i ∈ ((View.whole main_v26).slice (win2_6.rect t)).set ↔ _
  rw [View.set_slice_whole, Rect.mem_set_unit]
  exact Iff.rfl

/-- Every block of 3840 edges the body writes back is that block of `edgeG` of the input arrays, and the 250 blocks
    tile the 960000 edges. -/
theorem edge2_arr (c : Dev nD) :
    (dat2 (F := Ideal) V c).arrAt 6 cfg2.N
      = Cert.Spec.edgeG (V c main_v22) (V c main_v23) (V c main_arg9) (V c main_v24) (V c main_arg11) (V c main_v25) := by
  refine (dat2 (F := Ideal) V c).arrAt_eq_of_cover 6 _ (fun t _ => edge2_flushed_eq V c t) fun i => ?_
  have hi0 : (i 0).val < 960000 := (i 0).isLt
  have hi1 : (i 1).val < 64 := (i 1).isLt
  have hN : cfg2.N = 250 := N_2
  refine ⟨⟨(i 0).val / 3840, by rw [hN]; omega⟩, flush2_6 _, ?_⟩
  obtain ⟨-, -, -, -, -, -, -, -, -, -, -, -, e60, e61⟩ := edge2_idx_facts ⟨(i 0).val / 3840, by rw [hN]; omega⟩
  rw [edge2_mem_blk]
  intro a
  match a with
  | ⟨0, _⟩ =>
    show win2_6.index ⟨(i 0).val / 3840, _⟩ (0 : Fin 2) * 3840 ≤ (i 0).val ∧ (i 0).val < win2_6.index ⟨(i 0).val / 3840, _⟩ (0 : Fin 2) * 3840 + 3840
    rw [e60]
    show (i 0).val / 3840 * 3840 ≤ (i 0).val ∧ (i 0).val < (i 0).val / 3840 * 3840 + 3840
    omega
  | ⟨1, _⟩ =>
    show win2_6.index ⟨(i 0).val / 3840, _⟩ (1 : Fin 2) * 64 ≤ (i 1).val ∧ (i 1).val < win2_6.index ⟨(i 0).val / 3840, _⟩ (1 : Fin 2) * 64 + 64
    rw [e61]
    omega

end Cert.KernelIdeal.RegionValue

end
-- ==== Proof.KPred.lean ====
/- The scoring launch: over any entry contents, the array it leaves is `Cert.Spec.predG` of its five input arrays. -/
import proofs.«427380_j33938831573442_1_alg».proof.Proof.Gen.KernelIdeal.Frame
import proofs.«427380_j33938831573442_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The two products of the body at an entry

Each is a 2000-row matrix times a 64-row matrix into a zero accumulator: entry `(p, q)` is `∑ k, a p k * b k q`. -/

/-- The hidden layer's product `x · W₀`: the left operand is read at the result's row … -/
theorem pred_hid_lhs_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- … and at the summation index as its column; -/
theorem pred_hid_lhs_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- the right operand at the summation index as its row … -/
theorem pred_hid_rhs_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- … and at the result's column. -/
theorem pred_hid_rhs_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Entry `(p, q)` of the hidden layer's product into zeros is `∑ k, a p k * b k q`. -/
theorem pred_hid_apply (a : FVec Ideal S2000x64 .bf16) (b : FVec Ideal S64x64 .bf16) (p : Fin 2000) (q : Fin 64) :
    matmul (F := Ideal) dot_S2000x64_S64x64_S2000x64_1_0_0_1_n_n none a b (constant (F := Ideal) S2000x64 .f32 0x00000000#32) (ix2 p q)
      = ∑ k : Fin 64, a (ix2 p k) * b (ix2 k q) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact pred_hid_lhs_0 _ _
    | ⟨1, _⟩ => exact (pred_hid_lhs_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (pred_hid_rhs_0 _ _).trans hk
    | ⟨1, _⟩ => exact pred_hid_rhs_1 _ _)
  rw [el, er]

/-- The class layer's product `h · W_c`: the left operand is read at the result's row … -/
theorem pred_cls_lhs_0 (i : S2000x6.Idx) (q : dot_S2000x64_S64x6_S2000x6_1_0_0_1_n_n.contr.Idx) :
    (dot_S2000x64_S64x6_S2000x6_1_0_0_1_n_n.lhsIdx i q 0).val = (i 0).val := by
  unfold DotDims.lhsIdx
  rw [dif_neg (show ¬(0 : Fin S2000x64.rank) ∈ dot_S2000x64_S64x6_S2000x6_1_0_0_1_n_n.lhsBatch by decide), dif_pos (show (0 : Fin S2000x64.rank) ∈ dot_S2000x64_S64x6_S2000x6_1_0_0_1_n_n.lhsNonContracting by decide)]
  rfl
/-- … and at the summation index as its column; -/
theorem pred_cls_lhs_1 (i : S2000x6.Idx) (q : dot_S2000x64_S64x6_S2000x6_1_0_0_1_n_n.contr.Idx) :
    (dot_S2000x64_S64x6_S2000x6_1_0_0_1_n_n.lhsIdx i q 1).val = (q ⟨0, by decide⟩).val :=
  dot_S2000x64_S64x6_S2000x6_1_0_0_1_n_n.lhsIdx_val_of_single rfl i q
/-- the right operand at the summation index as its row … -/
theorem pred_cls_rhs_0 (i : S2000x6.Idx) (q : dot_S2000x64_S64x6_S2000x6_1_0_0_1_n_n.contr.Idx) :
    (dot_S2000x64_S64x6_S2000x6_1_0_0_1_n_n.rhsIdx i q 0).val = (q ⟨0, by decide⟩).val :=
  dot_S2000x64_S64x6_S2000x6_1_0_0_1_n_n.rhsIdx_val_of_single rfl i q
/-- … and at the result's column. -/
theorem pred_cls_rhs_1 (i : S2000x6.Idx) (q : dot_S2000x64_S64x6_S2000x6_1_0_0_1_n_n.contr.Idx) :
    (dot_S2000x64_S64x6_S2000x6_1_0_0_1_n_n.rhsIdx i q 1).val = (i 1).val := by
  unfold DotDims.rhsIdx
  rw [dif_neg (show ¬(1 : Fin S64x6.rank) ∈ dot_S2000x64_S64x6_S2000x6_1_0_0_1_n_n.rhsBatch by decide), dif_pos (show (1 : Fin S64x6.rank) ∈ dot_S2000x64_S64x6_S2000x6_1_0_0_1_n_n.rhsNonContracting by decide)]
  rfl

/-- Entry `(p, q)` of the class layer's product into zeros is `∑ k, a p k * b k q`. -/
theorem pred_cls_apply (a : FVec Ideal S2000x64 .bf16) (b : FVec Ideal S64x6 .bf16) (p : Fin 2000) (q : Fin 6) :
    matmul (F := Ideal) dot_S2000x64_S64x6_S2000x6_1_0_0_1_n_n none a b (constant (F := Ideal) S2000x6 .f32 0x00000000#32) (ix2 p q)
      = ∑ k : Fin 64, a (ix2 p k) * b (ix2 k q) := by
  simp only [matmul]
  rw [Ideal.matmul_constant_zero_apply, ← Equiv.sum_comp (ValueIdx.contrEquiv1 dot_S2000x64_S64x6_S2000x6_1_0_0_1_n_n 64 rfl rfl).symm]
  refine Finset.sum_congr rfl fun k _ => ?_
  have hk := ValueIdx.contrEquiv1_symm_val dot_S2000x64_S64x6_S2000x6_1_0_0_1_n_n 64 rfl rfl k
  have el : dot_S2000x64_S64x6_S2000x6_1_0_0_1_n_n.lhsIdx (ix2 p q) ((ValueIdx.contrEquiv1 dot_S2000x64_S64x6_S2000x6_1_0_0_1_n_n 64 rfl rfl).symm k) = ix2 p k := funext fun a => Fin.ext (by
    match a with
    | ⟨0, _⟩ => exact pred_cls_lhs_0 _ _
    | ⟨1, _⟩ => exact (pred_cls_lhs_1 _ _).trans hk)
  have er : dot_S2000x64_S64x6_S2000x6_1_0_0_1_n_n.rhsIdx (ix2 p q) ((ValueIdx.contrEquiv1 dot_S2000x64_S64x6_S2000x6_1_0_0_1_n_n 64 rfl rfl).symm k) = ix2 k q := funext fun a => Fin.ext (by
    match a with
    | ⟨0, _⟩ => exact (pred_cls_rhs_0 _ _).trans hk
    | ⟨1, _⟩ => exact pred_cls_rhs_1 _ _)
  rw [el, er]

/-! ## The body's stored value is `predG` of its five blocks -/

/-- On a block of 2000 rows the body computes `relu (x W₀ + b₀) W_c + b_c`: over the extended reals the narrowing of
    a product's operands changes nothing, the zero word is `0`, and each bias row is read on every row. -/
theorem pred_pay_eq (x0 : Vec Ideal S2000x64 .f32) (x1 : Vec Ideal S64x64 .f32) (x2 : Vec Ideal S1x64 .f32)
    (x3 : Vec Ideal S64x6 .f32) (x4 : Vec Ideal S1x6 .f32) :
    k3_pay1 (F := Ideal) x0 x1 x2 x3 x4 = Cert.Spec.predG x0 x1 x2 x3 x4 := by
  funext j
  obtain ⟨p, q, rfl⟩ : ∃ (p : Fin 2000) (q : Fin 6), j = ix2 p q := ⟨j 0, j 1, eq_ix2 j⟩
  -- a one-row bias copied down the rows reads its entry of the same column
  have hb2 : ∀ k : Fin 64, broadcastTo S2000x64 x2 broadcasts_S1x64_S2000x64 (ix2 p k) = x2 (ix2 (0 : Fin 1) k) := fun k =>
    broadcastTo_apply _ _ _ _ (fun a => by match a with | ⟨0, _⟩ => rfl | ⟨1, _⟩ => rfl)
  have hb4 : broadcastTo S2000x6 x4 broadcasts_S1x6_S2000x6 (ix2 p q) = x4 (ix2 (0 : Fin 1) q) :=
    broadcastTo_apply _ _ _ _ (fun a => by match a with | ⟨0, _⟩ => rfl | ⟨1, _⟩ => rfl)
  unfold k3_pay1
  simp only [shapeCast_self]
  rw [addf_apply, pred_cls_apply, hb4]
  unfold Cert.Spec.predG Cert.Spec.affineAt Cert.Spec.reluAffineAt Cert.Spec.affineAt
  show _ = (∑ k : Fin 64, max ((∑ k' : Fin 64, x0 (ix2 p k') * x1 (ix2 k' k)) + x2 (ix2 (0 : Fin 1) k)) 0 * x3 (ix2 k q)) + x4 (ix2 (0 : Fin 1) q)
  congr 1
  refine Finset.sum_congr rfl fun k _ => ?_
  rw [truncf_apply, truncf_apply, maximumf_apply, addf_apply, pred_hid_apply, hb2, broadcast_apply]
  rw [show (FloatOps.ofBits (F := Ideal) .f32 0x00000000#32) = (0 : EReal) from Ideal.ofBits_zero_f32]
  rfl

/-! ## From blocks to the array -/

theorem pred_hz : (![0, 0] : Fin 2 → Nat) = fun _ => 0 := funext fun a => by fin_cases a <;> rfl

/-- The windows' block numbers at grid point `t`, decided over the 30 points: the node features and the scores move down
    their rows with `t`, block `t` of 2000 rows; the two weight matrices and the two bias rows stay at block 0. -/
theorem pred_idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- `predG` acts on each row alone: entry `i` of the scores of `X` and entry `j` of the scores of `Y` agree when row
    `i` of `X` is row `j` of `Y` and the two entries are in the same column, whatever the two row counts. -/
theorem pred_rows {n m : ℕ} (X : Cert.Spec.Mat n 64) (Y : Cert.Spec.Mat m 64) (W0 : Cert.Spec.Mat 64 64) (b0 : Cert.Spec.Mat 1 64)
    (Wc : Cert.Spec.Mat 64 6) (bc : Cert.Spec.Mat 1 6) (i : (⟨2, ![n, 6]⟩ : Shape).Idx) (j : (⟨2, ![m, 6]⟩ : Shape).Idx)
    (hrow : ∀ k : Fin 64, X (ix2 (Cert.Spec.rowIx i) k) = Y (ix2 (Cert.Spec.rowIx j) k)) (hcol : Cert.Spec.colIx i = Cert.Spec.colIx j) :
    Cert.Spec.predG X W0 b0 Wc bc i = Cert.Spec.predG Y W0 b0 Wc bc j := by
  unfold Cert.Spec.predG
  rw [show (fun k => X (ix2 (Cert.Spec.rowIx i) k)) = (fun k => Y (ix2 (Cert.Spec.rowIx j) k)) from funext hrow, hcol]

/-- The hidden layer's weight matrix is one block, the whole array, at every point. -/
theorem pred_iblk1_eq (c : Dev nD) (t : Fin cfg3.N) : (iblk3 V c 1 t : Vec Ideal S64x64 .f32) = V c main_arg13 := by
  obtain ⟨e00, e01, e10, e11, e20, e21, e30, e31, e40, e41, e50, e51⟩ := pred_idx_facts t
  funext x
  unfold iblk3
  rw [View.read_apply]
  show (V c main_arg13 : S64x64.Idx → EReal) (((cfg3.win 1).blk t).view.emb x) = V c main_arg13 x
  congr 1
  funext a
  apply Fin.ext
  match a with
  | ⟨0, _⟩ => show win3_1.index t (0 : Fin 2) * 64 + 1 * (x 0).val = (x 0).val; rw [e10]; omega
  | ⟨1, _⟩ => show win3_1.index t (1 : Fin 2) * 64 + 1 * (x 1).val = (x 1).val; rw [e11]; omega

/-- The hidden layer's bias row is one block, the whole array, at every point. -/
theorem pred_iblk2_eq (c : Dev nD) (t : Fin cfg3.N) : (iblk3 V c 2 t : Vec Ideal S1x64 .f32) = V c main_v33 := by
  obtain ⟨e00, e01, e10, e11, e20, e21, e30, e31, e40, e41, e50, e51⟩ := pred_idx_facts t
  funext x
  unfold iblk3
  rw [View.read_apply]
  show (V c main_v33 : S1x64.Idx → EReal) (((cfg3.win 2).blk t).view.emb x) = V c main_v33 x
  congr 1
  funext a
  apply Fin.ext
  match a with
  | ⟨0, _⟩ => show win3_2.index t (0 : Fin 2) * 1 + 1 * (x 0).val = (x 0).val; rw [e20]; omega
  | ⟨1, _⟩ => show win3_2.index t (1 : Fin 2) * 64 + 1 * (x 1).val = (x 1).val; rw [e21]; omega

/-- The class layer's weight matrix is one block, the whole array, at every point. -/
theorem pred_iblk3_eq (c : Dev nD) (t : Fin cfg3.N) : (iblk3 V c 3 t : Vec Ideal S64x6 .f32) = V c main_arg15 := by
  obtain ⟨e00, e01, e10, e11, e20, e21, e30, e31, e40, e41, e50, e51⟩ := pred_idx_facts t
  funext x
  unfold iblk3
  rw [View.read_apply]
  show (V c main_arg15 : S64x6.Idx → EReal) (((cfg3.win 3).blk t).view.emb x) = V c main_arg15 x
  congr 1
  funext a
  apply Fin.ext
  match a with
  | ⟨0, _⟩ => show win3_3.index t (0 : Fin 2) * 64 + 1 * (x 0).val = (x 0).val; rw [e30]; omega
  | ⟨1, _⟩ => show win3_3.index t (1 : Fin 2) * 6 + 1 * (x 1).val = (x 1).val; rw [e31]; omega

/-- The class layer's bias row is one block, the whole array, at every point. -/
theorem pred_iblk4_eq (c : Dev nD) (t : Fin cfg3.N) : (iblk3 V c 4 t : Vec Ideal S1x6 .f32) = V c main_v34 := by
  obtain ⟨e00, e01, e10, e11, e20, e21, e30, e31, e40, e41, e50, e51⟩ := pred_idx_facts t
  funext x
  unfold iblk3
  rw [View.read_apply]
  show (V c main_v34 : S1x6.Idx → EReal) (((cfg3.win 4).blk t).view.emb x) = V c main_v34 x
  congr 1
  funext a
  apply Fin.ext
  match a with
  | ⟨0, _⟩ => show win3_4.index t (0 : Fin 2) * 1 + 1 * (x 0).val = (x 0).val; rw [e40]; omega
  | ⟨1, _⟩ => show win3_4.index t (1 : Fin 2) * 6 + 1 * (x 1).val = (x 1).val; rw [e41]; omega

/-- What point `t` writes back is rows `2000 t … 2000 t + 1999` of `predG` of the five arrays: the body's value is
    `predG` of the blocks (`pred_pay_eq`), the feature block at `t` is those rows of the feature array, and `predG` acts
    row by row (`pred_rows`). -/
theorem pred_flushed_eq (c : Dev nD) (t : Fin cfg3.N) :
    (dat3 (F := Ideal) V c).flushed 5 t = ((cfg3.win 5).blk t).view.read (Elt Ideal)
      (Cert.Spec.predG (V c main_v32) (V c main_arg13) (V c main_v33) (V c main_arg15) (V c main_v34)) := by
  obtain ⟨e00, e01, e10, e11, e20, e21, e30, e31, e40, e41, e50, e51⟩ := pred_idx_facts t
  show (cfg3.win 5).cut (grid3.coords t) ((dat3 V c).after 5 t) = _
  rw [after3_5]
  unfold out3_5
  rw [View.canon_unit_zero pred_hz]
  simp only [View.ld_unit_zero (S := S2000x64) pred_hz, View.ld_unit_zero (S := S64x64) pred_hz, View.ld_unit_zero (S := S1x64) pred_hz,
    View.ld_unit_zero (S := S64x6) pred_hz, View.ld_unit_zero (S := S1x6) pred_hz]
  rw [pred_pay_eq, pred_iblk1_eq, pred_iblk2_eq, pred_iblk3_eq, pred_iblk4_eq]
  funext j
  show Cert.Spec.predG (n := 2000) (iblk3 V c 0 t) (V c main_arg13) (V c main_v33) (V c main_arg15) (V c main_v34) j
    = Cert.Spec.predG (n := 60000) (V c main_v32) (V c main_arg13) (V c main_v33) (V c main_arg15) (V c main_v34) (((cfg3.win 5).blk t).view.emb j)
  refine pred_rows _ _ _ _ _ _ _ _ (fun k => ?_) ?_
  · -- row `j 0` of the feature block at `t` is row `2000 t + j 0` of the feature array
    unfold iblk3
    rw [View.read_apply]
    show (V c main_v32 : S60000x64.Idx → EReal) (((cfg3.win 0).blk t).view.emb (ix2 (Cert.Spec.rowIx j) k)) = _
    congr 1
    funext a
    apply Fin.ext
    match a with
    | ⟨0, _⟩ => show win3_0.index t (0 : Fin 2) * 2000 + 1 * (j 0).val = win3_5.index t (0 : Fin 2) * 2000 + 1 * (j 0).val; rw [e00, e50]
    | ⟨1, _⟩ => show win3_0.index t (1 : Fin 2) * 64 + 1 * k.val = k.val; rw [e01]; omega
  · -- the score block spans all six columns
    apply Fin.ext
    show (j 1).val = win3_5.index t (1 : Fin 2) * 6 + 1 * (j 1).val
    rw [e51]; omega

/-- An entry of the score array is in point `t`'s block iff each coordinate is in the block's range on its axis. -/
theorem pred_mem_blk (t : Fin cfg3.N) (i : S60000x6.Idx) :
    i ∈ ((cfg3.win 5).blk t).view.set ↔ ∀ a : Fin 2, win3_5.index t a * S2000x6.size a ≤ (i a).val ∧ (i a).val < win3_5.index t a * S2000x6.size a + S2000x6.size a := by
  show i ∈ ((View.whole main_v35).slice (win3_5.rect t)).set ↔ _
  rw [View.set_slice_whole, Rect.mem_set_unit]
  exact Iff.rfl

/-- The 30 blocks tile the 60000 rows: row `r` lies in the block of point `r / 2000`. -/
theorem pred_cover (i : S60000x6.Idx) : ∃ t : Fin cfg3.N, (cfg3.win 5).flush t = true ∧ i ∈ ((cfg3.win 5).blk t).view.set := by
  have hN : cfg3.N = 30 := N_3
  have hi0 : (i 0).val < 60000 := (i 0).isLt
  have hi1 : (i 1).val < 6 := (i 1).isLt
  refine ⟨⟨(i 0).val / 2000, by rw [hN]; omega⟩, flush3_5 _, ?_⟩
  obtain ⟨e00, e01, e10, e11, e20, e21, e30, e31, e40, e41, e50, e51⟩ := pred_idx_facts ⟨(i 0).val / 2000, by rw [hN]; omega⟩
  rw [pred_mem_blk]
  intro a
  match a with
  | ⟨0, _⟩ =>
    show win3_5.index _ (0 : Fin 2) * 2000 ≤ (i 0).val ∧ (i 0).val < win3_5.index _ (0 : Fin 2) * 2000 + 2000
    rw [e50]; show (i 0).val / 2000 * 2000 ≤ (i 0).val ∧ (i 0).val < (i 0).val / 2000 * 2000 + 2000; omega
  | ⟨1, _⟩ =>
    show win3_5.index _ (1 : Fin 2) * 6 ≤ (i 1).val ∧ (i 1).val < win3_5.index _ (1 : Fin 2) * 6 + 6
    rw [e51]; omega

/-- Every block of 2000 rows the body writes back is that block of `predG` of the input arrays, and the 30 blocks
    tile the 60000 rows. -/
theorem pred_arr (c : Dev nD) :
    (dat3 (F := Ideal) V c).arrAt 5 cfg3.N
      = Cert.Spec.predG (V c main_v32) (V c main_arg13) (V c main_v33) (V c main_arg15) (V c main_v34) := by
  exact (dat3 (F := Ideal) V c).arrAt_eq_of_cover 5 _ (fun t _ => pred_flushed_eq V c t) pred_cover

end Cert.KernelIdeal.RegionValue

end
-- ==== Proof.KHostB.lean ====
/- From the first message launch's end (`Gen.W8`) to the result: whatever round one's messages `M1` are, the
   result array is the class scores of the second round over the average of `M1`. -/
import proofs.«427380_j33938831573442_1_alg».proof.Proof.Gen.KernelIdeal.Frame
import proofs.«427380_j33938831573442_1_alg».proof.Proof.Net
import proofs.«427380_j33938831573442_1_alg».proof.Proof.KEdge2
import proofs.«427380_j33938831573442_1_alg».proof.Proof.KPred
import proofs.«427380_j33938831573442_1_alg».proof.Proof.TakeFill
import Idealize.ShloMosaic.Lib.StableHlo.Run
import Idealize.ShloMosaic.Lib.Pipeline.Value

set_option maxRecDepth 16384

noncomputable section

namespace Cert.KernelIdeal.HostValue

open Idealize.ShloMosaic Idealize.ShloMosaic.TcCoe Idealize.SL.Sem
open Cert.KernelIdeal Cert.KernelIdeal.Gen Cert.KernelIdeal.Net

variable (m : (ℓ : Loc nD τ sig) → Buf (Elt Ideal) ℓ) (ρ : Dev nD → PrngReg)

namespace Tail

/-! ## Each stretch of host operations, over any contents `V` -/

/-- The buffers the first averaging stretch writes. -/
abbrev avg1W : List (Ref sig .tc) := [main_cst_2, main_v16, main_v17, main_v18, main_v19, main_v20, main_v21]

theorem avg1_writes : (hostOps2 : List (HloOp τ sig (Elt Ideal))).Forall
    fun op => op.writes ⊆ (avg1W.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside that list holds after the stretch what it held before. -/
theorem avg1_keep (V : Valuation τ sig (Elt Ideal)) (r : Ref sig .tc) (h : r ∉ avg1W) :
    StableHlo.after hostOps2 V (Proc.devRef .tc r) = V (Proc.devRef .tc r) :=
  StableHlo.after_of_writes_sub hostOps2 V avg1_writes h

/-- The buffers the row lookup at the receivers writes. -/
abbrev takeDW : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v22]

theorem takeD_writes : (hostOps2_1 : List (HloOp τ sig (Elt Ideal))).Forall
    fun op => op.writes ⊆ (takeDW.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside that list holds after the stretch what it held before. -/
theorem takeD_keep (V : Valuation τ sig (Elt Ideal)) (r : Ref sig .tc) (h : r ∉ takeDW) :
    StableHlo.after hostOps2_1 V (Proc.devRef .tc r) = V (Proc.devRef .tc r) :=
  StableHlo.after_of_writes_sub hostOps2_1 V takeD_writes h

/-- The buffers the row lookup at the senders writes. -/
abbrev takeSW : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v23]

theorem takeS_writes : (hostOps2_2 : List (HloOp τ sig (Elt Ideal))).Forall
    fun op => op.writes ⊆ (takeSW.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside that list holds after the stretch what it held before. -/
theorem takeS_keep (V : Valuation τ sig (Elt Ideal)) (r : Ref sig .tc) (h : r ∉ takeSW) :
    StableHlo.after hostOps2_2 V (Proc.devRef .tc r) = V (Proc.devRef .tc r) :=
  StableHlo.after_of_writes_sub hostOps2_2 V takeS_writes h

/-- The buffers the second round's bias reshapes write. -/
abbrev bias2W : List (Ref sig .tc) := [main_v24, main_v25]

theorem bias2_writes : (hostOps2_3 : List (HloOp τ sig (Elt Ideal))).Forall
    fun op => op.writes ⊆ (bias2W.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside that list holds after the stretch what it held before. -/
theorem bias2_keep (V : Valuation τ sig (Elt Ideal)) (r : Ref sig .tc) (h : r ∉ bias2W) :
    StableHlo.after hostOps2_3 V (Proc.devRef .tc r) = V (Proc.devRef .tc r) :=
  StableHlo.after_of_writes_sub hostOps2_3 V bias2_writes h

/-- The buffers the second averaging stretch writes. -/
abbrev avg2W : List (Ref sig .tc) := [main_cst_3, main_v27, main_v28, main_v29, main_v30, main_v31, main_v32, main_v33, main_v34]

theorem avg2_writes : (hostOps3 : List (HloOp τ sig (Elt Ideal))).Forall
    fun op => op.writes ⊆ (avg2W.map (Proc.devRef (τ := τ) .tc)).toFinset := by
  simp only [List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer outside that list holds after the stretch what it held before. -/
theorem avg2_keep (V : Valuation τ sig (Elt Ideal)) (r : Ref sig .tc) (h : r ∉ avg2W) :
    StableHlo.after hostOps3 V (Proc.devRef .tc r) = V (Proc.devRef .tc r) :=
  StableHlo.after_of_writes_sub hostOps3 V avg2_writes h

/-- The first averaging stretch leaves in `main_v21` the average of the messages it finds in `main_v15`. -/
theorem avg1_value (V : Valuation τ sig (Elt Ideal)) (M : FVec Ideal S960000x64 .f32) (x1 : IVec S2x960000 32)
    (h15 : V (Proc.devRef .tc main_v15) = M) (h3 : V (Proc.devRef .tc main_v3) = edgeRow1 x1)
    (h10 : V (Proc.devRef .tc main_v10) = degree x1) :
    StableHlo.after hostOps2 V (Proc.devRef .tc main_v21) = aggregate M x1 := by
  after_results
  rw [h15, h3, h10]
  rfl

/-- The second averaging stretch does the same with the messages in `main_v26`, into `main_v32`. -/
theorem avg2_value (V : Valuation τ sig (Elt Ideal)) (M : FVec Ideal S960000x64 .f32) (x1 : IVec S2x960000 32)
    (h26 : V (Proc.devRef .tc main_v26) = M) (h3 : V (Proc.devRef .tc main_v3) = edgeRow1 x1)
    (h10 : V (Proc.devRef .tc main_v10) = degree x1) :
    StableHlo.after hostOps3 V (Proc.devRef .tc main_v32) = aggregate M x1 := by
  after_results
  rw [h26, h3, h10]
  rfl

/-- Contents moved to a buffer's own type and back are the contents. -/
theorem ofBuf_toBuf {T : BufTy} (x : StableHlo.TRef sig T) (v : T.Contents (Elt Ideal)) : x.ofBuf (x.toBuf v) = v := by
  simp only [StableHlo.TRef.ofBuf, StableHlo.TRef.toBuf, cast_cast, cast_eq]

/-- Contents that are the buffer's own, moved to the buffer's type, are those. -/
theorem toBuf_eq {T : BufTy} (x : StableHlo.TRef sig T) (v : T.Contents (Elt Ideal)) (w : x.ref.ty.Contents (Elt Ideal))
    (h : HEq v w) : x.toBuf v = w :=
  eq_of_heq ((cast_heq _ v).trans h)

/-- The lookup at the receivers: a table `X` in `main_v21` and in-range node numbers `ix` in `main_v3` leave
    the rows of `X` at `ix` in `main_v22` (the fill value is written nowhere). -/
theorem takeD_value (V : Valuation τ sig (Elt Ideal)) (X : FVec Ideal S60000x64 .f32) (ix : IVec S960000 32)
    (hX : V (Proc.devRef .tc main_v21) = X) (hix : V (Proc.devRef .tc main_v3) = ix) (hr : InRange ix) :
    StableHlo.after hostOps2_1 V (Proc.devRef .tc main_v22) = rows X ix := by
  have eX : (StableHlo.TRef.of main_v21 : StableHlo.TRef sig ⟨S60000x64, .f32⟩).ofBuf (V (Proc.devRef .tc main_v21)) = X := hX
  have eI : (StableHlo.TRef.of main_v3 : StableHlo.TRef sig ⟨S960000, .i32⟩).ofBuf (V (Proc.devRef .tc main_v3)) = ix := hix
  after_results_simp
  simp only [ofBuf_toBuf, eX, eI]
  exact toBuf_eq _ _ _ (heq_of_eq (takeFill_eq X ix hr))

/-- The lookup at the senders: the same with the node numbers in `main_v1`, into `main_v23`. -/
theorem takeS_value (V : Valuation τ sig (Elt Ideal)) (X : FVec Ideal S60000x64 .f32) (ix : IVec S960000 32)
    (hX : V (Proc.devRef .tc main_v21) = X) (hix : V (Proc.devRef .tc main_v1) = ix) (hr : InRange ix) :
    StableHlo.after hostOps2_2 V (Proc.devRef .tc main_v23) = rows X ix := by
  have eX : (StableHlo.TRef.of main_v21 : StableHlo.TRef sig ⟨S60000x64, .f32⟩).ofBuf (V (Proc.devRef .tc main_v21)) = X := hX
  have eI : (StableHlo.TRef.of main_v1 : StableHlo.TRef sig ⟨S960000, .i32⟩).ofBuf (V (Proc.devRef .tc main_v1)) = ix := hix
  after_results_simp
  simp only [ofBuf_toBuf, eX, eI]
  exact toBuf_eq _ _ _ (heq_of_eq (takeFill_eq X ix hr))

/-- The second round's first bias as a one-row matrix. -/
theorem bias2_v24 (V : Valuation τ sig (Elt Ideal)) (b : FVec Ideal S64 .f32) (hb : V (Proc.devRef .tc main_arg10) = b) :
    StableHlo.after hostOps2_3 V (Proc.devRef .tc main_v24) = biasRow b := by
  after_results
  rw [hb]
  rfl

/-- The second round's second bias as a one-row matrix. -/
theorem bias2_v25 (V : Valuation τ sig (Elt Ideal)) (b : FVec Ideal S64 .f32) (hb : V (Proc.devRef .tc main_arg12) = b) :
    StableHlo.after hostOps2_3 V (Proc.devRef .tc main_v25) = biasRow b := by
  after_results
  rw [hb]
  rfl

/-- The scoring layer's hidden bias as a one-row matrix. -/
theorem avg2_v33 (V : Valuation τ sig (Elt Ideal)) (b : FVec Ideal S64 .f32) (hb : V (Proc.devRef .tc main_arg14) = b) :
    StableHlo.after hostOps3 V (Proc.devRef .tc main_v33) = biasRow b := by
  after_results
  rw [hb]
  rfl

/-- The class bias as a one-row matrix. -/
theorem avg2_v34 (V : Valuation τ sig (Elt Ideal)) (b : FVec Ideal S6 .f32) (hb : V (Proc.devRef .tc main_arg16) = b) :
    StableHlo.after hostOps3 V (Proc.devRef .tc main_v34) = biasRow6 b := by
  after_results
  rw [hb]
  rfl

/-! ## Along the run -/

/-- A buffer none of the four stretches before the second message launch writes holds at that launch's entry what
    it held at `Gen.W8`. -/
theorem entry2_keep (c : Dev nD) (r : Ref sig .tc) (h1 : r ∉ avg1W) (h2 : r ∉ takeDW) (h3 : r ∉ takeSW) (h4 : r ∉ bias2W) :
    W12 m ρ c (Proc.devRef .tc r) = W8 m ρ c (Proc.devRef .tc r) :=
  (bias2_keep _ r h4).trans ((takeS_keep _ r h3).trans ((takeD_keep _ r h2).trans (avg1_keep _ r h1)))

/-- The same at that launch's exit, for a buffer that is none of its arrays either. -/
theorem exit2_keep (c : Dev nD) (r : Ref sig .tc) (hw : ∀ w, Pipeline.arrRef spec2 w ≠ r)
    (h1 : r ∉ avg1W) (h2 : r ∉ takeDW) (h3 : r ∉ takeSW) (h4 : r ∉ bias2W) :
    W13 m ρ c (Proc.devRef .tc r) = W8 m ρ c (Proc.devRef .tc r) :=
  (W13_of_ne m ρ c r hw).trans (entry2_keep m ρ c r h1 h2 h3 h4)

/-- The second message launch leaves `edgeG` of its six arrays as they stood at its entry. -/
theorem exit2_v26 (c : Dev nD) :
    W13 m ρ c (Proc.devRef .tc main_v26)
      = Cert.Spec.edgeG (W12 m ρ c (Proc.devRef .tc main_v22)) (W12 m ρ c (Proc.devRef .tc main_v23))
          (W12 m ρ c (Proc.devRef .tc main_arg9)) (W12 m ρ c (Proc.devRef .tc main_v24))
          (W12 m ρ c (Proc.devRef .tc main_arg11)) (W12 m ρ c (Proc.devRef .tc main_v25)) :=
  (W13_arr m ρ c 6).trans (RegionValue.edge2_arr (V12 m ρ) c)

/-- The scoring launch leaves `predG` of its five arrays as they stood at its entry. -/
theorem exit3_v35 (c : Dev nD) :
    W15 m ρ c (Proc.devRef .tc main_v35)
      = Cert.Spec.predG (W14 m ρ c (Proc.devRef .tc main_v32)) (W14 m ρ c (Proc.devRef .tc main_arg13))
          (W14 m ρ c (Proc.devRef .tc main_v33)) (W14 m ρ c (Proc.devRef .tc main_arg15))
          (W14 m ρ c (Proc.devRef .tc main_v34)) :=
  (W15_arr m ρ c 5).trans (RegionValue.pred_arr (V14 m ρ) c)

end Tail

open Tail in
/-- Given what `Gen.W8` holds at the buffers the rest of the program reads, the result buffer at the run's last
    boundary is `predG` of one more round of message passing over `aggregate M1`. -/
theorem tail_value (c : Dev nD) (M1 : FVec Ideal S960000x64 .f32) (x1 : IVec S2x960000 32)
    (x9 : FVec Ideal S128x64 .f32) (x10 : FVec Ideal S64 .f32) (x11 : FVec Ideal S64x64 .f32) (x12 : FVec Ideal S64 .f32)
    (x13 : FVec Ideal S64x64 .f32) (x14 : FVec Ideal S64 .f32) (x15 : FVec Ideal S64x6 .f32) (x16 : FVec Ideal S6 .f32)
    (h15 : W8 m ρ c (Proc.devRef .tc main_v15) = M1)
    (h3 : W8 m ρ c (Proc.devRef .tc main_v3) = edgeRow1 x1)
    (h1 : W8 m ρ c (Proc.devRef .tc main_v1) = edgeRow0 x1)
    (h10 : W8 m ρ c (Proc.devRef .tc main_v10) = degree x1)
    (e9 : W8 m ρ c (Proc.devRef .tc main_arg9) = x9) (e10 : W8 m ρ c (Proc.devRef .tc main_arg10) = x10)
    (e11 : W8 m ρ c (Proc.devRef .tc main_arg11) = x11) (e12 : W8 m ρ c (Proc.devRef .tc main_arg12) = x12)
    (e13 : W8 m ρ c (Proc.devRef .tc main_arg13) = x13) (e14 : W8 m ρ c (Proc.devRef .tc main_arg14) = x14)
    (e15 : W8 m ρ c (Proc.devRef .tc main_arg15) = x15) (e16 : W8 m ρ c (Proc.devRef .tc main_arg16) = x16)
    (hd : InRange (edgeRow1 x1)) (hs : InRange (edgeRow0 x1)) :
    W15 m ρ c (Proc.devRef .tc main_v35)
      = Cert.Spec.predG (layer (aggregate M1 x1) x1 x9 x10 x11 x12) x13 (biasRow x14) x15 (biasRow6 x16) := by
  -- after the first averaging stretch: the average, and the edge list's two rows still in place
  have a21 : W9 m ρ c (Proc.devRef .tc main_v21) = aggregate M1 x1 := avg1_value (W8 m ρ c) M1 x1 h15 h3 h10
  have a3 : W9 m ρ c (Proc.devRef .tc main_v3) = edgeRow1 x1 := (avg1_keep _ main_v3 (by decide)).trans h3
  have a1 : W9 m ρ c (Proc.devRef .tc main_v1) = edgeRow0 x1 := (avg1_keep _ main_v1 (by decide)).trans h1
  -- after the lookup at the receivers
  have b22 : W10 m ρ c (Proc.devRef .tc main_v22) = rows (aggregate M1 x1) (edgeRow1 x1) :=
    takeD_value (W9 m ρ c) _ _ a21 a3 hd
  have b21 : W10 m ρ c (Proc.devRef .tc main_v21) = aggregate M1 x1 := (takeD_keep _ main_v21 (by decide)).trans a21
  have b1 : W10 m ρ c (Proc.devRef .tc main_v1) = edgeRow0 x1 := (takeD_keep _ main_v1 (by decide)).trans a1
  -- after the lookup at the senders
  have c23 : W11 m ρ c (Proc.devRef .tc main_v23) = rows (aggregate M1 x1) (edgeRow0 x1) :=
    takeS_value (W10 m ρ c) _ _ b21 b1 hs
  have c22 : W11 m ρ c (Proc.devRef .tc main_v22) = rows (aggregate M1 x1) (edgeRow1 x1) :=
    (takeS_keep _ main_v22 (by decide)).trans b22
  have c10 : W11 m ρ c (Proc.devRef .tc main_arg10) = x10 :=
    (takeS_keep _ main_arg10 (by decide)).trans ((takeD_keep _ main_arg10 (by decide)).trans ((avg1_keep _ main_arg10 (by decide)).trans e10))
  have c12 : W11 m ρ c (Proc.devRef .tc main_arg12) = x12 :=
    (takeS_keep _ main_arg12 (by decide)).trans ((takeD_keep _ main_arg12 (by decide)).trans ((avg1_keep _ main_arg12 (by decide)).trans e12))
  -- the six arrays of the second message launch at its entry
  have d22 : W12 m ρ c (Proc.devRef .tc main_v22) = rows (aggregate M1 x1) (edgeRow1 x1) :=
    (bias2_keep _ main_v22 (by decide)).trans c22
  have d23 : W12 m ρ c (Proc.devRef .tc main_v23) = rows (aggregate M1 x1) (edgeRow0 x1) :=
    (bias2_keep _ main_v23 (by decide)).trans c23
  have d24 : W12 m ρ c (Proc.devRef .tc main_v24) = biasRow x10 := bias2_v24 (W11 m ρ c) x10 c10
  have d25 : W12 m ρ c (Proc.devRef .tc main_v25) = biasRow x12 := bias2_v25 (W11 m ρ c) x12 c12
  have d9 : W12 m ρ c (Proc.devRef .tc main_arg9) = x9 := (entry2_keep m ρ c main_arg9 (by decide) (by decide) (by decide) (by decide)).trans e9
  have d11 : W12 m ρ c (Proc.devRef .tc main_arg11) = x11 := (entry2_keep m ρ c main_arg11 (by decide) (by decide) (by decide) (by decide)).trans e11
  -- at its exit: round two's messages, and what the last stretch reads
  have g26 : W13 m ρ c (Proc.devRef .tc main_v26)
      = Cert.Spec.edgeG (rows (aggregate M1 x1) (edgeRow1 x1)) (rows (aggregate M1 x1) (edgeRow0 x1))
          x9 (biasRow x10) x11 (biasRow x12) := by
    rw [exit2_v26, d22, d23, d9, d24, d11, d25]
  have g3 : W13 m ρ c (Proc.devRef .tc main_v3) = edgeRow1 x1 := (exit2_keep m ρ c main_v3 (by decide) (by decide) (by decide) (by decide) (by decide)).trans h3
  have g10 : W13 m ρ c (Proc.devRef .tc main_v10) = degree x1 := (exit2_keep m ρ c main_v10 (by decide) (by decide) (by decide) (by decide) (by decide)).trans h10
  have g13 : W13 m ρ c (Proc.devRef .tc main_arg13) = x13 := (exit2_keep m ρ c main_arg13 (by decide) (by decide) (by decide) (by decide) (by decide)).trans e13
  have g14 : W13 m ρ c (Proc.devRef .tc main_arg14) = x14 := (exit2_keep m ρ c main_arg14 (by decide) (by decide) (by decide) (by decide) (by decide)).trans e14
  have g15 : W13 m ρ c (Proc.devRef .tc main_arg15) = x15 := (exit2_keep m ρ c main_arg15 (by decide) (by decide) (by decide) (by decide) (by decide)).trans e15
  have g16 : W13 m ρ c (Proc.devRef .tc main_arg16) = x16 := (exit2_keep m ρ c main_arg16 (by decide) (by decide) (by decide) (by decide) (by decide)).trans e16
  -- the five arrays of the scoring launch at its entry
  have k32 : W14 m ρ c (Proc.devRef .tc main_v32)
      = aggregate (Cert.Spec.edgeG (rows (aggregate M1 x1) (edgeRow1 x1)) (rows (aggregate M1 x1) (edgeRow0 x1))
          x9 (biasRow x10) x11 (biasRow x12)) x1 := avg2_value (W13 m ρ c) _ x1 g26 g3 g10
  have k33 : W14 m ρ c (Proc.devRef .tc main_v33) = biasRow x14 := avg2_v33 (W13 m ρ c) x14 g14
  have k34 : W14 m ρ c (Proc.devRef .tc main_v34) = biasRow6 x16 := avg2_v34 (W13 m ρ c) x16 g16
  have k13 : W14 m ρ c (Proc.devRef .tc main_arg13) = x13 := (avg2_keep _ main_arg13 (by decide)).trans g13
  have k15 : W14 m ρ c (Proc.devRef .tc main_arg15) = x15 := (avg2_keep _ main_arg15 (by decide)).trans g15
  -- the scoring launch's exit
  rw [exit3_v35, k32, k13, k33, k15, k34]
  rfl

end Cert.KernelIdeal.HostValue

end
-- ==== Proof.KHost.lean ====
/- The kernel program's result array at the run's last boundary is the network on the launch contents. -/
import proofs.«427380_j33938831573442_1_alg».proof.Proof.Gen.KernelIdeal.Frame
import proofs.«427380_j33938831573442_1_alg».proof.Proof.Net
import proofs.«427380_j33938831573442_1_alg».proof.Proof.KHostA
import proofs.«427380_j33938831573442_1_alg».proof.Proof.KHostB
import Idealize.ShloMosaic.Lib.StableHlo.Run
import Idealize.ShloMosaic.Lib.Pipeline.Value

set_option maxRecDepth 16384

noncomputable section

namespace Cert.KernelIdeal.HostValue

open Idealize.ShloMosaic Idealize.ShloMosaic.TcCoe Idealize.SL.Sem
open Cert.KernelIdeal Cert.KernelIdeal.Gen Cert.KernelIdeal.Net

variable (m : (ℓ : Loc nD τ sig) → Buf (Elt Ideal) ℓ) (ρ : Dev nD → PrngReg)

/-- Round one's messages and the carried buffers at `Gen.W8`, then the rest of the program over them. -/
theorem kernel_value (c : Dev nD) (hd : InRange (edgeRow1 (in1 m c))) (hs : InRange (edgeRow0 (in1 m c))) :
    W15 m ρ c (Proc.devRef .tc main_v35) = netOf m c :=
  (tail_value m ρ c _ (in1 m c) (in9 m c) (in10 m c) (in11 m c) (in12 m c) (in13 m c) (in14 m c) (in15 m c) (in16 m c)
    (head_v15 m ρ c hd hs) (head_v3 m ρ c) (head_v1 m ρ c) (head_v10 m ρ c)
    (head_arg9 m ρ c) (head_arg10 m ρ c) (head_arg11 m ρ c) (head_arg12 m ρ c)
    (head_arg13 m ρ c) (head_arg14 m ρ c) (head_arg15 m ρ c) (head_arg16 m ρ c) hd hs).trans rfl

end Cert.KernelIdeal.HostValue

end
-- ==== Proof.PreRange.lean ====
/- The precondition's two last conjuncts, decoded: every entry of the edge list is a node number. -/
import proofs.«427380_j33938831573442_1_alg».proof.Defs
import proofs.«427380_j33938831573442_1_alg».proof.Proof.Gen.Pre_finite_inputs
import proofs.«427380_j33938831573442_1_alg».proof.Proof.Net
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.Net

open Idealize.ShloMosaic Idealize.SL.Sem Cert.KernelIdeal Cert.KernelIdeal.Gen

/-- The scalar shape has one index. -/
instance : Subsingleton Cert.Pre_finite_inputs.S_.Idx := ⟨fun a b => funext fun d => d.elim0⟩

/-- A word not below zero and below 60000, both read signed, is a node number. -/
theorem word_range (w : BitVec 32) (h0 : IntOp.cmpi .sge w 0#32 = 1#1) (h1 : IntOp.cmpi .slt w 60000#32 = 1#1) :
    0 ≤ w.toInt ∧ w.toInt < 60000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (60000#32 : BitVec 32).toInt = 60000 := by decide
  rw [e0] at h0
  rw [e1] at h1
  exact ⟨h0, h1⟩

/-- The last part of the printed predicate, whatever words the earlier parts hand it: if it comes out one, every
    entry of the edge list passed both tests. -/
theorem entry_range (a1 : IVec Cert.Pre_finite_inputs.S2x960000 32) (a16 : FVec Ideal Cert.Pre_finite_inputs.S6 .f32)
    (v63 v67 : IVec Cert.Pre_finite_inputs.S_ 1)
    (h : Cert.Pre_finite_inputs.fn_part4 (F := Ideal) a1 a16 v63 v67 = fun _ => 1#1)
    (i : Cert.Pre_finite_inputs.S2x960000.Idx) : 0 ≤ (a1 i).toInt ∧ (a1 i).toInt < 60000 := by
  have e := congrFun h ValueIdx.ix0
  unfold Cert.Pre_finite_inputs.fn_part4 at e
  dsimp only at e
  simp only [andi, IntOp.andi_eq_one] at e
  obtain ⟨⟨_, h76⟩, h80⟩ := e
  have g0 := Host.reduce_andi_all _ _ _ _ _ h76 i
  have g1 := Host.reduce_andi_all _ _ _ _ _ h80 i
  simp only [cmpi, broadcastInDim, constantI] at g0 g1
  exact word_range _ g0 g1

/-- The same of the whole predicate: it ends in that part. -/
theorem pre_entry_range (m : (ℓ : Loc nD τ sig) → Buf (Elt Ideal) ℓ) (hpre : Cert.Pre_KernelIdeal m) (c : Dev nD)
    (i : S2x960000.Idx) :
    0 ≤ (in1 m c i).toInt ∧ (in1 m c i).toInt < 60000 := by
  have h := hpre c
  unfold Cert.Pre_finite_inputs.fn Cert.Pre_finite_inputs.fn_part1 Cert.Pre_finite_inputs.fn_part2
    Cert.Pre_finite_inputs.fn_part3 at h
  dsimp only at h
  exact entry_range _ _ _ _ h i

/-- Under the precondition the receivers (row 1 of the edge list) are node numbers. -/
theorem dst_inRange (m : (ℓ : Loc nD τ sig) → Buf (Elt Ideal) ℓ) (hpre : Cert.Pre_KernelIdeal m) (c : Dev nD) :
    InRange (edgeRow1 (m ((c.tc : Thread nD τ).loc main_arg1))) :=
  fun e => pre_entry_range m hpre c _

/-- Under the precondition the senders (row 0 of the edge list) are node numbers. -/
theorem src_inRange (m : (ℓ : Loc nD τ sig) → Buf (Elt Ideal) ℓ) (hpre : Cert.Pre_KernelIdeal m) (c : Dev nD) :
    InRange (edgeRow0 (m ((c.tc : Thread nD τ).loc main_arg1))) :=
  fun e => pre_entry_range m hpre c _

end Cert.KernelIdeal.Net

end
-- ==== Proof.RefStages.lean ====
/- The reference program's four dense stages, each read entry by entry: it is the row-wise map of `Cert.Spec`. -/
import proofs.«427380_j33938831573442_1_alg».proof.Defs
import proofs.«427380_j33938831573442_1_alg».proof.Proof.Gen.ReferenceIdeal.Read
import proofs.«427380_j33938831573442_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stage

open Idealize.ShloMosaic Idealize.ShloMosaic.TcCoe Idealize.ShloMosaic.ValueIdx Idealize.SL.Sem
open Cert.ReferenceIdeal Cert.ReferenceIdeal.Gen Cert.ReferenceIdeal.Read

/-- The encoder: `relu (x0 · x3 + x4)`, the bias as a one-row matrix. -/
theorem ref_enc (x0 : (⟨S60000x16, .f32⟩ : BufTy).Contents (Elt Ideal)) (x3 : (⟨S16x64, .f32⟩ : BufTy).Contents (Elt Ideal)) (x4 : (⟨S64, .f32⟩ : BufTy).Contents (Elt Ideal)) (h : S64.ShapeCasts S1x64) :
    val_main_v8 (F := Ideal) x0 x3 x4 = Cert.Spec.encG x0 x3 (shapeCast S1x64 x4 h) := by
  funext i
  have el : ∀ k : Fin 16, lidx_main_v4 i k = ix2 (Cert.Spec.rowIx i) k := fun k =>
    funext fun a => Fin.ext (by match a with | ⟨0, _⟩ => rfl | ⟨1, _⟩ => rfl)
  have er : ∀ k : Fin 16, ridx_main_v4 i k = ix2 k (Cert.Spec.colIx i) := fun k =>
    funext fun a => Fin.ext (by match a with | ⟨0, _⟩ => rfl | ⟨1, _⟩ => rfl)
  have eb : idx_main_v5 (idx_main_v6 i) = ix1 (Cert.Spec.colIx i) :=
    funext fun a => Fin.ext (by match a with | ⟨0, _⟩ => rfl)
  rw [val_main_v8_apply, val_main_v7_apply, val_main_v4_apply, val_main_v6_apply, val_main_v5_apply,
    val_main_call0_v0_apply, val_main_call0_cst_apply]
  simp only [el, er, eb, Ideal.addf_def, Ideal.maximumf_def, Ideal.ofBits_def, Ideal.ofBits_zero_f32]
  unfold Cert.Spec.encG Cert.Spec.reluAffineAt Cert.Spec.affineAt
  rw [shapeCast_a_1a_apply]

/-- The joined row at a column: the receiver's feature below column 64, sender minus receiver from column 64 on. -/
theorem cat_read (xd xs : (⟨S960000x64, .f32⟩ : BufTy).Contents (Elt Ideal))
    (h : Shape.Concatenates [S960000x64, S960000x64] S960000x128 1) (e : Fin 960000) (k : Fin 128) :
    concatenate S960000x128 1 [⟨S960000x64, xd⟩, ⟨S960000x64, subf (F := Ideal) (φ := .f32) xs xd⟩] h (ix2 e k)
      = Cert.Spec.catRow xd xs e k := by
  unfold Cert.Spec.catRow
  by_cases hk : k.val < 64
  · rw [dif_pos hk]
    exact concatenate_pair_apply_left 1 xd _ h (ix2 e k) rfl (ix2 e ⟨k.val, hk⟩)
      (fun b => by match b with | ⟨0, _⟩ => rfl | ⟨1, _⟩ => rfl)
  · rw [dif_neg hk]
    exact concatenate_pair_apply_right 1 xd (subf (F := Ideal) (φ := .f32) xs xd) h (ix2 e k) rfl rfl
      (ix2 e ⟨k.val - 64, by have := k.isLt; omega⟩)
      (fun b hb => by match b with | ⟨0, _⟩ => rfl | ⟨1, _⟩ => exact absurd rfl hb)
      (by show (k.val - 64) + 64 = k.val; omega)

/-- The first round's joined array at row `e`, column `k`, is the joined row of the gathered receiver and sender rows. -/
theorem cat1 (x0 : (⟨S60000x16, .f32⟩ : BufTy).Contents (Elt Ideal)) (x1 : (⟨S2x960000, .i32⟩ : BufTy).Contents (Elt Ideal)) (x3 : (⟨S16x64, .f32⟩ : BufTy).Contents (Elt Ideal)) (x4 : (⟨S64, .f32⟩ : BufTy).Contents (Elt Ideal)) (e : Fin 960000) (k : Fin 128) :
    val_main_v29 (F := Ideal) x0 x1 x3 x4 (ix2 e k)
      = Cert.Spec.catRow (val_main_v20 (F := Ideal) x0 x1 x3 x4) (val_main_v27 (F := Ideal) x0 x1 x3 x4) e k := by
  unfold val_main_v29 val_main_v28
  exact cat_read _ _ _ e k

/-- The first round's hidden layer at an entry: `relu` of the affine image, by `x5` and `x6`, of that edge's joined row. -/
theorem edge1_hidden (x0 : (⟨S60000x16, .f32⟩ : BufTy).Contents (Elt Ideal)) (x1 : (⟨S2x960000, .i32⟩ : BufTy).Contents (Elt Ideal)) (x3 : (⟨S16x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (h6 : S64.ShapeCasts S1x64) (j : S960000x64.Idx) :
    val_main_v34 (F := Ideal) x0 x1 x3 x4 x5 x6 j
      = Cert.Spec.reluAffineAt
          (Cert.Spec.catRow (val_main_v20 (F := Ideal) x0 x1 x3 x4) (val_main_v27 (F := Ideal) x0 x1 x3 x4) (Cert.Spec.rowIx j))
          x5 (shapeCast S1x64 x6 h6) (Cert.Spec.colIx j) := by
  have el : ∀ k : Fin 128, lidx_main_v30 j k = ix2 (Cert.Spec.rowIx j) k := fun k =>
    funext fun a => Fin.ext (by match a with | ⟨0, _⟩ => rfl | ⟨1, _⟩ => rfl)
  have er : ∀ k : Fin 128, ridx_main_v30 j k = ix2 k (Cert.Spec.colIx j) := fun k =>
    funext fun a => Fin.ext (by match a with | ⟨0, _⟩ => rfl | ⟨1, _⟩ => rfl)
  have eb : idx_main_v31 (idx_main_v32 j) = ix1 (Cert.Spec.colIx j) :=
    funext fun a => Fin.ext (by match a with | ⟨0, _⟩ => rfl)
  rw [val_main_v34_apply, val_main_v33_apply, val_main_v30_apply, val_main_v32_apply, val_main_v31_apply,
    val_main_call2_v0_apply, val_main_call2_cst_apply]
  simp only [el, er, eb, cat1, Ideal.addf_def, Ideal.maximumf_def, Ideal.ofBits_def, Ideal.ofBits_zero_f32]
  unfold Cert.Spec.reluAffineAt Cert.Spec.affineAt
  rw [shapeCast_a_1a_apply]

/-- The first round's messages, over the gathered receiver rows (`val_main_v20`) and sender rows (`val_main_v27`). -/
theorem ref_edge1 (x0 : (⟨S60000x16, .f32⟩ : BufTy).Contents (Elt Ideal)) (x1 : (⟨S2x960000, .i32⟩ : BufTy).Contents (Elt Ideal)) (x3 : (⟨S16x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (h6 h8 : S64.ShapeCasts S1x64) :
    val_main_v39 (F := Ideal) x0 x1 x3 x4 x5 x6 x7 x8
      = Cert.Spec.edgeG (val_main_v20 (F := Ideal) x0 x1 x3 x4) (val_main_v27 (F := Ideal) x0 x1 x3 x4)
          x5 (shapeCast S1x64 x6 h6) x7 (shapeCast S1x64 x8 h8) := by
  funext i
  have er : ∀ q : Fin 64, ridx_main_v35 i q = ix2 q (Cert.Spec.colIx i) := fun q =>
    funext fun a => Fin.ext (by match a with | ⟨0, _⟩ => rfl | ⟨1, _⟩ => rfl)
  have eb : idx_main_v36 (idx_main_v37 i) = ix1 (Cert.Spec.colIx i) :=
    funext fun a => Fin.ext (by match a with | ⟨0, _⟩ => rfl)
  rw [val_main_v39_apply, val_main_v38_apply, val_main_v35_apply, val_main_v37_apply, val_main_v36_apply,
    val_main_call3_v0_apply, val_main_call3_cst_apply, Ideal.maximumf_def, Ideal.addf_def, Ideal.ofBits_def,
    Ideal.ofBits_zero_f32, eb]
  unfold Cert.Spec.edgeG
  rw [Cert.Spec.reluAffineAt, Cert.Spec.affineAt, shapeCast_a_1a_apply]
  refine congrArg (fun s => max (s + x8 (ix1 (Cert.Spec.colIx i))) 0) (Finset.sum_congr rfl fun q _ => ?_)
  have e0 : Cert.Spec.rowIx (lidx_main_v35 i q) = Cert.Spec.rowIx i := rfl
  have e1 : Cert.Spec.colIx (lidx_main_v35 i q) = q := rfl
  rw [edge1_hidden x0 x1 x3 x4 x5 x6 h6, e0, e1, er q]

/-- The second round's joined array at row `e`, column `k`, is the joined row of the gathered receiver and sender rows. -/
theorem cat2 (x0 : (⟨S60000x16, .f32⟩ : BufTy).Contents (Elt Ideal)) (x1 : (⟨S2x960000, .i32⟩ : BufTy).Contents (Elt Ideal)) (x3 : (⟨S16x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (e : Fin 960000) (k : Fin 128) :
    val_main_v61 (F := Ideal) x0 x1 x3 x4 x5 x6 x7 x8 (ix2 e k)
      = Cert.Spec.catRow (val_main_v52 (F := Ideal) x0 x1 x3 x4 x5 x6 x7 x8) (val_main_v59 (F := Ideal) x0 x1 x3 x4 x5 x6 x7 x8) e k := by
  unfold val_main_v61 val_main_v60
  exact cat_read _ _ _ e k

/-- The second round's hidden layer at an entry: `relu` of the affine image, by `x9` and `x10`, of that edge's joined row. -/
theorem edge2_hidden (x0 : (⟨S60000x16, .f32⟩ : BufTy).Contents (Elt Ideal)) (x1 : (⟨S2x960000, .i32⟩ : BufTy).Contents (Elt Ideal)) (x3 : (⟨S16x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (h10 : S64.ShapeCasts S1x64) (j : S960000x64.Idx) :
    val_main_v66 (F := Ideal) x0 x1 x3 x4 x5 x6 x7 x8 x9 x10 j
      = Cert.Spec.reluAffineAt
          (Cert.Spec.catRow (val_main_v52 (F := Ideal) x0 x1 x3 x4 x5 x6 x7 x8) (val_main_v59 (F := Ideal) x0 x1 x3 x4 x5 x6 x7 x8) (Cert.Spec.rowIx j))
          x9 (shapeCast S1x64 x10 h10) (Cert.Spec.colIx j) := by
  have el : ∀ k : Fin 128, lidx_main_v62 j k = ix2 (Cert.Spec.rowIx j) k := fun k =>
    funext fun a => Fin.ext (by match a with | ⟨0, _⟩ => rfl | ⟨1, _⟩ => rfl)
  have er : ∀ k : Fin 128, ridx_main_v62 j k = ix2 k (Cert.Spec.colIx j) := fun k =>
    funext fun a => Fin.ext (by match a with | ⟨0, _⟩ => rfl | ⟨1, _⟩ => rfl)
  have eb : idx_main_v63 (idx_main_v64 j) = ix1 (Cert.Spec.colIx j) :=
    funext fun a => Fin.ext (by match a with | ⟨0, _⟩ => rfl)
  rw [val_main_v66_apply, val_main_v65_apply, val_main_v62_apply, val_main_v64_apply, val_main_v63_apply,
    val_main_call4_v0_apply, val_main_call4_cst_apply]
  simp only [el, er, eb, cat2, Ideal.addf_def, Ideal.maximumf_def, Ideal.ofBits_def, Ideal.ofBits_zero_f32]
  unfold Cert.Spec.reluAffineAt Cert.Spec.affineAt
  rw [shapeCast_a_1a_apply]

/-- The second round's messages, over the gathered receiver rows (`val_main_v52`) and sender rows (`val_main_v59`). -/
theorem ref_edge2 (x0 : (⟨S60000x16, .f32⟩ : BufTy).Contents (Elt Ideal)) (x1 : (⟨S2x960000, .i32⟩ : BufTy).Contents (Elt Ideal)) (x3 : (⟨S16x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (h10 h12 : S64.ShapeCasts S1x64) :
    val_main_v71 (F := Ideal) x0 x1 x3 x4 x5 x6 x7 x8 x9 x10 x11 x12
      = Cert.Spec.edgeG (val_main_v52 (F := Ideal) x0 x1 x3 x4 x5 x6 x7 x8) (val_main_v59 (F := Ideal) x0 x1 x3 x4 x5 x6 x7 x8)
          x9 (shapeCast S1x64 x10 h10) x11 (shapeCast S1x64 x12 h12) := by
  funext i
  have er : ∀ q : Fin 64, ridx_main_v67 i q = ix2 q (Cert.Spec.colIx i) := fun q =>
    funext fun a => Fin.ext (by match a with | ⟨0, _⟩ => rfl | ⟨1, _⟩ => rfl)
  have eb : idx_main_v68 (idx_main_v69 i) = ix1 (Cert.Spec.colIx i) :=
    funext fun a => Fin.ext (by match a with | ⟨0, _⟩ => rfl)
  rw [val_main_v71_apply, val_main_v70_apply, val_main_v67_apply, val_main_v69_apply, val_main_v68_apply,
    val_main_call5_v0_apply, val_main_call5_cst_apply, Ideal.maximumf_def, Ideal.addf_def, Ideal.ofBits_def,
    Ideal.ofBits_zero_f32, eb]
  unfold Cert.Spec.edgeG
  rw [Cert.Spec.reluAffineAt, Cert.Spec.affineAt, shapeCast_a_1a_apply]
  refine congrArg (fun s => max (s + x12 (ix1 (Cert.Spec.colIx i))) 0) (Finset.sum_congr rfl fun q _ => ?_)
  have e0 : Cert.Spec.rowIx (lidx_main_v67 i q) = Cert.Spec.rowIx i := rfl
  have e1 : Cert.Spec.colIx (lidx_main_v67 i q) = q := rfl
  rw [edge2_hidden x0 x1 x3 x4 x5 x6 x7 x8 x9 x10 h10, e0, e1, er q]

/-- The scores' hidden layer at an entry: `relu` of the affine image, by `x13` and `x14`, of that node's row of features. -/
theorem pred_hidden (x0 : (⟨S60000x16, .f32⟩ : BufTy).Contents (Elt Ideal)) (x1 : (⟨S2x960000, .i32⟩ : BufTy).Contents (Elt Ideal)) (x3 : (⟨S16x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (h14 : S64.ShapeCasts S1x64) (j : S60000x64.Idx) :
    val_main_v82 (F := Ideal) x0 x1 x3 x4 x5 x6 x7 x8 x9 x10 x11 x12 x13 x14 j
      = Cert.Spec.reluAffineAt (fun k => val_main_v77 (F := Ideal) x0 x1 x3 x4 x5 x6 x7 x8 x9 x10 x11 x12 (ix2 (Cert.Spec.rowIx j) k))
          x13 (shapeCast S1x64 x14 h14) (Cert.Spec.colIx j) := by
  have el : ∀ k : Fin 64, lidx_main_v78 j k = ix2 (Cert.Spec.rowIx j) k := fun k =>
    funext fun a => Fin.ext (by match a with | ⟨0, _⟩ => rfl | ⟨1, _⟩ => rfl)
  have er : ∀ k : Fin 64, ridx_main_v78 j k = ix2 k (Cert.Spec.colIx j) := fun k =>
    funext fun a => Fin.ext (by match a with | ⟨0, _⟩ => rfl | ⟨1, _⟩ => rfl)
  have eb : idx_main_v79 (idx_main_v80 j) = ix1 (Cert.Spec.colIx j) :=
    funext fun a => Fin.ext (by match a with | ⟨0, _⟩ => rfl)
  rw [val_main_v82_apply, val_main_v81_apply, val_main_v78_apply, val_main_v80_apply, val_main_v79_apply,
    val_main_call6_v0_apply, val_main_call6_cst_apply]
  simp only [el, er, eb, Ideal.addf_def, Ideal.maximumf_def, Ideal.ofBits_def, Ideal.ofBits_zero_f32]
  unfold Cert.Spec.reluAffineAt Cert.Spec.affineAt
  rw [shapeCast_a_1a_apply]

/-- The class scores, over the node features after the second round (`val_main_v77`). -/
theorem ref_pred (x0 : (⟨S60000x16, .f32⟩ : BufTy).Contents (Elt Ideal)) (x1 : (⟨S2x960000, .i32⟩ : BufTy).Contents (Elt Ideal)) (x3 : (⟨S16x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x6, .f32⟩ : BufTy).Contents (Elt Ideal)) (x16 : (⟨S6, .f32⟩ : BufTy).Contents (Elt Ideal)) (h14 : S64.ShapeCasts S1x64) (h16 : S6.ShapeCasts S1x6) :
    val_main_v86 (F := Ideal) x0 x1 x3 x4 x5 x6 x7 x8 x9 x10 x11 x12 x13 x14 x15 x16
      = Cert.Spec.predG (val_main_v77 (F := Ideal) x0 x1 x3 x4 x5 x6 x7 x8 x9 x10 x11 x12) x13 (shapeCast S1x64 x14 h14) x15 (shapeCast S1x6 x16 h16) := by
  funext i
  have er : ∀ q : Fin 64, ridx_main_v83 i q = ix2 q (Cert.Spec.colIx i) := fun q =>
    funext fun a => Fin.ext (by match a with | ⟨0, _⟩ => rfl | ⟨1, _⟩ => rfl)
  have eb : idx_main_v84 (idx_main_v85 i) = ix1 (Cert.Spec.colIx i) :=
    funext fun a => Fin.ext (by match a with | ⟨0, _⟩ => rfl)
  rw [val_main_v86_apply, val_main_v83_apply, val_main_v85_apply, val_main_v84_apply, Ideal.addf_def, eb]
  unfold Cert.Spec.predG
  rw [Cert.Spec.affineAt, shapeCast_a_1a_apply]
  refine congrArg (fun s => s + x16 (ix1 (Cert.Spec.colIx i))) (Finset.sum_congr rfl fun q _ => ?_)
  have e0 : Cert.Spec.rowIx (lidx_main_v83 i q) = Cert.Spec.rowIx i := rfl
  have e1 : Cert.Spec.colIx (lidx_main_v83 i q) = q := rfl
  rw [pred_hidden x0 x1 x3 x4 x5 x6 x7 x8 x9 x10 x11 x12 x13 x14 h14, e0, e1, er q]

end Cert.ReferenceIdeal.Stage

end
-- ==== Proof.RefNet.lean ====
/-
  The reference program's last stage is the network of `Cert.KernelIdeal.Net`: its dense stages are the row-wise maps
  (`Cert.ReferenceIdeal.Stage`), and what lies between them — the edge list's two rows, the degrees, the index
  columns of the four row lookups, the two averages — is operation for operation what `Net` writes.
-/
import proofs.«427380_j33938831573442_1_alg».proof.Proof.RefStages
import proofs.«427380_j33938831573442_1_alg».proof.Proof.Net

noncomputable section

namespace Cert.ReferenceIdeal.RefNet

open Idealize.ShloMosaic Idealize.ShloMosaic.TcCoe Idealize.SL.Sem
open Cert.ReferenceIdeal Cert.ReferenceIdeal.Gen Cert.ReferenceIdeal.Read

/-- The receivers. -/
theorem row1_eq (x1 : (⟨S2x960000, .i32⟩ : BufTy).Contents (Elt Ideal)) : val_main_v3 (F := Ideal) x1 = Cert.KernelIdeal.Net.edgeRow1 x1 := by
  unfold val_main_v3 val_main_v2; rfl

/-- The senders. -/
theorem row0_eq (x1 : (⟨S2x960000, .i32⟩ : BufTy).Contents (Elt Ideal)) : val_main_v1 (F := Ideal) x1 = Cert.KernelIdeal.Net.edgeRow0 x1 := by
  unfold val_main_v1 val_main_v0; rfl

/-- The degrees: ones scattered to the receivers, held at one or more. -/
theorem deg_eq (x1 : (⟨S2x960000, .i32⟩ : BufTy).Contents (Elt Ideal)) : val_main_v13 (F := Ideal) x1 = Cert.KernelIdeal.Net.degree x1 := by
  unfold val_main_v13 val_main_call1_v1 val_main_call1_v0 val_main_cst_1 val_main_v12 val_main_v10 val_main_cst_0
    val_main_v11 val_main_v9 val_main_cst
  rw [row1_eq]; rfl

/-- The index column of round one's lookup at the receivers. -/
theorem idx_v19 (x1 : (⟨S2x960000, .i32⟩ : BufTy).Contents (Elt Ideal)) : val_main_v19 (F := Ideal) x1 = Cert.KernelIdeal.Net.takeIdx (Cert.KernelIdeal.Net.edgeRow1 x1) := by
  unfold val_main_v19 val_main_v18 val_main_v15 val_main_v17 val_main_v14 val_main_v16 val_main_c val_main_c_2
  rw [row1_eq]; rfl

/-- … at the senders. -/
theorem idx_v26 (x1 : (⟨S2x960000, .i32⟩ : BufTy).Contents (Elt Ideal)) : val_main_v26 (F := Ideal) x1 = Cert.KernelIdeal.Net.takeIdx (Cert.KernelIdeal.Net.edgeRow0 x1) := by
  unfold val_main_v26 val_main_v25 val_main_v22 val_main_v24 val_main_v21 val_main_v23 val_main_c_3 val_main_c_4
  rw [row0_eq]; rfl

/-- The index column of round two's lookup at the receivers. -/
theorem idx_v51 (x1 : (⟨S2x960000, .i32⟩ : BufTy).Contents (Elt Ideal)) : val_main_v51 (F := Ideal) x1 = Cert.KernelIdeal.Net.takeIdx (Cert.KernelIdeal.Net.edgeRow1 x1) := by
  unfold val_main_v51 val_main_v50 val_main_v47 val_main_v49 val_main_v46 val_main_v48 val_main_c_6 val_main_c_7
  rw [row1_eq]; rfl

/-- … at the senders. -/
theorem idx_v58 (x1 : (⟨S2x960000, .i32⟩ : BufTy).Contents (Elt Ideal)) : val_main_v58 (F := Ideal) x1 = Cert.KernelIdeal.Net.takeIdx (Cert.KernelIdeal.Net.edgeRow0 x1) := by
  unfold val_main_v58 val_main_v57 val_main_v54 val_main_v56 val_main_v53 val_main_v55 val_main_c_8 val_main_c_9
  rw [row0_eq]; rfl

/-- Round one's average: the messages summed at their receivers, over the degrees. -/
theorem agg_v45 (x0 : (⟨S60000x16, .f32⟩ : BufTy).Contents (Elt Ideal)) (x1 : (⟨S2x960000, .i32⟩ : BufTy).Contents (Elt Ideal)) (x3 : (⟨S16x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v45 (F := Ideal) x0 x1 x3 x4 x5 x6 x7 x8
      = Cert.KernelIdeal.Net.aggregate (val_main_v39 (F := Ideal) x0 x1 x3 x4 x5 x6 x7 x8) x1 := by
  unfold val_main_v45 val_main_v42 val_main_v44 val_main_v43 val_main_v40 val_main_v41 val_main_cst_5
  rw [deg_eq, row1_eq]; rfl

/-- Round two's average. -/
theorem agg_v77 (x0 : (⟨S60000x16, .f32⟩ : BufTy).Contents (Elt Ideal)) (x1 : (⟨S2x960000, .i32⟩ : BufTy).Contents (Elt Ideal)) (x3 : (⟨S16x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) :
    val_main_v77 (F := Ideal) x0 x1 x3 x4 x5 x6 x7 x8 x9 x10 x11 x12
      = Cert.KernelIdeal.Net.aggregate (val_main_v71 (F := Ideal) x0 x1 x3 x4 x5 x6 x7 x8 x9 x10 x11 x12) x1 := by
  unfold val_main_v77 val_main_v74 val_main_v76 val_main_v75 val_main_v72 val_main_v73 val_main_cst_10
  rw [deg_eq, row1_eq]; rfl

/-- The reference's result is the network on its inputs. -/
theorem ref_value (x0 : (⟨S60000x16, .f32⟩ : BufTy).Contents (Elt Ideal)) (x1 : (⟨S2x960000, .i32⟩ : BufTy).Contents (Elt Ideal)) (x3 : (⟨S16x64, .f32⟩ : BufTy).Contents (Elt Ideal)) (x4 : (⟨S64, .f32⟩ : BufTy).Contents (Elt Ideal)) (x5 : (⟨S128x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S128x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64, .f32⟩ : BufTy).Contents (Elt Ideal)) (x15 : (⟨S64x6, .f32⟩ : BufTy).Contents (Elt Ideal)) (x16 : (⟨S6, .f32⟩ : BufTy).Contents (Elt Ideal)) :
    val_main_v86 (F := Ideal) x0 x1 x3 x4 x5 x6 x7 x8 x9 x10 x11 x12 x13 x14 x15 x16 = Cert.KernelIdeal.Net.net x0 x1 x3 x4 x5 x6 x7 x8 x9 x10 x11 x12 x13 x14 x15 x16 := by
  have e20 : val_main_v20 (F := Ideal) x0 x1 x3 x4
      = Cert.KernelIdeal.Net.rows (val_main_v8 (F := Ideal) x0 x3 x4) (Cert.KernelIdeal.Net.edgeRow1 x1) := by
    unfold val_main_v20; rw [idx_v19]; rfl
  have e27 : val_main_v27 (F := Ideal) x0 x1 x3 x4
      = Cert.KernelIdeal.Net.rows (val_main_v8 (F := Ideal) x0 x3 x4) (Cert.KernelIdeal.Net.edgeRow0 x1) := by
    unfold val_main_v27; rw [idx_v26]; rfl
  have e52 : val_main_v52 (F := Ideal) x0 x1 x3 x4 x5 x6 x7 x8
      = Cert.KernelIdeal.Net.rows (val_main_v45 (F := Ideal) x0 x1 x3 x4 x5 x6 x7 x8) (Cert.KernelIdeal.Net.edgeRow1 x1) := by
    unfold val_main_v52; rw [idx_v51]; rfl
  have e59 : val_main_v59 (F := Ideal) x0 x1 x3 x4 x5 x6 x7 x8
      = Cert.KernelIdeal.Net.rows (val_main_v45 (F := Ideal) x0 x1 x3 x4 x5 x6 x7 x8) (Cert.KernelIdeal.Net.edgeRow0 x1) := by
    unfold val_main_v59; rw [idx_v58]; rfl
  rw [Stage.ref_pred x0 x1 x3 x4 x5 x6 x7 x8 x9 x10 x11 x12 x13 x14 x15 x16 Cert.KernelIdeal.Gen.shapeCasts_S64_S1x64 Cert.KernelIdeal.Gen.shapeCasts_S6_S1x6,
    agg_v77,
    Stage.ref_edge2 x0 x1 x3 x4 x5 x6 x7 x8 x9 x10 x11 x12 Cert.KernelIdeal.Gen.shapeCasts_S64_S1x64 Cert.KernelIdeal.Gen.shapeCasts_S64_S1x64,
    e52, e59, agg_v45,
    Stage.ref_edge1 x0 x1 x3 x4 x5 x6 x7 x8 Cert.KernelIdeal.Gen.shapeCasts_S64_S1x64 Cert.KernelIdeal.Gen.shapeCasts_S64_S1x64,
    e20, e27, Stage.ref_enc x0 x3 x4 Cert.KernelIdeal.Gen.shapeCasts_S64_S1x64]
  rfl

end Cert.ReferenceIdeal.RefNet

end
-- ==== Proof.lean ====
/-
  The proof of `Cert.Claim`. Both programs are the same network (`Cert.KernelIdeal.Net.net`: an encoder, two rounds of
  message passing with mean aggregation, a scoring head) on the extended reals: rounding to bf16 is the identity there,
  and the launches' matrix products and the reference's are the same finite sums in the same order. The kernel program
  differs from the reference in one place, its row lookups write a fill value over rows whose node number is out of
  range, and the precondition's two last conjuncts say every node number of the edge list is in range, so nothing is
  filled. The three frames are the generated ones (the reference's its generated run with the result dropped); nothing
  was idealized, so the sanctioned-idealization conjunct is `True`.
-/
import proofs.«427380_j33938831573442_1_alg».proof.Defs
import proofs.«427380_j33938831573442_1_alg».proof.Proof.Gen.Kernel
import proofs.«427380_j33938831573442_1_alg».proof.Proof.Gen.Kernel.Frame
import proofs.«427380_j33938831573442_1_alg».proof.Proof.Gen.KernelIdeal
import proofs.«427380_j33938831573442_1_alg».proof.Proof.Gen.KernelIdeal.Frame
import proofs.«427380_j33938831573442_1_alg».proof.Proof.Gen.ReferenceIdeal
import proofs.«427380_j33938831573442_1_alg».proof.Proof.Gen.ReferenceIdeal.Run
import proofs.«427380_j33938831573442_1_alg».proof.Proof.Gen.ReferenceIdeal.Read
import proofs.«427380_j33938831573442_1_alg».proof.Proof.Gen.Pre_finite_inputs
import proofs.«427380_j33938831573442_1_alg».proof.Proof.KRun
import proofs.«427380_j33938831573442_1_alg».proof.Proof.KHost
import proofs.«427380_j33938831573442_1_alg».proof.Proof.PreRange
import proofs.«427380_j33938831573442_1_alg».proof.Proof.RefNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the network on the kernel program's inputs: the kernel program's by its
    run and its boundary contents (under the node numbers' range), the reference's by its run, read stage by stage,
    at inputs that agree with the kernel program's. -/
theorem algebraic : Cert.algebraic_KernelIdeal_ReferenceIdeal := by
  intro m ρ m' ρ' hpre hagree
  refine ⟨fun c => Cert.KernelIdeal.Net.netOf m c, ?_, ?_⟩
  · refine (θ_run Cert.KernelIdeal.defs _ _).mono (fun _ h c => ⟨(h c).1.trans ?_, (h c).2⟩)
      (Cert.KernelIdeal.Run.run_value (F := Ideal) m ρ)
    exact Cert.KernelIdeal.HostValue.kernel_value m ρ c (Cert.KernelIdeal.Net.dst_inRange m hpre c)
      (Cert.KernelIdeal.Net.src_inRange m hpre c)
  · refine (θ_run Cert.ReferenceIdeal.defs _ _).mono (fun _ h c => ⟨(h c).1.trans ?_, (h c).2⟩)
      (Cert.ReferenceIdeal.Value.run (F := Ideal) m' ρ')
    obtain ⟨h0, h1, _, h3, h4, h5, h6, h7, h8, h9, h10, h11, h12, h13, h14, h15, h16⟩ := hagree c
    rw [Cert.ReferenceIdeal.Read.val_main_v86_eq, Cert.ReferenceIdeal.RefNet.ref_value,
      h0, h1, h3, h4, h5, h6, h7, h8, h9, h10, h11, h12, h13, h14, h15, h16]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
